-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) →
    ∃ (v0 : (c : Dev Cert.KernelIdeal.nD) → Buf (Elt Ideal) ((c.tc : Thread Cert.KernelIdeal.nD Cert.KernelIdeal.τ).loc Cert.KernelIdeal.main_v50)) (v1 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_v65) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_v125) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x58 : Shape := ⟨2, ![50000, 58]⟩
abbrev S100000x768 : Shape := ⟨2, ![100000, 768]⟩
abbrev S50000 : Shape := ⟨1, ![50000]⟩
abbrev S100000 : Shape := ⟨1, ![100000]⟩
abbrev S1000000 : Shape := ⟨1, ![1000000]⟩
abbrev S58x64 : Shape := ⟨2, ![58, 64]⟩
abbrev S64 : Shape := ⟨1, ![64]⟩
abbrev S768x64 : Shape := ⟨2, ![768, 64]⟩
abbrev S50000x64 : Shape := ⟨2, ![50000, 64]⟩
abbrev S100000x64 : Shape := ⟨2, ![100000, 64]⟩
abbrev S64x64 : Shape := ⟨2, ![64, 64]⟩
abbrev S_ : Shape := ⟨0, ![]⟩

class Facts : Prop where
  bcast_S_S50000x58 : S_.BroadcastsInDim S50000x58 (![] : Fin 0 → Fin S50000x58.rank)
  reducesTo_S50000x58_S_d0_1 : S50000x58.ReducesTo [0, 1] S_
  h_S_ : 0 < S_.numel
  bcast_S_S100000x768 : S_.BroadcastsInDim S100000x768 (![] : Fin 0 → Fin S100000x768.rank)
  reducesTo_S100000x768_S_d0_1 : S100000x768.ReducesTo [0, 1] S_
  bcast_S_S58x64 : S_.BroadcastsInDim S58x64 (![] : Fin 0 → Fin S58x64.rank)
  reducesTo_S58x64_S_d0_1 : S58x64.ReducesTo [0, 1] S_
  bcast_S_S64 : S_.BroadcastsInDim S64 (![] : Fin 0 → Fin S64.rank)
  reducesTo_S64_S_d0 : S64.ReducesTo [0] S_
  bcast_S_S768x64 : S_.BroadcastsInDim S768x64 (![] : Fin 0 → Fin S768x64.rank)
  reducesTo_S768x64_S_d0_1 : S768x64.ReducesTo [0, 1] S_
  bcast_S_S50000x64 : S_.BroadcastsInDim S50000x64 (![] : Fin 0 → Fin S50000x64.rank)
  reducesTo_S50000x64_S_d0_1 : S50000x64.ReducesTo [0, 1] S_
  bcast_S_S100000x64 : S_.BroadcastsInDim S100000x64 (![] : Fin 0 → Fin S100000x64.rank)
  reducesTo_S100000x64_S_d0_1 : S100000x64.ReducesTo [0, 1] S_
  bcast_S_S64x64 : S_.BroadcastsInDim S64x64 (![] : Fin 0 → Fin S64x64.rank)
  reducesTo_S64x64_S_d0_1 : S64x64.ReducesTo [0, 1] S_
  bcast_S_S50000 : S_.BroadcastsInDim S50000 (![] : Fin 0 → Fin S50000.rank)
  reducesTo_S50000_S_d0 : S50000.ReducesTo [0] S_
  bcast_S_S100000 : S_.BroadcastsInDim S100000 (![] : Fin 0 → Fin S100000.rank)
  reducesTo_S100000_S_d0 : S100000.ReducesTo [0] S_
  bcast_S_S1000000 : S_.BroadcastsInDim S1000000 (![] : Fin 0 → Fin S1000000.rank)
  reducesTo_S1000000_S_d0 : S1000000.ReducesTo [0] S_

variable [Facts]

def fn_part7 {F : FTy → Type} [FloatOps F] (main_arg5 : IVec S1000000 32) (main_v112 : IVec S_ 1) (main_v118 : IVec S_ 1) : IVec S_ 1 :=
  let main_v119 : IVec S_ 1 := andi main_v112 main_v118
  let main_c_47 : IVec S_ 32 := constantI S_ 32 0#32
  let main_v120 : IVec S1000000 32 := broadcastInDim S1000000 ![] bcast_S_S1000000 main_c_47
  let main_v121 : IVec S1000000 1 := cmpi .sge main_arg5 main_v120
  let main_c_48 : IVec S_ 32 := constantI S_ 32 100000#32
  let main_v122 : IVec S1000000 32 := broadcastInDim S1000000 ![] bcast_S_S1000000 main_c_48
  let main_v123 : IVec S1000000 1 := cmpi .slt main_arg5 main_v122
  let main_v124 : IVec S1000000 1 := andi main_v121 main_v123
  let main_c_49 : IVec S_ 1 := constantI S_ 1 1#1
  let main_v125 : IVec S_ 1 := (fun x v => Host.reduce IntOp.andi x v reducesTo_S1000000_S_d0 h_S_) main_v124 main_c_49
  let main_v126 : IVec S_ 1 := andi main_v119 main_v125
  main_v126

def fn_part6 {F : FTy → Type} [FloatOps F] (main_arg2 : IVec S50000 32) (main_arg3 : IVec S100000 32) (main_arg4 : IVec S1000000 32) (main_arg5 : IVec S1000000 32) (main_v98 : IVec S_ 1) (main_v100 : IVec S50000 1) (main_v101 : IVec S50000 32) : IVec S_ 1 :=
  let main_v102 : IVec S50000 1 := cmpi .slt main_arg2 main_v101
  let main_v103 : IVec S50000 1 := andi main_v100 main_v102
  let main_c_40 : IVec S_ 1 := constantI S_ 1 1#1
  let main_v104 : IVec S_ 1 := (fun x v => Host.reduce IntOp.andi x v reducesTo_S50000_S_d0 h_S_) main_v103 main_c_40
  let main_v105 : IVec S_ 1 := andi main_v98 main_v104
  let main_c_41 : IVec S_ 32 := constantI S_ 32 0#32
  let main_v106 : IVec S100000 32 := broadcastInDim S100000 ![] bcast_S_S100000 main_c_41
  let main_v107 : IVec S100000 1 := cmpi .sge main_arg3 main_v106
  let main_c_42 : IVec S_ 32 := constantI S_ 32 100000#32
  let main_v108 : IVec S100000 32 := broadcastInDim S100000 ![] bcast_S_S100000 main_c_42
  let main_v109 : IVec S100000 1 := cmpi .slt main_arg3 main_v108
  let main_v110 : IVec S100000 1 := andi main_v107 main_v109
  let main_c_43 : IVec S_ 1 := constantI S_ 1 1#1
  let main_v111 : IVec S_ 1 := (fun x v => Host.reduce IntOp.andi x v reducesTo_S100000_S_d0 h_S_) main_v110 main_c_43
  let main_v112 : IVec S_ 1 := andi main_v105 main_v111
  let main_c_44 : IVec S_ 32 := constantI S_ 32 0#32
  let main_v113 : IVec S1000000 32 := broadcastInDim S1000000 ![] bcast_S_S1000000 main_c_44
  let main_v114 : IVec S1000000 1 := cmpi .sge main_arg4 main_v113
  let main_c_45 : IVec S_ 32 := constantI S_ 32 50000#32
  let main_v115 : IVec S1000000 32 := broadcastInDim S1000000 ![] bcast_S_S1000000 main_c_45
  let main_v116 : IVec S1000000 1 := cmpi .slt main_arg4 main_v115
  let main_v117 : IVec S1000000 1 := andi main_v114 main_v116
  let main_c_46 : IVec S_ 1 := constantI S_ 1 1#1
  let main_v118 : IVec S_ 1 := (fun x v => Host.reduce IntOp.andi x v reducesTo_S1000000_S_d0 h_S_) main_v117 main_c_46
  fn_part7 (F := F) main_arg5 main_v112 main_v118

def fn_part5 {F : FTy → Type} [FloatOps F] (main_arg2 : IVec S50000 32) (main_arg3 : IVec S100000 32) (main_arg4 : IVec S1000000 32) (main_arg5 : IVec S1000000 32) (main_arg22 : FVec F S64 .f32) (main_arg23 : FVec F S64x64 .f32) (main_v83 : IVec S_ 1) (main_v84 : FVec F S64x64 .f32) (main_cst_32 : FVec F S_ .f32) : IVec S_ 1 :=
  let main_v85 : FVec F S64x64 .f32 := broadcastInDim S64x64 ![] bcast_S_S64x64 main_cst_32
  let main_v86 : IVec S64x64 1 := cmpf .olt main_v84 main_v85
  let main_c_33 : IVec S_ 1 := constantI S_ 1 1#1
  let main_v87 : IVec S_ 1 := (fun x v => Host.reduce IntOp.andi x v reducesTo_S64x64_S_d0_1 h_S_) main_v86 main_c_33
  let main_v88 : IVec S_ 1 := andi main_v83 main_v87
  let main_v89 : FVec F S64 .f32 := Host.absf main_arg22
  let main_cst_34 : FVec F S_ .f32 := constant S_ .f32 0x7F800000#32
  let main_v90 : FVec F S64 .f32 := broadcastInDim S64 ![] bcast_S_S64 main_cst_34
  let main_v91 : IVec S64 1 := cmpf .olt main_v89 main_v90
  let main_c_35 : IVec S_ 1 := constantI S_ 1 1#1
  let main_v92 : IVec S_ 1 := (fun x v => Host.reduce IntOp.andi x v reducesTo_S64_S_d0 h_S_) main_v91 main_c_35
  let main_v93 : IVec S_ 1 := andi main_v88 main_v92
  let main_v94 : FVec F S64x64 .f32 := Host.absf main_arg23
  let main_cst_36 : FVec F S_ .f32 := constant S_ .f32 0x7F800000#32
  let main_v95 : FVec F S64x64 .f32 := broadcastInDim S64x64 ![] bcast_S_S64x64 main_cst_36
  let main_v96 : IVec S64x64 1 := cmpf .olt main_v94 main_v95
  let main_c_37 : IVec S_ 1 := constantI S_ 1 1#1
  let main_v97 : IVec S_ 1 := (fun x v => Host.reduce IntOp.andi x v reducesTo_S64x64_S_d0_1 h_S_) main_v96 main_c_37
  let main_v98 : IVec S_ 1 := andi main_v93 main_v97
  let main_c_38 : IVec S_ 32 := constantI S_ 32 0#32
  let main_v99 : IVec S50000 32 := broadcastInDim S50000 ![] bcast_S_S50000 main_c_38
  let main_v100 : IVec S50000 1 := cmpi .sge main_arg2 main_v99
  let main_c_39 : IVec S_ 32 := constantI S_ 32 50000#32
  let main_v101 : IVec S50000 32 := broadcastInDim S50000 ![] bcast_S_S50000 main_c_39
  fn_part6 (F := F) main_arg2 main_arg3 main_arg4 main_arg5 main_v98 main_v100 main_v101

def fn_part4 {F : FTy → Type} [FloatOps F] (main_arg2 : IVec S50000 32) (main_arg3 : IVec S100000 32) (main_arg4 : IVec S1000000 32) (main_arg5 : IVec S1000000 32) (main_arg18 : FVec F S64x64 .f32) (main_arg19 : FVec F S64 .f32) (main_arg20 : FVec F S64x64 .f32) (main_arg21 : FVec F S64x64 .f32) (main_arg22 : FVec F S64 .f32) (main_arg23 : FVec F S64x64 .f32) (main_v63 : IVec S_ 1) (main_v67 : IVec S_ 1) : IVec S_ 1 :=
  let main_v68 : IVec S_ 1 := andi main_v63 main_v67
  let main_v69 : FVec F S64x64 .f32 := Host.absf main_arg18
  let main_cst_26 : FVec F S_ .f32 := constant S_ .f32 0x7F800000#32
  let main_v70 : FVec F S64x64 .f32 := broadcastInDim S64x64 ![] bcast_S_S64x64 main_cst_26
  let main_v71 : IVec S64x64 1 := cmpf .olt main_v69 main_v70
  let main_c_27 : IVec S_ 1 := constantI S_ 1 1#1
  let main_v72 : IVec S_ 1 := (fun x v => Host.reduce IntOp.andi x v reducesTo_S64x64_S_d0_1 h_S_) main_v71 main_c_27
  let main_v73 : IVec S_ 1 := andi main_v68 main_v72
  let main_v74 : FVec F S64 .f32 := Host.absf main_arg19
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_v79 : FVec F S64x64 .f32 := Host.absf main_arg20
  let main_cst_30 : FVec F S_ .f32 := constant S_ .f32 0x7F800000#32
  let main_v80 : FVec F S64x64 .f32 := broadcastInDim S64x64 ![] bcast_S_S64x64 main_cst_30
  let main_v81 : IVec S64x64 1 := cmpf .olt main_v79 main_v80
  let main_c_31 : IVec S_ 1 := constantI S_ 1 1#1
  let main_v82 : IVec S_ 1 := (fun x v => Host.reduce IntOp.andi x v reducesTo_S64x64_S_d0_1 h_S_) main_v81 main_c_31
  let main_v83 : IVec S_ 1 := andi main_v78 main_v82
  let main_v84 : FVec F S64x64 .f32 := Host.absf main_arg21
  let main_cst_32 : FVec F S_ .f32 := constant S_ .f32 0x7F800000#32
  fn_part5 (F := F) main_arg2 main_arg3 main_arg4 main_arg5 main_arg22 main_arg23 main_v83 main_v84 main_cst_32

def fn_part3 {F : FTy → Type} [FloatOps F] (main_arg2 : IVec S50000 32) (main_arg3 : IVec S100000 32) (main_arg4 : IVec S1000000 32) (main_arg5 : IVec S1000000 32) (main_arg15 : FVec F S64x64 .f32) (main_arg16 : FVec F S64 .f32) (main_arg17 : FVec F S64x64 .f32) (main_arg18 : FVec F S64x64 .f32) (main_arg19 : FVec F S64 .f32) (main_arg20 : FVec F S64x64 .f32) (main_arg21 : FVec F S64x64 .f32) (main_arg22 : FVec F S64 .f32) (main_arg23 : FVec F S64x64 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64x64 .f32 := Host.absf main_arg15
  let main_cst_20 : FVec F S_ .f32 := constant S_ .f32 0x7F800000#32
  let main_v55 : FVec F S64x64 .f32 := broadcastInDim S64x64 ![] bcast_S_S64x64 main_cst_20
  let main_v56 : IVec S64x64 1 := cmpf .olt main_v54 main_v55
  let main_c_21 : IVec S_ 1 := constantI S_ 1 1#1
  let main_v57 : IVec S_ 1 := (fun x v => Host.reduce IntOp.andi x v reducesTo_S64x64_S_d0_1 h_S_) main_v56 main_c_21
  let main_v58 : IVec S_ 1 := andi main_v53 main_v57
  let main_v59 : FVec F S64 .f32 := Host.absf main_arg16
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x64 .f32 := Host.absf main_arg17
  let main_cst_24 : FVec F S_ .f32 := constant S_ .f32 0x7F800000#32
  let main_v65 : FVec F S64x64 .f32 := broadcastInDim S64x64 ![] bcast_S_S64x64 main_cst_24
  let main_v66 : IVec S64x64 1 := cmpf .olt main_v64 main_v65
  let main_c_25 : IVec S_ 1 := constantI S_ 1 1#1
  let main_v67 : IVec S_ 1 := (fun x v => Host.reduce IntOp.andi x v reducesTo_S64x64_S_d0_1 h_S_) main_v66 main_c_25
  fn_part4 (F := F) main_arg2 main_arg3 main_arg4 main_arg5 main_arg18 main_arg19 main_arg20 main_arg21 main_arg22 main_arg23 main_v63 main_v67

def fn_part2 {F : FTy → Type} [FloatOps F] (main_arg2 : IVec S50000 32) (main_arg3 : IVec S100000 32) (main_arg4 : IVec S1000000 32) (main_arg5 : IVec S1000000 32) (main_arg11 : FVec F S100000x64 .f32) (main_arg12 : FVec F S64x64 .f32) (main_arg13 : FVec F S64 .f32) (main_arg14 : FVec F S64x64 .f32) (main_arg15 : FVec F S64x64 .f32) (main_arg16 : FVec F S64 .f32) (main_arg17 : FVec F S64x64 .f32) (main_arg18 : FVec F S64x64 .f32) (main_arg19 : FVec F S64 .f32) (main_arg20 : FVec F S64x64 .f32) (main_arg21 : FVec F S64x64 .f32) (main_arg22 : FVec F S64 .f32) (main_arg23 : FVec F S64x64 .f32) (main_v33 : IVec S_ 1) : IVec S_ 1 :=
  let main_v34 : FVec F S100000x64 .f32 := Host.absf main_arg11
  let main_cst_12 : FVec F S_ .f32 := constant S_ .f32 0x7F800000#32
  let main_v35 : FVec F S100000x64 .f32 := broadcastInDim S100000x64 ![] bcast_S_S100000x64 main_cst_12
  let main_v36 : IVec S100000x64 1 := cmpf .olt main_v34 main_v35
  let main_c_13 : IVec S_ 1 := constantI S_ 1 1#1
  let main_v37 : IVec S_ 1 := (fun x v => Host.reduce IntOp.andi x v reducesTo_S100000x64_S_d0_1 h_S_) main_v36 main_c_13
  let main_v38 : IVec S_ 1 := andi main_v33 main_v37
  let main_v39 : FVec F S64x64 .f32 := Host.absf main_arg12
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg13
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x64 .f32 := Host.absf main_arg14
  let main_cst_18 : FVec F S_ .f32 := constant S_ .f32 0x7F800000#32
  let main_v50 : FVec F S64x64 .f32 := broadcastInDim S64x64 ![] bcast_S_S64x64 main_cst_18
  fn_part3 (F := F) main_arg2 main_arg3 main_arg4 main_arg5 main_arg15 main_arg16 main_arg17 main_arg18 main_arg19 main_arg20 main_arg21 main_arg22 main_arg23 main_v48 main_v49 main_v50

def fn_part1 {F : FTy → Type} [FloatOps F] (main_arg2 : IVec S50000 32) (main_arg3 : IVec S100000 32) (main_arg4 : IVec S1000000 32) (main_arg5 : IVec S1000000 32) (main_arg8 : FVec F S768x64 .f32) (main_arg9 : FVec F S64 .f32) (main_arg10 : FVec F S50000x64 .f32) (main_arg11 : FVec F S100000x64 .f32) (main_arg12 : FVec F S64x64 .f32) (main_arg13 : FVec F S64 .f32) (main_arg14 : FVec F S64x64 .f32) (main_arg15 : FVec F S64x64 .f32) (main_arg16 : FVec F S64 .f32) (main_arg17 : FVec F S64x64 .f32) (main_arg18 : FVec F S64x64 .f32) (main_arg19 : FVec F S64 .f32) (main_arg20 : FVec F S64x64 .f32) (main_arg21 : FVec F S64x64 .f32) (main_arg22 : FVec F S64 .f32) (main_arg23 : FVec F S64x64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S768x64 .f32 := Host.absf main_arg8
  let main_cst_6 : FVec F S_ .f32 := constant S_ .f32 0x7F800000#32
  let main_v20 : FVec F S768x64 .f32 := broadcastInDim S768x64 ![] bcast_S_S768x64 main_cst_6
  let main_v21 : IVec S768x64 1 := cmpf .olt main_v19 main_v20
  let main_c_7 : IVec S_ 1 := constantI S_ 1 1#1
  let main_v22 : IVec S_ 1 := (fun x v => Host.reduce IntOp.andi x v reducesTo_S768x64_S_d0_1 h_S_) main_v21 main_c_7
  let main_v23 : IVec S_ 1 := andi main_v18 main_v22
  let main_v24 : FVec F S64 .f32 := Host.absf main_arg9
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S50000x64 .f32 := Host.absf main_arg10
  let main_cst_10 : FVec F S_ .f32 := constant S_ .f32 0x7F800000#32
  let main_v30 : FVec F S50000x64 .f32 := broadcastInDim S50000x64 ![] bcast_S_S50000x64 main_cst_10
  let main_v31 : IVec S50000x64 1 := cmpf .olt main_v29 main_v30
  let main_c_11 : IVec S_ 1 := constantI S_ 1 1#1
  let main_v32 : IVec S_ 1 := (fun x v => Host.reduce IntOp.andi x v reducesTo_S50000x64_S_d0_1 h_S_) main_v31 main_c_11
  let main_v33 : IVec S_ 1 := andi main_v28 main_v32
  fn_part2 (F := F) main_arg2 main_arg3 main_arg4 main_arg5 main_arg11 main_arg12 main_arg13 main_arg14 main_arg15 main_arg16 main_arg17 main_arg18 main_arg19 main_arg20 main_arg21 main_arg22 main_arg23 main_v33

def fn {F : FTy → Type} [FloatOps F] (main_arg0 : FVec F S50000x58 .f32) (main_arg1 : FVec F S100000x768 .f32) (main_arg2 : IVec S50000 32) (main_arg3 : IVec S100000 32) (main_arg4 : IVec S1000000 32) (main_arg5 : IVec S1000000 32) (main_arg6 : FVec F S58x64 .f32) (main_arg7 : FVec F S64 .f32) (main_arg8 : FVec F S768x64 .f32) (main_arg9 : FVec F S64 .f32) (main_arg10 : FVec F S50000x64 .f32) (main_arg11 : FVec F S100000x64 .f32) (main_arg12 : FVec F S64x64 .f32) (main_arg13 : FVec F S64 .f32) (main_arg14 : FVec F S64x64 .f32) (main_arg15 : FVec F S64x64 .f32) (main_arg16 : FVec F S64 .f32) (main_arg17 : FVec F S64x64 .f32) (main_arg18 : FVec F S64x64 .f32) (main_arg19 : FVec F S64 .f32) (main_arg20 : FVec F S64x64 .f32) (main_arg21 : FVec F S64x64 .f32) (main_arg22 : FVec F S64 .f32) (main_arg23 : FVec F S64x64 .f32) : IVec S_ 1 :=
  let main_v0 : FVec F S50000x58 .f32 := Host.absf main_arg0
  let main_cst : FVec F S_ .f32 := constant S_ .f32 0x7F800000#32
  let main_v1 : FVec F S50000x58 .f32 := broadcastInDim S50000x58 ![] bcast_S_S50000x58 main_cst
  let main_v2 : IVec S50000x58 1 := cmpf .olt main_v0 main_v1
  let main_c : IVec S_ 1 := constantI S_ 1 1#1
  let main_v3 : IVec S_ 1 := (fun x v => Host.reduce IntOp.andi x v reducesTo_S50000x58_S_d0_1 h_S_) main_v2 main_c
  let main_v4 : FVec F S100000x768 .f32 := Host.absf main_arg1
  let main_cst_0 : FVec F S_ .f32 := constant S_ .f32 0x7F800000#32
  let main_v5 : FVec F S100000x768 .f32 := broadcastInDim S100000x768 ![] bcast_S_S100000x768 main_cst_0
  let main_v6 : IVec S100000x768 1 := cmpf .olt main_v4 main_v5
  let main_c_1 : IVec S_ 1 := constantI S_ 1 1#1
  let main_v7 : IVec S_ 1 := (fun x v => Host.reduce IntOp.andi x v reducesTo_S100000x768_S_d0_1 h_S_) main_v6 main_c_1
  let main_v8 : IVec S_ 1 := andi main_v3 main_v7
  let main_v9 : FVec F S58x64 .f32 := Host.absf main_arg6
  let main_cst_2 : FVec F S_ .f32 := constant S_ .f32 0x7F800000#32
  let main_v10 : FVec F S58x64 .f32 := broadcastInDim S58x64 ![] bcast_S_S58x64 main_cst_2
  let main_v11 : IVec S58x64 1 := cmpf .olt main_v9 main_v10
  let main_c_3 : IVec S_ 1 := constantI S_ 1 1#1
  let main_v12 : IVec S_ 1 := (fun x v => Host.reduce IntOp.andi x v reducesTo_S58x64_S_d0_1 h_S_) main_v11 main_c_3
  let main_v13 : IVec S_ 1 := andi main_v8 main_v12
  let main_v14 : FVec F S64 .f32 := Host.absf main_arg7
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg2 main_arg3 main_arg4 main_arg5 main_arg8 main_arg9 main_arg10 main_arg11 main_arg12 main_arg13 main_arg14 main_arg15 main_arg16 main_arg17 main_arg18 main_arg19 main_arg20 main_arg21 main_arg22 main_arg23 main_v13 main_v16
-- ==== Kernel.lean ====
abbrev S50000x58 : Shape := ⟨2, ![50000, 58]⟩
abbrev S100000x768 : Shape := ⟨2, ![100000, 768]⟩
abbrev S50000 : Shape := ⟨1, ![50000]⟩
abbrev S100000 : Shape := ⟨1, ![100000]⟩
abbrev S1000000 : Shape := ⟨1, ![1000000]⟩
abbrev S58x64 : Shape := ⟨2, ![58, 64]⟩
abbrev S64 : Shape := ⟨1, ![64]⟩
abbrev S768x64 : Shape := ⟨2, ![768, 64]⟩
abbrev S50000x64 : Shape := ⟨2, ![50000, 64]⟩
abbrev S100000x64 : Shape := ⟨2, ![100000, 64]⟩
abbrev S64x64 : Shape := ⟨2, ![64, 64]⟩
abbrev S_ : Shape := ⟨0, ![]⟩
abbrev S50000x1 : Shape := ⟨2, ![50000, 1]⟩
abbrev S1 : Shape := ⟨1, ![1]⟩
abbrev S1x1 : Shape := ⟨2, ![1, 1]⟩
abbrev S100000x1 : Shape := ⟨2, ![100000, 1]⟩
abbrev S1x64 : Shape := ⟨2, ![1, 64]⟩
abbrev S5000x58 : Shape := ⟨2, ![5000, 58]⟩
abbrev S5000x64 : Shape := ⟨2, ![5000, 64]⟩
abbrev S5000x768 : Shape := ⟨2, ![5000, 768]⟩
abbrev S1000000x1 : Shape := ⟨2, ![1000000, 1]⟩
abbrev S1000000x64 : Shape := ⟨2, ![1000000, 64]⟩

abbrev nBuf : Space → Nat
  | .hbm => 238
  | .vmem => 52
  | .smem => 0
  | _ => 0

abbrev hbmTy0_0 (i : Nat) : BufTy := match i % 128 with
  | 0 => ⟨S50000x58, .f32⟩
  | 1 => ⟨S100000x768, .f32⟩
  | 2 => ⟨S50000, .i32⟩
  | 3 => ⟨S100000, .i32⟩
  | 4 => ⟨S1000000, .i32⟩
  | 5 => ⟨S1000000, .i32⟩
  | 6 => ⟨S58x64, .f32⟩
  | 7 => ⟨S64, .f32⟩
  | 8 => ⟨S768x64, .f32⟩
  | 9 => ⟨S64, .f32⟩
  | 10 => ⟨S50000x64, .f32⟩
  | 11 => ⟨S100000x64, .f32⟩
  | 12 => ⟨S64x64, .f32⟩
  | 13 => ⟨S64, .f32⟩
  | 14 => ⟨S64x64, .f32⟩
  | 15 => ⟨S64x64, .f32⟩
  | 16 => ⟨S64, .f32⟩
  | 17 => ⟨S64x64, .f32⟩
  | 18 => ⟨S64x64, .f32⟩
  | 19 => ⟨S64, .f32⟩
  | 20 => ⟨S64x64, .f32⟩
  | 21 => ⟨S64x64, .f32⟩
  | 22 => ⟨S64, .f32⟩
  | 23 => ⟨S64x64, .f32⟩
  | 24 => ⟨S_, .i32⟩
  | 25 => ⟨S50000, .i32⟩
  | 26 => ⟨S50000, .i1⟩
  | 27 => ⟨S_, .i32⟩
  | 28 => ⟨S50000, .i32⟩
  | 29 => ⟨S50000, .i32⟩
  | 30 => ⟨S50000, .i32⟩
  | 31 => ⟨S50000x1, .i32⟩
  | 32 => ⟨S1, .i32⟩
  | 33 => ⟨S_, .i32⟩
  | 34 => ⟨S50000x1, .i32⟩
  | 35 => ⟨S50000x1, .i1⟩
  | 36 => ⟨S1x1, .i32⟩
  | 37 => ⟨S50000x1, .i32⟩
  | 38 => ⟨S50000x1, .i1⟩
  | 39 => ⟨S50000x1, .i1⟩
  | 40 => ⟨S_, .i1⟩
  | 41 => ⟨S50000, .i1⟩
  | 42 => ⟨S50000x64, .f32⟩
  | 43 => ⟨S50000x64, .i1⟩
  | 44 => ⟨S_, .f32⟩
  | 45 => ⟨S50000x64, .f32⟩
  | 46 => ⟨S50000x64, .f32⟩
  | 47 => ⟨S_, .i32⟩
  | 48 => ⟨S100000, .i32⟩
  | 49 => ⟨S100000, .i1⟩
  | 50 => ⟨S_, .i32⟩
  | 51 => ⟨S100000, .i32⟩
  | 52 => ⟨S100000, .i32⟩
  | 53 => ⟨S100000, .i32⟩
  | 54 => ⟨S100000x1, .i32⟩
  | 55 => ⟨S1, .i32⟩
  | 56 => ⟨S_, .i32⟩
  | 57 => ⟨S100000x1, .i32⟩
  | 58 => ⟨S100000x1, .i1⟩
  | 59 => ⟨S1x1, .i32⟩
  | 60 => ⟨S100000x1, .i32⟩
  | 61 => ⟨S100000x1, .i1⟩
  | 62 => ⟨S100000x1, .i1⟩
  | 63 => ⟨S_, .i1⟩
  | 64 => ⟨S100000, .i1⟩
  | 65 => ⟨S100000x64, .f32⟩
  | 66 => ⟨S100000x64, .i1⟩
  | 67 => ⟨S_, .f32⟩
  | 68 => ⟨S100000x64, .f32⟩
  | 69 => ⟨S100000x64, .f32⟩
  | 70 => ⟨S1x64, .f32⟩
  | 71 => ⟨S50000x64, .f32⟩
  | 72 => ⟨S1x64, .f32⟩
  | 73 => ⟨S100000x64, .f32⟩
  | 74 => ⟨S_, .i32⟩
  | 75 => ⟨S1000000, .i32⟩
  | 76 => ⟨S1000000, .i1⟩
  | 77 => ⟨S_, .i32⟩
  | 78 => ⟨S1000000, .i32⟩
  | 79 => ⟨S1000000, .i32⟩
  | 80 => ⟨S1000000, .i32⟩
  | 81 => ⟨S1000000x1, .i32⟩
  | 82 => ⟨S1, .i32⟩
  | 83 => ⟨S_, .i32⟩
  | 84 => ⟨S1000000x1, .i32⟩
  | 85 => ⟨S1000000x1, .i1⟩
  | 86 => ⟨S1x1, .i32⟩
  | 87 => ⟨S1000000x1, .i32⟩
  | 88 => ⟨S1000000x1, .i1⟩
  | 89 => ⟨S1000000x1, .i1⟩
  | 90 => ⟨S_, .i1⟩
  | 91 => ⟨S1000000, .i1⟩
  | 92 => ⟨S1000000x64, .f32⟩
  | 93 => ⟨S1000000x64, .i1⟩
  | 94 => ⟨S_, .f32⟩
  | 95 => ⟨S1000000x64, .f32⟩
  | 96 => ⟨S1000000x64, .f32⟩
  | 97 => ⟨S_, .f32⟩
  | 98 => ⟨S50000x64, .f32⟩
  | 99 => ⟨S1000000x1, .i32⟩
  | 100 => ⟨S50000x64, .f32⟩
  | 101 => ⟨S_, .f32⟩
  | 102 => ⟨S1000000, .f32⟩
  | 103 => ⟨S_, .f32⟩
  | 104 => ⟨S50000, .f32⟩
  | 105 => ⟨S1000000x1, .i32⟩
  | 106 => ⟨S50000, .f32⟩
  | 107 => ⟨S_, .f32⟩
  | 108 => ⟨S50000, .f32⟩
  | 109 => ⟨S50000, .f32⟩
  | 110 => ⟨S50000x1, .f32⟩
  | 111 => ⟨S50000x64, .f32⟩
  | 112 => ⟨S50000x64, .f32⟩
  | 113 => ⟨S1x64, .f32⟩
  | 114 => ⟨S50000x64, .f32⟩
  | 115 => ⟨S_, .i32⟩
  | 116 => ⟨S1000000, .i32⟩
  | 117 => ⟨S1000000, .i1⟩
  | 118 => ⟨S_, .i32⟩
  | 119 => ⟨S1000000, .i32⟩
  | 120 => ⟨S1000000, .i32⟩
  | 121 => ⟨S1000000, .i32⟩
  | 122 => ⟨S1000000x1, .i32⟩
  | 123 => ⟨S1, .i32⟩
  | 124 => ⟨S_, .i32⟩
  | 125 => ⟨S1000000x1, .i32⟩
  | 126 => ⟨S1000000x1, .i1⟩
  | 127 => ⟨S1x1, .i32⟩
  | _ => ⟨S50000x58, .f32⟩

abbrev hbmTy0_1 (i : Nat) : BufTy := match i % 128 with
  | 0 => ⟨S1000000x1, .i32⟩
  | 1 => ⟨S1000000x1, .i1⟩
  | 2 => ⟨S1000000x1, .i1⟩
  | 3 => ⟨S_, .i1⟩
  | 4 => ⟨S1000000, .i1⟩
  | 5 => ⟨S1000000x64, .f32⟩
  | 6 => ⟨S1000000x64, .i1⟩
  | 7 => ⟨S_, .f32⟩
  | 8 => ⟨S1000000x64, .f32⟩
  | 9 => ⟨S1000000x64, .f32⟩
  | 10 => ⟨S_, .f32⟩
  | 11 => ⟨S100000x64, .f32⟩
  | 12 => ⟨S1000000x1, .i32⟩
  | 13 => ⟨S100000x64, .f32⟩
  | 14 => ⟨S_, .f32⟩
  | 15 => ⟨S1000000, .f32⟩
  | 16 => ⟨S_, .f32⟩
  | 17 => ⟨S100000, .f32⟩
  | 18 => ⟨S1000000x1, .i32⟩
  | 19 => ⟨S100000, .f32⟩
  | 20 => ⟨S_, .f32⟩
  | 21 => ⟨S100000, .f32⟩
  | 22 => ⟨S100000, .f32⟩
  | 23 => ⟨S100000x1, .f32⟩
  | 24 => ⟨S100000x64, .f32⟩
  | 25 => ⟨S100000x64, .f32⟩
  | 26 => ⟨S1x64, .f32⟩
  | 27 => ⟨S100000x64, .f32⟩
  | 28 => ⟨S_, .i32⟩
  | 29 => ⟨S1000000, .i32⟩
  | 30 => ⟨S1000000, .i1⟩
  | 31 => ⟨S_, .i32⟩
  | 32 => ⟨S1000000, .i32⟩
  | 33 => ⟨S1000000, .i32⟩
  | 34 => ⟨S1000000, .i32⟩
  | 35 => ⟨S1000000x1, .i32⟩
  | 36 => ⟨S1, .i32⟩
  | 37 => ⟨S_, .i32⟩
  | 38 => ⟨S1000000x1, .i32⟩
  | 39 => ⟨S1000000x1, .i1⟩
  | 40 => ⟨S1x1, .i32⟩
  | 41 => ⟨S1000000x1, .i32⟩
  | 42 => ⟨S1000000x1, .i1⟩
  | 43 => ⟨S1000000x1, .i1⟩
  | 44 => ⟨S_, .i1⟩
  | 45 => ⟨S1000000, .i1⟩
  | 46 => ⟨S1000000x64, .f32⟩
  | 47 => ⟨S1000000x64, .i1⟩
  | 48 => ⟨S_, .f32⟩
  | 49 => ⟨S1000000x64, .f32⟩
  | 50 => ⟨S1000000x64, .f32⟩
  | 51 => ⟨S_, .f32⟩
  | 52 => ⟨S50000x64, .f32⟩
  | 53 => ⟨S1000000x1, .i32⟩
  | 54 => ⟨S50000x64, .f32⟩
  | 55 => ⟨S_, .f32⟩
  | 56 => ⟨S1000000, .f32⟩
  | 57 => ⟨S_, .f32⟩
  | 58 => ⟨S50000, .f32⟩
  | 59 => ⟨S1000000x1, .i32⟩
  | 60 => ⟨S50000, .f32⟩
  | 61 => ⟨S_, .f32⟩
  | 62 => ⟨S50000, .f32⟩
  | 63 => ⟨S50000, .f32⟩
  | 64 => ⟨S50000x1, .f32⟩
  | 65 => ⟨S50000x64, .f32⟩
  | 66 => ⟨S50000x64, .f32⟩
  | 67 => ⟨S1x64, .f32⟩
  | 68 => ⟨S50000x64, .f32⟩
  | 69 => ⟨S_, .i32⟩
  | 70 => ⟨S1000000, .i32⟩
  | 71 => ⟨S1000000, .i1⟩
  | 72 => ⟨S_, .i32⟩
  | 73 => ⟨S1000000, .i32⟩
  | 74 => ⟨S1000000, .i32⟩
  | 75 => ⟨S1000000, .i32⟩
  | 76 => ⟨S1000000x1, .i32⟩
  | 77 => ⟨S1, .i32⟩
  | 78 => ⟨S_, .i32⟩
  | 79 => ⟨S1000000x1, .i32⟩
  | 80 => ⟨S1000000x1, .i1⟩
  | 81 => ⟨S1x1, .i32⟩
  | 82 => ⟨S1000000x1, .i32⟩
  | 83 => ⟨S1000000x1, .i1⟩
  | 84 => ⟨S1000000x1, .i1⟩
  | 85 => ⟨S_, .i1⟩
  | 86 => ⟨S1000000, .i1⟩
  | 87 => ⟨S1000000x64, .f32⟩
  | 88 => ⟨S1000000x64, .i1⟩
  | 89 => ⟨S_, .f32⟩
  | 90 => ⟨S1000000x64, .f32⟩
  | 91 => ⟨S1000000x64, .f32⟩
  | 92 => ⟨S_, .f32⟩
  | 93 => ⟨S100000x64, .f32⟩
  | 94 => ⟨S1000000x1, .i32⟩
  | 95 => ⟨S100000x64, .f32⟩
  | 96 => ⟨S_, .f32⟩
  | 97 => ⟨S1000000, .f32⟩
  | 98 => ⟨S_, .f32⟩
  | 99 => ⟨S100000, .f32⟩
  | 100 => ⟨S1000000x1, .i32⟩
  | 101 => ⟨S100000, .f32⟩
  | 102 => ⟨S_, .f32⟩
  | 103 => ⟨S100000, .f32⟩
  | 104 => ⟨S100000, .f32⟩
  | 105 => ⟨S100000x1, .f32⟩
  | 106 => ⟨S100000x64, .f32⟩
  | 107 => ⟨S100000x64, .f32⟩
  | 108 => ⟨S1x64, .f32⟩
  | 109 => ⟨S100000x64, .f32⟩
  | _ => ⟨S50000x58, .f32⟩

abbrev hbmTy (i : Nat) : BufTy := match i / 128 with
  | 0 => hbmTy0_0 i
  | 1 => hbmTy0_1 i
  | _ => ⟨S50000x58, .f32⟩

abbrev bufTy : (tb : Table) → Fin (tcTables nBuf tb) → BufTy
  | .hbm, ⟨i, _⟩ => hbmTy i
  | .local _ .vmem, ⟨0, _⟩ => ⟨S5000x58, .f32⟩
  | .local _ .vmem, ⟨1, _⟩ => ⟨S5000x58, .f32⟩
  | .local _ .vmem, ⟨2, _⟩ => ⟨S58x64, .f32⟩
  | .local _ .vmem, ⟨3, _⟩ => ⟨S1x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x768, .f32⟩
  | .local _ .vmem, ⟨9, _⟩ => ⟨S5000x768, .f32⟩
  | .local _ .vmem, ⟨10, _⟩ => ⟨S768x64, .f32⟩
  | .local _ .vmem, ⟨11, _⟩ => ⟨S1x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S64x64, .f32⟩
  | .local _ .vmem, ⟨19, _⟩ => ⟨S1x64, .f32⟩
  | .local _ .vmem, ⟨20, _⟩ => ⟨S5000x64, .f32⟩
  | .local _ .vmem, ⟨21, _⟩ => ⟨S5000x64, .f32⟩
  | .local _ .vmem, ⟨22, _⟩ => ⟨S64x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S64x64, .f32⟩
  | .local _ .vmem, ⟨28, _⟩ => ⟨S1x64, .f32⟩
  | .local _ .vmem, ⟨29, _⟩ => ⟨S5000x64, .f32⟩
  | .local _ .vmem, ⟨30, _⟩ => ⟨S5000x64, .f32⟩
  | .local _ .vmem, ⟨31, _⟩ => ⟨S64x64, .f32⟩
  | .local _ .vmem, ⟨32, _⟩ => ⟨S5000x64, .f32⟩
  | .local _ .vmem, ⟨33, _⟩ => ⟨S5000x64, .f32⟩
  | .local _ .vmem, ⟨34, _⟩ => ⟨S5000x64, .f32⟩
  | .local _ .vmem, ⟨35, _⟩ => ⟨S5000x64, .f32⟩
  | .local _ .vmem, ⟨36, _⟩ => ⟨S64x64, .f32⟩
  | .local _ .vmem, ⟨37, _⟩ => ⟨S1x64, .f32⟩
  | .local _ .vmem, ⟨38, _⟩ => ⟨S5000x64, .f32⟩
  | .local _ .vmem, ⟨39, _⟩ => ⟨S5000x64, .f32⟩
  | .local _ .vmem, ⟨40, _⟩ => ⟨S64x64, .f32⟩
  | .local _ .vmem, ⟨41, _⟩ => ⟨S5000x64, .f32⟩
  | .local _ .vmem, ⟨42, _⟩ => ⟨S5000x64, .f32⟩
  | .local _ .vmem, ⟨43, _⟩ => ⟨S5000x64, .f32⟩
  | .local _ .vmem, ⟨44, _⟩ => ⟨S5000x64, .f32⟩
  | .local _ .vmem, ⟨45, _⟩ => ⟨S64x64, .f32⟩
  | .local _ .vmem, ⟨46, _⟩ => ⟨S1x64, .f32⟩
  | .local _ .vmem, ⟨47, _⟩ => ⟨S5000x64, .f32⟩
  | .local _ .vmem, ⟨48, _⟩ => ⟨S5000x64, .f32⟩
  | .local _ .vmem, ⟨49, _⟩ => ⟨S64x64, .f32⟩
  | .local _ .vmem, ⟨50, _⟩ => ⟨S5000x64, .f32⟩
  | .local _ .vmem, ⟨51, _⟩ => ⟨S5000x64, .f32⟩
  | _, _ => ⟨S50000x58, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | _, _ => false

abbrev semScoped : Fin 0 → Bool
  | ⟨_, h⟩ => absurd h (Nat.not_lt_zero _)

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  ofTc nBuf bufTy 0 52 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_call0_c : Ref sig .tc := ⟨.hbm, 24, rfl⟩
abbrev main_call0_v0 : Ref sig .tc := ⟨.hbm, 25, rfl⟩
abbrev main_call0_v1 : Ref sig .tc := ⟨.hbm, 26, rfl⟩
abbrev main_call0_c_0 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_c_1 : Ref sig .tc := ⟨.hbm, 32, rfl⟩
abbrev main_call0_c_2 : Ref sig .tc := ⟨.hbm, 33, rfl⟩
abbrev main_call0_v6 : Ref sig .tc := ⟨.hbm, 34, rfl⟩
abbrev main_call0_v7 : Ref sig .tc := ⟨.hbm, 35, rfl⟩
abbrev main_call0_v8 : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_call0_c_3 : Ref sig .tc := ⟨.hbm, 40, rfl⟩
abbrev main_call0_v12 : Ref sig .tc := ⟨.hbm, 41, rfl⟩
abbrev main_call0_v13 : Ref sig .tc := ⟨.hbm, 42, rfl⟩
abbrev main_call0_v14 : Ref sig .tc := ⟨.hbm, 43, rfl⟩
abbrev main_call0_cst : Ref sig .tc := ⟨.hbm, 44, rfl⟩
abbrev main_call0_v15 : Ref sig .tc := ⟨.hbm, 45, rfl⟩
abbrev main_v0 : Ref sig .tc := ⟨.hbm, 46, rfl⟩
abbrev main_call1_c : Ref sig .tc := ⟨.hbm, 47, rfl⟩
abbrev main_call1_v0 : Ref sig .tc := ⟨.hbm, 48, rfl⟩
abbrev main_call1_v1 : Ref sig .tc := ⟨.hbm, 49, rfl⟩
abbrev main_call1_c_0 : Ref sig .tc := ⟨.hbm, 50, rfl⟩
abbrev main_call1_v2 : Ref sig .tc := ⟨.hbm, 51, rfl⟩
abbrev main_call1_v3 : Ref sig .tc := ⟨.hbm, 52, rfl⟩
abbrev main_call1_v4 : Ref sig .tc := ⟨.hbm, 53, rfl⟩
abbrev main_call1_v5 : Ref sig .tc := ⟨.hbm, 54, rfl⟩
abbrev main_call1_c_1 : Ref sig .tc := ⟨.hbm, 55, rfl⟩
abbrev main_call1_c_2 : Ref sig .tc := ⟨.hbm, 56, rfl⟩
abbrev main_call1_v6 : Ref sig .tc := ⟨.hbm, 57, rfl⟩
abbrev main_call1_v7 : Ref sig .tc := ⟨.hbm, 58, rfl⟩
abbrev main_call1_v8 : Ref sig .tc := ⟨.hbm, 59, rfl⟩
abbrev main_call1_v9 : Ref sig .tc := ⟨.hbm, 60, rfl⟩
abbrev main_call1_v10 : Ref sig .tc := ⟨.hbm, 61, rfl⟩
abbrev main_call1_v11 : Ref sig .tc := ⟨.hbm, 62, rfl⟩
abbrev main_call1_c_3 : Ref sig .tc := ⟨.hbm, 63, rfl⟩
abbrev main_call1_v12 : Ref sig .tc := ⟨.hbm, 64, rfl⟩
abbrev main_call1_v13 : Ref sig .tc := ⟨.hbm, 65, rfl⟩
abbrev main_call1_v14 : Ref sig .tc := ⟨.hbm, 66, rfl⟩
abbrev main_call1_cst : Ref sig .tc := ⟨.hbm, 67, rfl⟩
abbrev main_call1_v15 : Ref sig .tc := ⟨.hbm, 68, rfl⟩
abbrev main_v1 : Ref sig .tc := ⟨.hbm, 69, rfl⟩
abbrev main_v2 : Ref sig .tc := ⟨.hbm, 70, rfl⟩
abbrev main_v3 : Ref sig .tc := ⟨.hbm, 71, rfl⟩
abbrev main_v4 : Ref sig .tc := ⟨.hbm, 72, rfl⟩
abbrev main_v5 : Ref sig .tc := ⟨.hbm, 73, rfl⟩
abbrev main_call2_c : Ref sig .tc := ⟨.hbm, 74, rfl⟩
abbrev main_call2_v0 : Ref sig .tc := ⟨.hbm, 75, rfl⟩
abbrev main_call2_v1 : Ref sig .tc := ⟨.hbm, 76, rfl⟩
abbrev main_call2_c_0 : Ref sig .tc := ⟨.hbm, 77, rfl⟩
abbrev main_call2_v2 : Ref sig .tc := ⟨.hbm, 78, rfl⟩
abbrev main_call2_v3 : Ref sig .tc := ⟨.hbm, 79, rfl⟩
abbrev main_call2_v4 : Ref sig .tc := ⟨.hbm, 80, rfl⟩
abbrev main_call2_v5 : Ref sig .tc := ⟨.hbm, 81, rfl⟩
abbrev main_call2_c_1 : Ref sig .tc := ⟨.hbm, 82, rfl⟩
abbrev main_call2_c_2 : Ref sig .tc := ⟨.hbm, 83, rfl⟩
abbrev main_call2_v6 : Ref sig .tc := ⟨.hbm, 84, rfl⟩
abbrev main_call2_v7 : Ref sig .tc := ⟨.hbm, 85, rfl⟩
abbrev main_call2_v8 : Ref sig .tc := ⟨.hbm, 86, rfl⟩
abbrev main_call2_v9 : Ref sig .tc := ⟨.hbm, 87, rfl⟩
abbrev main_call2_v10 : Ref sig .tc := ⟨.hbm, 88, rfl⟩
abbrev main_call2_v11 : Ref sig .tc := ⟨.hbm, 89, rfl⟩
abbrev main_call2_c_3 : Ref sig .tc := ⟨.hbm, 90, rfl⟩
abbrev main_call2_v12 : Ref sig .tc := ⟨.hbm, 91, rfl⟩
abbrev main_call2_v13 : Ref sig .tc := ⟨.hbm, 92, rfl⟩
abbrev main_call2_v14 : Ref sig .tc := ⟨.hbm, 93, rfl⟩
abbrev main_call2_cst : Ref sig .tc := ⟨.hbm, 94, rfl⟩
abbrev main_call2_v15 : Ref sig .tc := ⟨.hbm, 95, rfl⟩
abbrev main_v6 : Ref sig .tc := ⟨.hbm, 96, rfl⟩
abbrev main_cst : Ref sig .tc := ⟨.hbm, 97, rfl⟩
abbrev main_v7 : Ref sig .tc := ⟨.hbm, 98, rfl⟩
abbrev main_v8 : Ref sig .tc := ⟨.hbm, 99, rfl⟩
abbrev main_v9 : Ref sig .tc := ⟨.hbm, 100, rfl⟩
abbrev main_cst_0 : Ref sig .tc := ⟨.hbm, 101, rfl⟩
abbrev main_v10 : Ref sig .tc := ⟨.hbm, 102, rfl⟩
abbrev main_cst_1 : Ref sig .tc := ⟨.hbm, 103, rfl⟩
abbrev main_v11 : Ref sig .tc := ⟨.hbm, 104, rfl⟩
abbrev main_v12 : Ref sig .tc := ⟨.hbm, 105, rfl⟩
abbrev main_v13 : Ref sig .tc := ⟨.hbm, 106, rfl⟩
abbrev main_cst_2 : Ref sig .tc := ⟨.hbm, 107, rfl⟩
abbrev main_v14 : Ref sig .tc := ⟨.hbm, 108, rfl⟩
abbrev main_v15 : Ref sig .tc := ⟨.hbm, 109, rfl⟩
abbrev main_v16 : Ref sig .tc := ⟨.hbm, 110, rfl⟩
abbrev main_v17 : Ref sig .tc := ⟨.hbm, 111, rfl⟩
abbrev main_v18 : Ref sig .tc := ⟨.hbm, 112, rfl⟩
abbrev main_v19 : Ref sig .tc := ⟨.hbm, 113, rfl⟩
abbrev main_v20 : Ref sig .tc := ⟨.hbm, 114, rfl⟩
abbrev main_call3_c : Ref sig .tc := ⟨.hbm, 115, rfl⟩
abbrev main_call3_v0 : Ref sig .tc := ⟨.hbm, 116, rfl⟩
abbrev main_call3_v1 : Ref sig .tc := ⟨.hbm, 117, rfl⟩
abbrev main_call3_c_0 : Ref sig .tc := ⟨.hbm, 118, rfl⟩
abbrev main_call3_v2 : Ref sig .tc := ⟨.hbm, 119, rfl⟩
abbrev main_call3_v3 : Ref sig .tc := ⟨.hbm, 120, rfl⟩
abbrev main_call3_v4 : Ref sig .tc := ⟨.hbm, 121, rfl⟩
abbrev main_call3_v5 : Ref sig .tc := ⟨.hbm, 122, rfl⟩
abbrev main_call3_c_1 : Ref sig .tc := ⟨.hbm, 123, rfl⟩
abbrev main_call3_c_2 : Ref sig .tc := ⟨.hbm, 124, rfl⟩
abbrev main_call3_v6 : Ref sig .tc := ⟨.hbm, 125, rfl⟩
abbrev main_call3_v7 : Ref sig .tc := ⟨.hbm, 126, rfl⟩
abbrev main_call3_v8 : Ref sig .tc := ⟨.hbm, 127, rfl⟩
abbrev main_call3_v9 : Ref sig .tc := ⟨.hbm, 128, rfl⟩
abbrev main_call3_v10 : Ref sig .tc := ⟨.hbm, 129, rfl⟩
abbrev main_call3_v11 : Ref sig .tc := ⟨.hbm, 130, rfl⟩
abbrev main_call3_c_3 : Ref sig .tc := ⟨.hbm, 131, rfl⟩
abbrev main_call3_v12 : Ref sig .tc := ⟨.hbm, 132, rfl⟩
abbrev main_call3_v13 : Ref sig .tc := ⟨.hbm, 133, rfl⟩
abbrev main_call3_v14 : Ref sig .tc := ⟨.hbm, 134, rfl⟩
abbrev main_call3_cst : Ref sig .tc := ⟨.hbm, 135, rfl⟩
abbrev main_call3_v15 : Ref sig .tc := ⟨.hbm, 136, rfl⟩
abbrev main_v21 : Ref sig .tc := ⟨.hbm, 137, rfl⟩
abbrev main_cst_3 : Ref sig .tc := ⟨.hbm, 138, rfl⟩
abbrev main_v22 : Ref sig .tc := ⟨.hbm, 139, rfl⟩
abbrev main_v23 : Ref sig .tc := ⟨.hbm, 140, rfl⟩
abbrev main_v24 : Ref sig .tc := ⟨.hbm, 141, rfl⟩
abbrev main_cst_4 : Ref sig .tc := ⟨.hbm, 142, rfl⟩
abbrev main_v25 : Ref sig .tc := ⟨.hbm, 143, rfl⟩
abbrev main_cst_5 : Ref sig .tc := ⟨.hbm, 144, rfl⟩
abbrev main_v26 : Ref sig .tc := ⟨.hbm, 145, rfl⟩
abbrev main_v27 : Ref sig .tc := ⟨.hbm, 146, rfl⟩
abbrev main_v28 : Ref sig .tc := ⟨.hbm, 147, rfl⟩
abbrev main_cst_6 : Ref sig .tc := ⟨.hbm, 148, rfl⟩
abbrev main_v29 : Ref sig .tc := ⟨.hbm, 149, rfl⟩
abbrev main_v30 : Ref sig .tc := ⟨.hbm, 150, rfl⟩
abbrev main_v31 : Ref sig .tc := ⟨.hbm, 151, rfl⟩
abbrev main_v32 : Ref sig .tc := ⟨.hbm, 152, rfl⟩
abbrev main_v33 : Ref sig .tc := ⟨.hbm, 153, rfl⟩
abbrev main_v34 : Ref sig .tc := ⟨.hbm, 154, rfl⟩
abbrev main_v35 : Ref sig .tc := ⟨.hbm, 155, rfl⟩
abbrev main_call4_c : Ref sig .tc := ⟨.hbm, 156, rfl⟩
abbrev main_call4_v0 : Ref sig .tc := ⟨.hbm, 157, rfl⟩
abbrev main_call4_v1 : Ref sig .tc := ⟨.hbm, 158, rfl⟩
abbrev main_call4_c_0 : Ref sig .tc := ⟨.hbm, 159, rfl⟩
abbrev main_call4_v2 : Ref sig .tc := ⟨.hbm, 160, rfl⟩
abbrev main_call4_v3 : Ref sig .tc := ⟨.hbm, 161, rfl⟩
abbrev main_call4_v4 : Ref sig .tc := ⟨.hbm, 162, rfl⟩
abbrev main_call4_v5 : Ref sig .tc := ⟨.hbm, 163, rfl⟩
abbrev main_call4_c_1 : Ref sig .tc := ⟨.hbm, 164, rfl⟩
abbrev main_call4_c_2 : Ref sig .tc := ⟨.hbm, 165, rfl⟩
abbrev main_call4_v6 : Ref sig .tc := ⟨.hbm, 166, rfl⟩
abbrev main_call4_v7 : Ref sig .tc := ⟨.hbm, 167, rfl⟩
abbrev main_call4_v8 : Ref sig .tc := ⟨.hbm, 168, rfl⟩
abbrev main_call4_v9 : Ref sig .tc := ⟨.hbm, 169, rfl⟩
abbrev main_call4_v10 : Ref sig .tc := ⟨.hbm, 170, rfl⟩
abbrev main_call4_v11 : Ref sig .tc := ⟨.hbm, 171, rfl⟩
abbrev main_call4_c_3 : Ref sig .tc := ⟨.hbm, 172, rfl⟩
abbrev main_call4_v12 : Ref sig .tc := ⟨.hbm, 173, rfl⟩
abbrev main_call4_v13 : Ref sig .tc := ⟨.hbm, 174, rfl⟩
abbrev main_call4_v14 : Ref sig .tc := ⟨.hbm, 175, rfl⟩
abbrev main_call4_cst : Ref sig .tc := ⟨.hbm, 176, rfl⟩
abbrev main_call4_v15 : Ref sig .tc := ⟨.hbm, 177, rfl⟩
abbrev main_v36 : Ref sig .tc := ⟨.hbm, 178, rfl⟩
abbrev main_cst_7 : Ref sig .tc := ⟨.hbm, 179, rfl⟩
abbrev main_v37 : Ref sig .tc := ⟨.hbm, 180, rfl⟩
abbrev main_v38 : Ref sig .tc := ⟨.hbm, 181, rfl⟩
abbrev main_v39 : Ref sig .tc := ⟨.hbm, 182, rfl⟩
abbrev main_cst_8 : Ref sig .tc := ⟨.hbm, 183, rfl⟩
abbrev main_v40 : Ref sig .tc := ⟨.hbm, 184, rfl⟩
abbrev main_cst_9 : Ref sig .tc := ⟨.hbm, 185, rfl⟩
abbrev main_v41 : Ref sig .tc := ⟨.hbm, 186, rfl⟩
abbrev main_v42 : Ref sig .tc := ⟨.hbm, 187, rfl⟩
abbrev main_v43 : Ref sig .tc := ⟨.hbm, 188, rfl⟩
abbrev main_cst_10 : Ref sig .tc := ⟨.hbm, 189, rfl⟩
abbrev main_v44 : Ref sig .tc := ⟨.hbm, 190, rfl⟩
abbrev main_v45 : Ref sig .tc := ⟨.hbm, 191, rfl⟩
abbrev main_v46 : Ref sig .tc := ⟨.hbm, 192, rfl⟩
abbrev main_v47 : Ref sig .tc := ⟨.hbm, 193, rfl⟩
abbrev main_v48 : Ref sig .tc := ⟨.hbm, 194, rfl⟩
abbrev main_v49 : Ref sig .tc := ⟨.hbm, 195, rfl⟩
abbrev main_v50 : Ref sig .tc := ⟨.hbm, 196, rfl⟩
abbrev main_call5_c : Ref sig .tc := ⟨.hbm, 197, rfl⟩
abbrev main_call5_v0 : Ref sig .tc := ⟨.hbm, 198, rfl⟩
abbrev main_call5_v1 : Ref sig .tc := ⟨.hbm, 199, rfl⟩
abbrev main_call5_c_0 : Ref sig .tc := ⟨.hbm, 200, rfl⟩
abbrev main_call5_v2 : Ref sig .tc := ⟨.hbm, 201, rfl⟩
abbrev main_call5_v3 : Ref sig .tc := ⟨.hbm, 202, rfl⟩
abbrev main_call5_v4 : Ref sig .tc := ⟨.hbm, 203, rfl⟩
abbrev main_call5_v5 : Ref sig .tc := ⟨.hbm, 204, rfl⟩
abbrev main_call5_c_1 : Ref sig .tc := ⟨.hbm, 205, rfl⟩
abbrev main_call5_c_2 : Ref sig .tc := ⟨.hbm, 206, rfl⟩
abbrev main_call5_v6 : Ref sig .tc := ⟨.hbm, 207, rfl⟩
abbrev main_call5_v7 : Ref sig .tc := ⟨.hbm, 208, rfl⟩
abbrev main_call5_v8 : Ref sig .tc := ⟨.hbm, 209, rfl⟩
abbrev main_call5_v9 : Ref sig .tc := ⟨.hbm, 210, rfl⟩
abbrev main_call5_v10 : Ref sig .tc := ⟨.hbm, 211, rfl⟩
abbrev main_call5_v11 : Ref sig .tc := ⟨.hbm, 212, rfl⟩
abbrev main_call5_c_3 : Ref sig .tc := ⟨.hbm, 213, rfl⟩
abbrev main_call5_v12 : Ref sig .tc := ⟨.hbm, 214, rfl⟩
abbrev main_call5_v13 : Ref sig .tc := ⟨.hbm, 215, rfl⟩
abbrev main_call5_v14 : Ref sig .tc := ⟨.hbm, 216, rfl⟩
abbrev main_call5_cst : Ref sig .tc := ⟨.hbm, 217, rfl⟩
abbrev main_call5_v15 : Ref sig .tc := ⟨.hbm, 218, rfl⟩
abbrev main_v51 : Ref sig .tc := ⟨.hbm, 219, rfl⟩
abbrev main_cst_11 : Ref sig .tc := ⟨.hbm, 220, rfl⟩
abbrev main_v52 : Ref sig .tc := ⟨.hbm, 221, rfl⟩
abbrev main_v53 : Ref sig .tc := ⟨.hbm, 222, rfl⟩
abbrev main_v54 : Ref sig .tc := ⟨.hbm, 223, rfl⟩
abbrev main_cst_12 : Ref sig .tc := ⟨.hbm, 224, rfl⟩
abbrev main_v55 : Ref sig .tc := ⟨.hbm, 225, rfl⟩
abbrev main_cst_13 : Ref sig .tc := ⟨.hbm, 226, rfl⟩
abbrev main_v56 : Ref sig .tc := ⟨.hbm, 227, rfl⟩
abbrev main_v57 : Ref sig .tc := ⟨.hbm, 228, rfl⟩
abbrev main_v58 : Ref sig .tc := ⟨.hbm, 229, rfl⟩
abbrev main_cst_14 : Ref sig .tc := ⟨.hbm, 230, rfl⟩
abbrev main_v59 : Ref sig .tc := ⟨.hbm, 231, rfl⟩
abbrev main_v60 : Ref sig .tc := ⟨.hbm, 232, rfl⟩
abbrev main_v61 : Ref sig .tc := ⟨.hbm, 233, rfl⟩
abbrev main_v62 : Ref sig .tc := ⟨.hbm, 234, rfl⟩
abbrev main_v63 : Ref sig .tc := ⟨.hbm, 235, rfl⟩
abbrev main_v64 : Ref sig .tc := ⟨.hbm, 236, rfl⟩
abbrev main_v65 : Ref sig .tc := ⟨.hbm, 237, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg5_1 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg3_1 : Ref sig .tc := ⟨.vmem, 30, rfl⟩
abbrev cc3_stg4_0 : Ref sig .tc := ⟨.vmem, 31, rfl⟩
abbrev cc3_stg5_0 : Ref sig .tc := ⟨.vmem, 32, rfl⟩
abbrev cc3_stg5_1 : Ref sig .tc := ⟨.vmem, 33, rfl⟩
abbrev cc4_stg0_0 : Ref sig .tc := ⟨.vmem, 34, rfl⟩
abbrev cc4_stg0_1 : Ref sig .tc := ⟨.vmem, 35, rfl⟩
abbrev cc4_stg1_0 : Ref sig .tc := ⟨.vmem, 36, rfl⟩
abbrev cc4_stg2_0 : Ref sig .tc := ⟨.vmem, 37, rfl⟩
abbrev cc4_stg3_0 : Ref sig .tc := ⟨.vmem, 38, rfl⟩
abbrev cc4_stg3_1 : Ref sig .tc := ⟨.vmem, 39, rfl⟩
abbrev cc4_stg4_0 : Ref sig .tc := ⟨.vmem, 40, rfl⟩
abbrev cc4_stg5_0 : Ref sig .tc := ⟨.vmem, 41, rfl⟩
abbrev cc4_stg5_1 : Ref sig .tc := ⟨.vmem, 42, rfl⟩
abbrev cc5_stg0_0 : Ref sig .tc := ⟨.vmem, 43, rfl⟩
abbrev cc5_stg0_1 : Ref sig .tc := ⟨.vmem, 44, rfl⟩
abbrev cc5_stg1_0 : Ref sig .tc := ⟨.vmem, 45, rfl⟩
abbrev cc5_stg2_0 : Ref sig .tc := ⟨.vmem, 46, rfl⟩
abbrev cc5_stg3_0 : Ref sig .tc := ⟨.vmem, 47, rfl⟩
abbrev cc5_stg3_1 : Ref sig .tc := ⟨.vmem, 48, rfl⟩
abbrev cc5_stg4_0 : Ref sig .tc := ⟨.vmem, 49, rfl⟩
abbrev cc5_stg5_0 : Ref sig .tc := ⟨.vmem, 50, rfl⟩
abbrev cc5_stg5_1 : Ref sig .tc := ⟨.vmem, 51, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem3_1 : DmaSem sig := 21
abbrev cc2_sem4_0 : DmaSem sig := 22
abbrev cc2_sem5_0 : DmaSem sig := 23
abbrev cc2_sem5_1 : DmaSem sig := 24
abbrev cc3_sem0_0 : DmaSem sig := 25
abbrev cc3_sem0_1 : DmaSem sig := 26
abbrev cc3_sem1_0 : DmaSem sig := 27
abbrev cc3_sem2_0 : DmaSem sig := 28
abbrev cc3_sem3_0 : DmaSem sig := 29
abbrev cc3_sem3_1 : DmaSem sig := 30
abbrev cc3_sem4_0 : DmaSem sig := 31
abbrev cc3_sem5_0 : DmaSem sig := 32
abbrev cc3_sem5_1 : DmaSem sig := 33
abbrev cc4_sem0_0 : DmaSem sig := 34
abbrev cc4_sem0_1 : DmaSem sig := 35
abbrev cc4_sem1_0 : DmaSem sig := 36
abbrev cc4_sem2_0 : DmaSem sig := 37
abbrev cc4_sem3_0 : DmaSem sig := 38
abbrev cc4_sem3_1 : DmaSem sig := 39
abbrev cc4_sem4_0 : DmaSem sig := 40
abbrev cc4_sem5_0 : DmaSem sig := 41
abbrev cc4_sem5_1 : DmaSem sig := 42
abbrev cc5_sem0_0 : DmaSem sig := 43
abbrev cc5_sem0_1 : DmaSem sig := 44
abbrev cc5_sem1_0 : DmaSem sig := 45
abbrev cc5_sem2_0 : DmaSem sig := 46
abbrev cc5_sem3_0 : DmaSem sig := 47
abbrev cc5_sem3_1 : DmaSem sig := 48
abbrev cc5_sem4_0 : DmaSem sig := 49
abbrev cc5_sem5_0 : DmaSem sig := 50
abbrev cc5_sem5_1 : DmaSem sig := 51

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x58 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S58x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x768 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S768x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S64x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 1 → Memref sig .tc .vmem S64x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x64 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S64x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 1 → Memref sig .tc .vmem S64x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x64 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

class Facts₀ : Prop where
  bcast_S_S50000 : S_.BroadcastsInDim S50000 (![] : Fin 0 → Fin S50000.rank)
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  reducesTo_S50000x1_S50000_d1 : S50000x1.ReducesTo [1] S50000
  h_S_ : 0 < S_.numel
  bcast_S50000_S50000x64_0 : S50000.BroadcastsInDim S50000x64 (![0] : Fin 1 → Fin S50000x64.rank)
  bcast_S_S50000x64 : S_.BroadcastsInDim S50000x64 (![] : Fin 0 → Fin S50000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S1x1_S100000x1_0_1 : S1x1.BroadcastsInDim S100000x1 (![0, 1] : Fin 2 → Fin S100000x1.rank)
  reducesTo_S100000x1_S100000_d1 : S100000x1.ReducesTo [1] S100000
  bcast_S100000_S100000x64_0 : S100000.BroadcastsInDim S100000x64 (![0] : Fin 1 → Fin S100000x64.rank)
  bcast_S_S100000x64 : S_.BroadcastsInDim S100000x64 (![] : Fin 0 → Fin S100000x64.rank)
  shapeCasts_S64_S1x64 : S64.ShapeCasts S1x64
  inb_S5000x58_S5000x58_0_0 : ∀ a, (![0, 0] : Fin 2 → Nat) a + S5000x58.size a ≤ S5000x58.size a
  h_S5000x58 : 0 < S5000x58.numel
  bitsLt_bf16_f32 : FTy.bits .bf16 < FTy.bits .f32
  inb_S58x64_S58x64_0_0 : ∀ a, (![0, 0] : Fin 2 → Nat) a + S58x64.size a ≤ S58x64.size a
  h_S58x64 : 0 < S58x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S5000x768_S5000x768_0_0 : ∀ a, (![0, 0] : Fin 2 → Nat) a + S5000x768.size a ≤ S5000x768.size a
  h_S5000x768 : 0 < S5000x768.numel
  inb_S768x64_S768x64_0_0 : ∀ a, (![0, 0] : Fin 2 → Nat) a + S768x64.size a ≤ S768x64.size a
  h_S768x64 : 0 < S768x64.numel
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S1000000x1 : S_.BroadcastsInDim S1000000x1 (![] : Fin 0 → Fin S1000000x1.rank)
  bcast_S1x1_S1000000x1_0_1 : S1x1.BroadcastsInDim S1000000x1 (![0, 1] : Fin 2 → Fin S1000000x1.rank)
  reducesTo_S1000000x1_S1000000_d1 : S1000000x1.ReducesTo [1] S1000000
  bcast_S1000000_S1000000x64_0 : S1000000.BroadcastsInDim S1000000x64 (![0] : Fin 1 → Fin S1000000x64.rank)
  bcast_S_S1000000x64 : S_.BroadcastsInDim S1000000x64 (![] : Fin 0 → Fin S1000000x64.rank)
  bcast_S50000x1_S50000x64_0_1 : S50000x1.BroadcastsInDim S50000x64 (![0, 1] : Fin 2 → Fin S50000x64.rank)
  inb_S64x64_S64x64_0_0 : ∀ a, (![0, 0] : Fin 2 → Nat) a + S64x64.size a ≤ S64x64.size a
  h_S64x64 : 0 < S64x64.numel
  bcast_S100000x1_S100000x64_0_1 : S100000x1.BroadcastsInDim S100000x64 (![0, 1] : Fin 2 → Fin S100000x64.rank)
  gather_S50000x64_S50000x1_S50000x64_1_0_n_n_0_1_164_wf : GatherDims.WF S50000x64 S50000x1 S50000x64 [1] [0] [] [0] [] 1 ![1, 64]
  gather_S100000x64_S100000x1_S100000x64_1_0_n_n_0_1_164_wf : GatherDims.WF S100000x64 S100000x1 S100000x64 [1] [0] [] [0] [] 1 ![1, 64]
  dot_S5000x58_S58x64_S5000x64_1_0_0_1_n_n_wf : DotDims.WF S5000x58 S58x64 S5000x64 [1] [0] [0] [1] [] []
  dot_S5000x768_S768x64_S5000x64_1_0_0_1_n_n_wf : DotDims.WF S5000x768 S768x64 S5000x64 [1] [0] [0] [1] [] []
  gather_S100000x64_S1000000x1_S1000000x64_1_0_n_n_0_1_164_wf : GatherDims.WF S100000x64 S1000000x1 S1000000x64 [1] [0] [] [0] [] 1 ![1, 64]
  scatter_S50000x64_S1000000x1_S1000000x64_1_0_0_1_wf : ScatterDims.WF S50000x64 S1000000x1 S1000000x64 [1] [0] [0] 1
  scatter_S50000_S1000000x1_S1000000_n_0_0_1_wf : ScatterDims.WF S50000 S1000000x1 S1000000 [] [0] [0] 1
  dot_S5000x64_S64x64_S5000x64_1_0_0_1_n_n_wf : DotDims.WF S5000x64 S64x64 S5000x64 [1] [0] [0] [1] [] []
  gather_S50000x64_S1000000x1_S1000000x64_1_0_n_n_0_1_164_wf : GatherDims.WF S50000x64 S1000000x1 S1000000x64 [1] [0] [] [0] [] 1 ![1, 64]
  scatter_S100000x64_S1000000x1_S1000000x64_1_0_0_1_wf : ScatterDims.WF S100000x64 S1000000x1 S1000000x64 [1] [0] [0] 1
  scatter_S100000_S1000000x1_S1000000_n_0_0_1_wf : ScatterDims.WF S100000 S1000000x1 S1000000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x58.size a ≤ S50000x58.size a
  hwx0_0 : ∀ i : grid0.Coords, EltTy.bits .f32 = 32 ∨ (Rect.block (s := S50000x58) S5000x58.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S58x64.size a ≤ S58x64.size a
  hwx0_1 : ∀ i : grid0.Coords, EltTy.bits .f32 = 32 ∨ (Rect.block (s := S58x64) S58x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S50000x64.size a
  hwx0_3 : ∀ i : grid0.Coords, EltTy.bits .f32 = 32 ∨ (Rect.block (s := S50000x64) S5000x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x64.size a ≤ S50000x64.size a
  hwx0_4 : ∀ i : grid0.Coords, EltTy.bits .f32 = 32 ∨ (Rect.block (s := S50000x64) S5000x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x768.size a ≤ S100000x768.size a
  hwx1_0 : ∀ i : grid1.Coords, EltTy.bits .f32 = 32 ∨ (Rect.block (s := S100000x768) S5000x768.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S768x64.size a ≤ S768x64.size a
  hwx1_1 : ∀ i : grid1.Coords, EltTy.bits .f32 = 32 ∨ (Rect.block (s := S768x64) S768x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .f32 = 32 ∨ (Rect.block (s := S100000x64) S5000x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S100000x64.size a
  hwx1_4 : ∀ i : grid1.Coords, EltTy.bits .f32 = 32 ∨ (Rect.block (s := S100000x64) S5000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S50000x64.size a
  hwx2_3 : ∀ i : grid2.Coords, EltTy.bits .f32 = 32 ∨ (Rect.block (s := S50000x64) S5000x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S50000x64.size a
  hwx2_5 : ∀ i : grid2.Coords, EltTy.bits .f32 = 32 ∨ (Rect.block (s := S50000x64) S5000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x64.size a ≤ S100000x64.size a
  hwx3_3 : ∀ i : grid3.Coords, EltTy.bits .f32 = 32 ∨ (Rect.block (s := S100000x64) S5000x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64x64.size a ≤ S64x64.size a
  hwx3_4 : ∀ i : grid3.Coords, EltTy.bits .f32 = 32 ∨ (Rect.block (s := S64x64) S64x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x64.size a ≤ S100000x64.size a
  hwx3_5 : ∀ i : grid3.Coords, EltTy.bits .f32 = 32 ∨ (Rect.block (s := S100000x64) S5000x64.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S50000x64.size a
  hwx4_0 : ∀ i : grid4.Coords, EltTy.bits .f32 = 32 ∨ (Rect.block (s := S50000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x64.size a ≤ S50000x64.size a
  hwx4_3 : ∀ i : grid4.Coords, EltTy.bits .f32 = 32 ∨ (Rect.block (s := S50000x64) S5000x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S64x64.size a ≤ S64x64.size a
  hwx4_4 : ∀ i : grid4.Coords, EltTy.bits .f32 = 32 ∨ (Rect.block (s := S64x64) S64x64.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x64.size a ≤ S50000x64.size a
  hwx4_5 : ∀ i : grid4.Coords, EltTy.bits .f32 = 32 ∨ (Rect.block (s := S50000x64) S5000x64.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S100000x64.size a
  hwx5_0 : ∀ i : grid5.Coords, EltTy.bits .f32 = 32 ∨ (Rect.block (s := S100000x64) S5000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S64x64.size a ≤ S64x64.size a
  hwx5_1 : ∀ i : grid5.Coords, EltTy.bits .f32 = 32 ∨ (Rect.block (s := S64x64) S64x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x64.size a ≤ S100000x64.size a
  hwx5_3 : ∀ i : grid5.Coords, EltTy.bits .f32 = 32 ∨ (Rect.block (s := S100000x64) S5000x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S64x64.size a ≤ S64x64.size a
  hwx5_4 : ∀ i : grid5.Coords, EltTy.bits .f32 = 32 ∨ (Rect.block (s := S64x64) S64x64.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x64.size a ≤ S100000x64.size a
  hwx5_5 : ∀ i : grid5.Coords, EltTy.bits .f32 = 32 ∨ (Rect.block (s := S100000x64) S5000x64.size (cc5_transform_5 i) (hinb5_5 i)).WholeWords (EltTy.packing .f32)

variable [Facts₀]

def gather_S50000x64_S50000x1_S50000x64_1_0_n_n_0_1_164 : GatherDims S50000x64 S50000x1 S50000x64 where
  offsetDims := [1]
  collapsedSliceDims := [0]
  operandBatchingDims := []
  startIndicesBatchingDims := []
  startIndexMap := [0]
  indexVectorDim := 1
  sliceSizes := ![1, 64]
  wf := gather_S50000x64_S50000x1_S50000x64_1_0_n_n_0_1_164_wf
def gather_S100000x64_S100000x1_S100000x64_1_0_n_n_0_1_164 : GatherDims S100000x64 S100000x1 S100000x64 where
  offsetDims := [1]
  collapsedSliceDims := [0]
  operandBatchingDims := []
  startIndicesBatchingDims := []
  startIndexMap := [0]
  indexVectorDim := 1
  sliceSizes := ![1, 64]
  wf := gather_S100000x64_S100000x1_S100000x64_1_0_n_n_0_1_164_wf
def dot_S5000x58_S58x64_S5000x64_1_0_0_1_n_n : DotDims S5000x58 S58x64 S5000x64 where
  lhsContracting := [1]
  rhsContracting := [0]
  lhsNonContracting := [0]
  rhsNonContracting := [1]
  lhsBatch := []
  rhsBatch := []
  wf := dot_S5000x58_S58x64_S5000x64_1_0_0_1_n_n_wf
def dot_S5000x768_S768x64_S5000x64_1_0_0_1_n_n : DotDims S5000x768 S768x64 S5000x64 where
  lhsContracting := [1]
  rhsContracting := [0]
  lhsNonContracting := [0]
  rhsNonContracting := [1]
  lhsBatch := []
  rhsBatch := []
  wf := dot_S5000x768_S768x64_S5000x64_1_0_0_1_n_n_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S50000x64_S1000000x1_S1000000x64_1_0_0_1 : ScatterDims S50000x64 S1000000x1 S1000000x64 where
  updateWindowDims := [1]
  insertedWindowDims := [0]
  scatterDimsToOperandDims := [0]
  indexVectorDim := 1
  wf := scatter_S50000x64_S1000000x1_S1000000x64_1_0_0_1_wf
def scatter_S50000_S1000000x1_S1000000_n_0_0_1 : ScatterDims S50000 S1000000x1 S1000000 where
  updateWindowDims := []
  insertedWindowDims := [0]
  scatterDimsToOperandDims := [0]
  indexVectorDim := 1
  wf := scatter_S50000_S1000000x1_S1000000_n_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S50000x64_S1000000x1_S1000000x64_1_0_n_n_0_1_164 : GatherDims S50000x64 S1000000x1 S1000000x64 where
  offsetDims := [1]
  collapsedSliceDims := [0]
  operandBatchingDims := []
  startIndicesBatchingDims := []
  startIndexMap := [0]
  indexVectorDim := 1
  sliceSizes := ![1, 64]
  wf := gather_S50000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf

abbrev win0_0 : Pipeline.Window sig grid0 :=
  Pipeline.Window.ofSpec (Memref.whole main_arg0) S5000x58.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg6) S58x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S5000x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S5000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg1) S5000x768.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg8) S768x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S5000x64.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v5) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v18) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg15) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v19) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v3) S5000x64.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_arg17) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v20) S5000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v33) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg12) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v34) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v5) S5000x64.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_arg14) S64x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v35) S5000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v48) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg21) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v49) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v20) S5000x64.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_arg23) S64x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v50) S5000x64.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v63) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg18) S64x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v64) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v35) S5000x64.size cc5_transform_3 reads5_3 false false 2 stage5_3 sem5_3
    hrank5 hreads5_3 hinb5_3 nbuf5_3 (Memref.isWhole_whole _) hwx5_3 hstage5_3

abbrev win5_4 : Pipeline.Window sig grid5 :=
  Pipeline.Window.ofSpec (Memref.whole main_arg20) S64x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v65) S5000x64.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

class Facts : Prop extends Facts₀ where

variable [Facts]
-- ==== ReferenceIdeal.lean ====
abbrev S50000x58 : Shape := ⟨2, ![50000, 58]⟩
abbrev S100000x768 : Shape := ⟨2, ![100000, 768]⟩
abbrev S50000 : Shape := ⟨1, ![50000]⟩
abbrev S100000 : Shape := ⟨1, ![100000]⟩
abbrev S1000000 : Shape := ⟨1, ![1000000]⟩
abbrev S58x64 : Shape := ⟨2, ![58, 64]⟩
abbrev S64 : Shape := ⟨1, ![64]⟩
abbrev S768x64 : Shape := ⟨2, ![768, 64]⟩
abbrev S50000x64 : Shape := ⟨2, ![50000, 64]⟩
abbrev S100000x64 : Shape := ⟨2, ![100000, 64]⟩
abbrev S64x64 : Shape := ⟨2, ![64, 64]⟩
abbrev S1x64 : Shape := ⟨2, ![1, 64]⟩
abbrev S_ : Shape := ⟨0, ![]⟩
abbrev S50000x1 : Shape := ⟨2, ![50000, 1]⟩
abbrev S100000x1 : Shape := ⟨2, ![100000, 1]⟩
abbrev S1000000x1 : Shape := ⟨2, ![1000000, 1]⟩
abbrev S1000000x64 : Shape := ⟨2, ![1000000, 64]⟩

abbrev nBuf : Space → Nat
  | .hbm => 182
  | .vmem => 0
  | .smem => 0
  | _ => 0

abbrev hbmTy0_0 (i : Nat) : BufTy := match i % 128 with
  | 0 => ⟨S50000x58, .f32⟩
  | 1 => ⟨S100000x768, .f32⟩
  | 2 => ⟨S50000, .i32⟩
  | 3 => ⟨S100000, .i32⟩
  | 4 => ⟨S1000000, .i32⟩
  | 5 => ⟨S1000000, .i32⟩
  | 6 => ⟨S58x64, .f32⟩
  | 7 => ⟨S64, .f32⟩
  | 8 => ⟨S768x64, .f32⟩
  | 9 => ⟨S64, .f32⟩
  | 10 => ⟨S50000x64, .f32⟩
  | 11 => ⟨S100000x64, .f32⟩
  | 12 => ⟨S64x64, .f32⟩
  | 13 => ⟨S64, .f32⟩
  | 14 => ⟨S64x64, .f32⟩
  | 15 => ⟨S64x64, .f32⟩
  | 16 => ⟨S64, .f32⟩
  | 17 => ⟨S64x64, .f32⟩
  | 18 => ⟨S64x64, .f32⟩
  | 19 => ⟨S64, .f32⟩
  | 20 => ⟨S64x64, .f32⟩
  | 21 => ⟨S64x64, .f32⟩
  | 22 => ⟨S64, .f32⟩
  | 23 => ⟨S64x64, .f32⟩
  | 24 => ⟨S50000x64, .f32⟩
  | 25 => ⟨S1x64, .f32⟩
  | 26 => ⟨S50000x64, .f32⟩
  | 27 => ⟨S50000x64, .f32⟩
  | 28 => ⟨S_, .i32⟩
  | 29 => ⟨S50000, .i32⟩
  | 30 => ⟨S50000, .i1⟩
  | 31 => ⟨S_, .i32⟩
  | 32 => ⟨S50000, .i32⟩
  | 33 => ⟨S50000, .i32⟩
  | 34 => ⟨S50000, .i32⟩
  | 35 => ⟨S50000x1, .i32⟩
  | 36 => ⟨S50000x64, .f32⟩
  | 37 => ⟨S50000x64, .f32⟩
  | 38 => ⟨S100000x64, .f32⟩
  | 39 => ⟨S1x64, .f32⟩
  | 40 => ⟨S100000x64, .f32⟩
  | 41 => ⟨S100000x64, .f32⟩
  | 42 => ⟨S_, .i32⟩
  | 43 => ⟨S100000, .i32⟩
  | 44 => ⟨S100000, .i1⟩
  | 45 => ⟨S_, .i32⟩
  | 46 => ⟨S100000, .i32⟩
  | 47 => ⟨S100000, .i32⟩
  | 48 => ⟨S100000, .i32⟩
  | 49 => ⟨S100000x1, .i32⟩
  | 50 => ⟨S100000x64, .f32⟩
  | 51 => ⟨S100000x64, .f32⟩
  | 52 => ⟨S_, .i32⟩
  | 53 => ⟨S1000000, .i32⟩
  | 54 => ⟨S1000000, .i1⟩
  | 55 => ⟨S_, .i32⟩
  | 56 => ⟨S1000000, .i32⟩
  | 57 => ⟨S1000000, .i32⟩
  | 58 => ⟨S1000000, .i32⟩
  | 59 => ⟨S1000000x1, .i32⟩
  | 60 => ⟨S1000000x64, .f32⟩
  | 61 => ⟨S_, .f32⟩
  | 62 => ⟨S50000x64, .f32⟩
  | 63 => ⟨S1000000x1, .i32⟩
  | 64 => ⟨S50000x64, .f32⟩
  | 65 => ⟨S_, .f32⟩
  | 66 => ⟨S1000000, .f32⟩
  | 67 => ⟨S_, .f32⟩
  | 68 => ⟨S50000, .f32⟩
  | 69 => ⟨S1000000x1, .i32⟩
  | 70 => ⟨S50000, .f32⟩
  | 71 => ⟨S_, .f32⟩
  | 72 => ⟨S50000, .f32⟩
  | 73 => ⟨S50000, .f32⟩
  | 74 => ⟨S50000x1, .f32⟩
  | 75 => ⟨S50000x64, .f32⟩
  | 76 => ⟨S50000x64, .f32⟩
  | 77 => ⟨S50000x64, .f32⟩
  | 78 => ⟨S1x64, .f32⟩
  | 79 => ⟨S50000x64, .f32⟩
  | 80 => ⟨S50000x64, .f32⟩
  | 81 => ⟨S50000x64, .f32⟩
  | 82 => ⟨S50000x64, .f32⟩
  | 83 => ⟨S_, .f32⟩
  | 84 => ⟨S50000x64, .f32⟩
  | 85 => ⟨S50000x64, .f32⟩
  | 86 => ⟨S_, .i32⟩
  | 87 => ⟨S1000000, .i32⟩
  | 88 => ⟨S1000000, .i1⟩
  | 89 => ⟨S_, .i32⟩
  | 90 => ⟨S1000000, .i32⟩
  | 91 => ⟨S1000000, .i32⟩
  | 92 => ⟨S1000000, .i32⟩
  | 93 => ⟨S1000000x1, .i32⟩
  | 94 => ⟨S1000000x64, .f32⟩
  | 95 => ⟨S_, .f32⟩
  | 96 => ⟨S100000x64, .f32⟩
  | 97 => ⟨S1000000x1, .i32⟩
  | 98 => ⟨S100000x64, .f32⟩
  | 99 => ⟨S_, .f32⟩
  | 100 => ⟨S1000000, .f32⟩
  | 101 => ⟨S_, .f32⟩
  | 102 => ⟨S100000, .f32⟩
  | 103 => ⟨S1000000x1, .i32⟩
  | 104 => ⟨S100000, .f32⟩
  | 105 => ⟨S_, .f32⟩
  | 106 => ⟨S100000, .f32⟩
  | 107 => ⟨S100000, .f32⟩
  | 108 => ⟨S100000x1, .f32⟩
  | 109 => ⟨S100000x64, .f32⟩
  | 110 => ⟨S100000x64, .f32⟩
  | 111 => ⟨S100000x64, .f32⟩
  | 112 => ⟨S1x64, .f32⟩
  | 113 => ⟨S100000x64, .f32⟩
  | 114 => ⟨S100000x64, .f32⟩
  | 115 => ⟨S100000x64, .f32⟩
  | 116 => ⟨S100000x64, .f32⟩
  | 117 => ⟨S_, .f32⟩
  | 118 => ⟨S100000x64, .f32⟩
  | 119 => ⟨S100000x64, .f32⟩
  | 120 => ⟨S_, .i32⟩
  | 121 => ⟨S1000000, .i32⟩
  | 122 => ⟨S1000000, .i1⟩
  | 123 => ⟨S_, .i32⟩
  | 124 => ⟨S1000000, .i32⟩
  | 125 => ⟨S1000000, .i32⟩
  | 126 => ⟨S1000000, .i32⟩
  | 127 => ⟨S1000000x1, .i32⟩
  | _ => ⟨S50000x58, .f32⟩

abbrev hbmTy0_1 (i : Nat) : BufTy := match i % 128 with
  | 0 => ⟨S1000000x64, .f32⟩
  | 1 => ⟨S_, .f32⟩
  | 2 => ⟨S50000x64, .f32⟩
  | 3 => ⟨S1000000x1, .i32⟩
  | 4 => ⟨S50000x64, .f32⟩
  | 5 => ⟨S_, .f32⟩
  | 6 => ⟨S1000000, .f32⟩
  | 7 => ⟨S_, .f32⟩
  | 8 => ⟨S50000, .f32⟩
  | 9 => ⟨S1000000x1, .i32⟩
  | 10 => ⟨S50000, .f32⟩
  | 11 => ⟨S_, .f32⟩
  | 12 => ⟨S50000, .f32⟩
  | 13 => ⟨S50000, .f32⟩
  | 14 => ⟨S50000x1, .f32⟩
  | 15 => ⟨S50000x64, .f32⟩
  | 16 => ⟨S50000x64, .f32⟩
  | 17 => ⟨S50000x64, .f32⟩
  | 18 => ⟨S1x64, .f32⟩
  | 19 => ⟨S50000x64, .f32⟩
  | 20 => ⟨S50000x64, .f32⟩
  | 21 => ⟨S50000x64, .f32⟩
  | 22 => ⟨S50000x64, .f32⟩
  | 23 => ⟨S_, .i32⟩
  | 24 => ⟨S1000000, .i32⟩
  | 25 => ⟨S1000000, .i1⟩
  | 26 => ⟨S_, .i32⟩
  | 27 => ⟨S1000000, .i32⟩
  | 28 => ⟨S1000000, .i32⟩
  | 29 => ⟨S1000000, .i32⟩
  | 30 => ⟨S1000000x1, .i32⟩
  | 31 => ⟨S1000000x64, .f32⟩
  | 32 => ⟨S_, .f32⟩
  | 33 => ⟨S100000x64, .f32⟩
  | 34 => ⟨S1000000x1, .i32⟩
  | 35 => ⟨S100000x64, .f32⟩
  | 36 => ⟨S_, .f32⟩
  | 37 => ⟨S1000000, .f32⟩
  | 38 => ⟨S_, .f32⟩
  | 39 => ⟨S100000, .f32⟩
  | 40 => ⟨S1000000x1, .i32⟩
  | 41 => ⟨S100000, .f32⟩
  | 42 => ⟨S_, .f32⟩
  | 43 => ⟨S100000, .f32⟩
  | 44 => ⟨S100000, .f32⟩
  | 45 => ⟨S100000x1, .f32⟩
  | 46 => ⟨S100000x64, .f32⟩
  | 47 => ⟨S100000x64, .f32⟩
  | 48 => ⟨S100000x64, .f32⟩
  | 49 => ⟨S1x64, .f32⟩
  | 50 => ⟨S100000x64, .f32⟩
  | 51 => ⟨S100000x64, .f32⟩
  | 52 => ⟨S100000x64, .f32⟩
  | 53 => ⟨S100000x64, .f32⟩
  | _ => ⟨S50000x58, .f32⟩

abbrev hbmTy (i : Nat) : BufTy := match i / 128 with
  | 0 => hbmTy0_0 i
  | 1 => hbmTy0_1 i
  | _ => ⟨S50000x58, .f32⟩

abbrev bufTy : (tb : Table) → Fin (tcTables nBuf tb) → BufTy
  | .hbm, ⟨i, _⟩ => hbmTy i
  | _, _ => ⟨S50000x58, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_c : Ref sig .tc := ⟨.hbm, 28, rfl⟩
abbrev main_v4 : Ref sig .tc := ⟨.hbm, 29, rfl⟩
abbrev main_v5 : Ref sig .tc := ⟨.hbm, 30, rfl⟩
abbrev main_c_0 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_c_1 : Ref sig .tc := ⟨.hbm, 42, rfl⟩
abbrev main_v16 : Ref sig .tc := ⟨.hbm, 43, rfl⟩
abbrev main_v17 : Ref sig .tc := ⟨.hbm, 44, rfl⟩
abbrev main_c_2 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_c_3 : Ref sig .tc := ⟨.hbm, 52, rfl⟩
abbrev main_v24 : Ref sig .tc := ⟨.hbm, 53, rfl⟩
abbrev main_v25 : Ref sig .tc := ⟨.hbm, 54, rfl⟩
abbrev main_c_4 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_cst : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_cst_5 : Ref sig .tc := ⟨.hbm, 65, rfl⟩
abbrev main_v34 : Ref sig .tc := ⟨.hbm, 66, rfl⟩
abbrev main_cst_6 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_cst_7 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_call0_cst : Ref sig .tc := ⟨.hbm, 83, rfl⟩
abbrev main_call0_v0 : Ref sig .tc := ⟨.hbm, 84, rfl⟩
abbrev main_v49 : Ref sig .tc := ⟨.hbm, 85, rfl⟩
abbrev main_c_8 : Ref sig .tc := ⟨.hbm, 86, rfl⟩
abbrev main_v50 : Ref sig .tc := ⟨.hbm, 87, rfl⟩
abbrev main_v51 : Ref sig .tc := ⟨.hbm, 88, rfl⟩
abbrev main_c_9 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_cst_10 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_cst_11 : Ref sig .tc := ⟨.hbm, 99, rfl⟩
abbrev main_v60 : Ref sig .tc := ⟨.hbm, 100, rfl⟩
abbrev main_cst_12 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_cst_13 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_call1_cst : Ref sig .tc := ⟨.hbm, 117, rfl⟩
abbrev main_call1_v0 : Ref sig .tc := ⟨.hbm, 118, rfl⟩
abbrev main_v75 : Ref sig .tc := ⟨.hbm, 119, rfl⟩
abbrev main_c_14 : Ref sig .tc := ⟨.hbm, 120, rfl⟩
abbrev main_v76 : Ref sig .tc := ⟨.hbm, 121, rfl⟩
abbrev main_v77 : Ref sig .tc := ⟨.hbm, 122, rfl⟩
abbrev main_c_15 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_cst_16 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_cst_17 : Ref sig .tc := ⟨.hbm, 133, rfl⟩
abbrev main_v86 : Ref sig .tc := ⟨.hbm, 134, rfl⟩
abbrev main_cst_18 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev main_cst_19 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_v98 : Ref sig .tc := ⟨.hbm, 148, rfl⟩
abbrev main_v99 : Ref sig .tc := ⟨.hbm, 149, rfl⟩
abbrev main_v100 : Ref sig .tc := ⟨.hbm, 150, rfl⟩
abbrev main_c_20 : Ref sig .tc := ⟨.hbm, 151, rfl⟩
abbrev main_v101 : Ref sig .tc := ⟨.hbm, 152, rfl⟩
abbrev main_v102 : Ref sig .tc := ⟨.hbm, 153, rfl⟩
abbrev main_c_21 : Ref sig .tc := ⟨.hbm, 154, rfl⟩
abbrev main_v103 : Ref sig .tc := ⟨.hbm, 155, rfl⟩
abbrev main_v104 : Ref sig .tc := ⟨.hbm, 156, rfl⟩
abbrev main_v105 : Ref sig .tc := ⟨.hbm, 157, rfl⟩
abbrev main_v106 : Ref sig .tc := ⟨.hbm, 158, rfl⟩
abbrev main_v107 : Ref sig .tc := ⟨.hbm, 159, rfl⟩
abbrev main_cst_22 : Ref sig .tc := ⟨.hbm, 160, rfl⟩
abbrev main_v108 : Ref sig .tc := ⟨.hbm, 161, rfl⟩
abbrev main_v109 : Ref sig .tc := ⟨.hbm, 162, rfl⟩
abbrev main_v110 : Ref sig .tc := ⟨.hbm, 163, rfl⟩
abbrev main_cst_23 : Ref sig .tc := ⟨.hbm, 164, rfl⟩
abbrev main_v111 : Ref sig .tc := ⟨.hbm, 165, rfl⟩
abbrev main_cst_24 : Ref sig .tc := ⟨.hbm, 166, rfl⟩
abbrev main_v112 : Ref sig .tc := ⟨.hbm, 167, rfl⟩
abbrev main_v113 : Ref sig .tc := ⟨.hbm, 168, rfl⟩
abbrev main_v114 : Ref sig .tc := ⟨.hbm, 169, rfl⟩
abbrev main_cst_25 : Ref sig .tc := ⟨.hbm, 170, rfl⟩
abbrev main_v115 : Ref sig .tc := ⟨.hbm, 171, rfl⟩
abbrev main_v116 : Ref sig .tc := ⟨.hbm, 172, rfl⟩
abbrev main_v117 : Ref sig .tc := ⟨.hbm, 173, rfl⟩
abbrev main_v118 : Ref sig .tc := ⟨.hbm, 174, rfl⟩
abbrev main_v119 : Ref sig .tc := ⟨.hbm, 175, rfl⟩
abbrev main_v120 : Ref sig .tc := ⟨.hbm, 176, rfl⟩
abbrev main_v121 : Ref sig .tc := ⟨.hbm, 177, rfl⟩
abbrev main_v122 : Ref sig .tc := ⟨.hbm, 178, rfl⟩
abbrev main_v123 : Ref sig .tc := ⟨.hbm, 179, rfl⟩
abbrev main_v124 : Ref sig .tc := ⟨.hbm, 180, rfl⟩
abbrev main_v125 : Ref sig .tc := ⟨.hbm, 181, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000 : S_.BroadcastsInDim S50000 (![] : Fin 0 → Fin S50000.rank)
  bcast_S50000_S50000x1_0 : S50000.BroadcastsInDim S50000x1 (![0] : Fin 1 → Fin S50000x1.rank)
  bcast_S1x64_S100000x64_0_1 : S1x64.BroadcastsInDim S100000x64 (![0, 1] : Fin 2 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  dot_S50000x58_S58x64_S50000x64_1_0_0_1_n_n_wf : DotDims.WF S50000x58 S58x64 S50000x64 [1] [0] [0] [1] [] []
  gather_S50000x64_S50000x1_S50000x64_1_0_n_n_0_1_164_wf : GatherDims.WF S50000x64 S50000x1 S50000x64 [1] [0] [] [0] [] 1 ![1, 64]
  dot_S100000x768_S768x64_S100000x64_1_0_0_1_n_n_wf : DotDims.WF S100000x768 S768x64 S100000x64 [1] [0] [0] [1] [] []
  gather_S100000x64_S100000x1_S100000x64_1_0_n_n_0_1_164_wf : GatherDims.WF S100000x64 S100000x1 S100000x64 [1] [0] [] [0] [] 1 ![1, 64]
  gather_S100000x64_S1000000x1_S1000000x64_1_0_n_n_0_1_164_wf : GatherDims.WF S100000x64 S1000000x1 S1000000x64 [1] [0] [] [0] [] 1 ![1, 64]
  scatter_S50000x64_S1000000x1_S1000000x64_1_0_0_1_wf : ScatterDims.WF S50000x64 S1000000x1 S1000000x64 [1] [0] [0] 1
  scatter_S50000_S1000000x1_S1000000_n_0_0_1_wf : ScatterDims.WF S50000 S1000000x1 S1000000 [] [0] [0] 1
  dot_S50000x64_S64x64_S50000x64_1_0_0_1_n_n_wf : DotDims.WF S50000x64 S64x64 S50000x64 [1] [0] [0] [1] [] []
  gather_S50000x64_S1000000x1_S1000000x64_1_0_n_n_0_1_164_wf : GatherDims.WF S50000x64 S1000000x1 S1000000x64 [1] [0] [] [0] [] 1 ![1, 64]
  scatter_S100000x64_S1000000x1_S1000000x64_1_0_0_1_wf : ScatterDims.WF S100000x64 S1000000x1 S1000000x64 [1] [0] [0] 1
  scatter_S100000_S1000000x1_S1000000_n_0_0_1_wf : ScatterDims.WF S100000 S1000000x1 S1000000 [] [0] [0] 1
  dot_S100000x64_S64x64_S100000x64_1_0_0_1_n_n_wf : DotDims.WF S100000x64 S64x64 S100000x64 [1] [0] [0] [1] [] []

variable [Facts₀]

def dot_S50000x58_S58x64_S50000x64_1_0_0_1_n_n : DotDims S50000x58 S58x64 S50000x64 where
  lhsContracting := [1]
  rhsContracting := [0]
  lhsNonContracting := [0]
  rhsNonContracting := [1]
  lhsBatch := []
  rhsBatch := []
  wf := dot_S50000x58_S58x64_S50000x64_1_0_0_1_n_n_wf
def gather_S50000x64_S50000x1_S50000x64_1_0_n_n_0_1_164 : GatherDims S50000x64 S50000x1 S50000x64 where
  offsetDims := [1]
  collapsedSliceDims := [0]
  operandBatchingDims := []
  startIndicesBatchingDims := []
  startIndexMap := [0]
  indexVectorDim := 1
  sliceSizes := ![1, 64]
  wf := gather_S50000x64_S50000x1_S50000x64_1_0_n_n_0_1_164_wf
def dot_S100000x768_S768x64_S100000x64_1_0_0_1_n_n : DotDims S100000x768 S768x64 S100000x64 where
  lhsContracting := [1]
  rhsContracting := [0]
  lhsNonContracting := [0]
  rhsNonContracting := [1]
  lhsBatch := []
  rhsBatch := []
  wf := dot_S100000x768_S768x64_S100000x64_1_0_0_1_n_n_wf
def gather_S100000x64_S100000x1_S100000x64_1_0_n_n_0_1_164 : GatherDims S100000x64 S100000x1 S100000x64 where
  offsetDims := [1]
  collapsedSliceDims := [0]
  operandBatchingDims := []
  startIndicesBatchingDims := []
  startIndexMap := [0]
  indexVectorDim := 1
  sliceSizes := ![1, 64]
  wf := gather_S100000x64_S100000x1_S100000x64_1_0_n_n_0_1_164_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S50000x64_S1000000x1_S1000000x64_1_0_0_1 : ScatterDims S50000x64 S1000000x1 S1000000x64 where
  updateWindowDims := [1]
  insertedWindowDims := [0]
  scatterDimsToOperandDims := [0]
  indexVectorDim := 1
  wf := scatter_S50000x64_S1000000x1_S1000000x64_1_0_0_1_wf
def scatter_S50000_S1000000x1_S1000000_n_0_0_1 : ScatterDims S50000 S1000000x1 S1000000 where
  updateWindowDims := []
  insertedWindowDims := [0]
  scatterDimsToOperandDims := [0]
  indexVectorDim := 1
  wf := scatter_S50000_S1000000x1_S1000000_n_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x64_S1000000x1_S1000000x64_1_0_n_n_0_1_164 : GatherDims S50000x64 S1000000x1 S1000000x64 where
  offsetDims := [1]
  collapsedSliceDims := [0]
  operandBatchingDims := []
  startIndicesBatchingDims := []
  startIndexMap := [0]
  indexVectorDim := 1
  sliceSizes := ![1, 64]
  wf := gather_S50000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.Stages.lean ====
/-
  The staged values of the two-layer heterogeneous message-passing network, as functions of the argument arrays.

  Users have 50000 rows and recipes 100000; every hidden row has 64 entries. The input stage adds a linear map of
  the raw features, a bias row and a looked-up embedding row. A message-passing stage gathers the source table's
  rows along the one million edges, sums them per destination row, divides by the number of incoming edges (at
  least one), and combines that mean with the destination's own row through two 64 by 64 maps and a bias row; the
  first layer clamps the result below at zero. Every operation is spelled exactly as the reference program spells
  it, so the reference's composed results are these stages by unfolding alone.
-/
import proofs.«430915_j14465449853445_1_alg».proof.ReferenceIdeal
import proofs.«430915_j14465449853445_1_alg».proof.Proof.Gen.ReferenceIdeal

noncomputable section

namespace Cert.Bridge

open Idealize.ShloMosaic Cert.ReferenceIdeal Cert.ReferenceIdeal.Facts₀ Cert.ReferenceIdeal.Facts

variable {F : FTy → Type} [FloatOps F]

/-- Every index of the vector lies in `[0, N)`, read as a signed word. -/
def InRange {s : Shape} (idx : IVec s 32) (N : Int) : Prop := ∀ k, 0 ≤ (idx k).toInt ∧ (idx k).toInt < N

/-! ## Index wrapping: a negative index counts from the end of its table -/

/-- User ids into a table of 50000 rows. -/
def wrapU (idx : IVec S50000 32) : IVec S50000 32 :=
  select (cmpi .slt idx (broadcastInDim S50000 ![] bcast_S_S50000 (constantI S_ 32 0#32)))
    (addi idx (broadcastInDim S50000 ![] bcast_S_S50000 (constantI S_ 32 50000#32))) idx

/-- Recipe ids into a table of 100000 rows. -/
def wrapR (idx : IVec S100000 32) : IVec S100000 32 :=
  select (cmpi .slt idx (broadcastInDim S100000 ![] bcast_S_S100000 (constantI S_ 32 0#32)))
    (addi idx (broadcastInDim S100000 ![] bcast_S_S100000 (constantI S_ 32 100000#32))) idx

/-- The edges' user endpoints into a table of 50000 rows. -/
def wrapUE (idx : IVec S1000000 32) : IVec S1000000 32 :=
  select (cmpi .slt idx (broadcastInDim S1000000 ![] bcast_S_S1000000 (constantI S_ 32 0#32)))
    (addi idx (broadcastInDim S1000000 ![] bcast_S_S1000000 (constantI S_ 32 50000#32))) idx

/-- The edges' recipe endpoints into a table of 100000 rows. -/
def wrapRE (idx : IVec S1000000 32) : IVec S1000000 32 :=
  select (cmpi .slt idx (broadcastInDim S1000000 ![] bcast_S_S1000000 (constantI S_ 32 0#32)))
    (addi idx (broadcastInDim S1000000 ![] bcast_S_S1000000 (constantI S_ 32 100000#32))) idx

/-! ## Row lookups -/

/-- One row of the user table per user id. -/
def rowsU (T : FVec F S50000x64 .f32) (idx : IVec S50000 32) : FVec F S50000x64 .f32 :=
  Host.gather gather_S50000x64_S50000x1_S50000x64_1_0_n_n_0_1_164 T
    (broadcastInDim S50000x1 ![0] bcast_S50000_S50000x1_0 (wrapU idx))

/-- One row of the recipe table per recipe id. -/
def rowsR (T : FVec F S100000x64 .f32) (idx : IVec S100000 32) : FVec F S100000x64 .f32 :=
  Host.gather gather_S100000x64_S100000x1_S100000x64_1_0_n_n_0_1_164 T
    (broadcastInDim S100000x1 ![0] bcast_S100000_S100000x1_0 (wrapR idx))

/-- One row of a user table per edge, by the edge's user endpoint. -/
def rowsUE (T : FVec F S50000x64 .f32) (idx : IVec S1000000 32) : FVec F S1000000x64 .f32 :=
  Host.gather gather_S50000x64_S1000000x1_S1000000x64_1_0_n_n_0_1_164 T
    (broadcastInDim S1000000x1 ![0] bcast_S1000000_S1000000x1_0 (wrapUE idx))

/-- One row of a recipe table per edge, by the edge's recipe endpoint. -/
def rowsRE (T : FVec F S100000x64 .f32) (idx : IVec S1000000 32) : FVec F S1000000x64 .f32 :=
  Host.gather gather_S100000x64_S1000000x1_S1000000x64_1_0_n_n_0_1_164 T
    (broadcastInDim S1000000x1 ![0] bcast_S1000000_S1000000x1_0 (wrapRE idx))

/-! ## The mean of the messages arriving at each destination row -/

/-- Per user: the sum of the messages of the edges that end at it, over their number or one. -/
def meanU (msg : FVec F S1000000x64 .f32) (seg : IVec S1000000 32) : FVec F S50000x64 .f32 :=
  Host.divf
    (Host.scatterAdd scatter_S50000x64_S1000000x1_S1000000x64_1_0_0_1
      (broadcastInDim S50000x64 ![] bcast_S_S50000x64 (constant S_ .f32 0x00000000#32))
      (broadcastInDim S1000000x1 ![0] bcast_S1000000_S1000000x1_0 seg) msg)
    (broadcastInDim S50000x64 ![0, 1] bcast_S50000x1_S50000x64_0_1
      (broadcastInDim S50000x1 ![0] bcast_S50000_S50000x1_0
        (maximumf
          (Host.scatterAdd scatter_S50000_S1000000x1_S1000000_n_0_0_1
            (broadcastInDim S50000 ![] bcast_S_S50000 (constant S_ .f32 0x00000000#32))
            (broadcastInDim S1000000x1 ![0] bcast_S1000000_S1000000x1_0 seg)
            (broadcastInDim S1000000 ![] bcast_S_S1000000 (constant S_ .f32 0x3F800000#32)))
          (broadcastInDim S50000 ![] bcast_S_S50000 (constant S_ .f32 0x3F800000#32)))))

/-- Per recipe: the sum of the messages of the edges that end at it, over their number or one. -/
def meanR (msg : FVec F S1000000x64 .f32) (seg : IVec S1000000 32) : FVec F S100000x64 .f32 :=
  Host.divf
    (Host.scatterAdd scatter_S100000x64_S1000000x1_S1000000x64_1_0_0_1
      (broadcastInDim S100000x64 ![] bcast_S_S100000x64 (constant S_ .f32 0x00000000#32))
      (broadcastInDim S1000000x1 ![0] bcast_S1000000_S1000000x1_0 seg) msg)
    (broadcastInDim S100000x64 ![0, 1] bcast_S100000x1_S100000x64_0_1
      (broadcastInDim S100000x1 ![0] bcast_S100000_S100000x1_0
        (maximumf
          (Host.scatterAdd scatter_S100000_S1000000x1_S1000000_n_0_0_1
            (broadcastInDim S100000 ![] bcast_S_S100000 (constant S_ .f32 0x00000000#32))
            (broadcastInDim S1000000x1 ![0] bcast_S1000000_S1000000x1_0 seg)
            (broadcastInDim S1000000 ![] bcast_S_S1000000 (constant S_ .f32 0x3F800000#32)))
          (broadcastInDim S100000 ![] bcast_S_S100000 (constant S_ .f32 0x3F800000#32)))))

/-! ## The dense stages -/

/-- A bias vector as a one-row matrix. -/
def row (b : FVec F S64 .f32) : FVec F S1x64 .f32 := broadcastInDim S1x64 ![1] bcast_S64_S1x64_1 b

/-- Users' input stage: features times weights, plus the bias row, plus the embedding rows. -/
def linU (x : FVec F S50000x58 .f32) (W : FVec F S58x64 .f32) (b2 : FVec F S1x64 .f32) (e : FVec F S50000x64 .f32) :
    FVec F S50000x64 .f32 :=
  addf (addf (Host.dotGeneral dot_S50000x58_S58x64_S50000x64_1_0_0_1_n_n none x W)
    (broadcastInDim S50000x64 ![0, 1] bcast_S1x64_S50000x64_0_1 b2)) e

/-- Recipes' input stage. -/
def linR (x : FVec F S100000x768 .f32) (W : FVec F S768x64 .f32) (b2 : FVec F S1x64 .f32) (e : FVec F S100000x64 .f32) :
    FVec F S100000x64 .f32 :=
  addf (addf (Host.dotGeneral dot_S100000x768_S768x64_S100000x64_1_0_0_1_n_n none x W)
    (broadcastInDim S100000x64 ![0, 1] bcast_S1x64_S100000x64_0_1 b2)) e

/-- Users' combine: the neighbours' mean through one map, plus the bias row, plus the own rows through another. -/
def sageU (mean : FVec F S50000x64 .f32) (Wl : FVec F S64x64 .f32) (b2 : FVec F S1x64 .f32) (xd : FVec F S50000x64 .f32)
    (Wr : FVec F S64x64 .f32) : FVec F S50000x64 .f32 :=
  addf (addf (Host.dotGeneral dot_S50000x64_S64x64_S50000x64_1_0_0_1_n_n none mean Wl)
    (broadcastInDim S50000x64 ![0, 1] bcast_S1x64_S50000x64_0_1 b2))
    (Host.dotGeneral dot_S50000x64_S64x64_S50000x64_1_0_0_1_n_n none xd Wr)

/-- Recipes' combine. -/
def sageR (mean : FVec F S100000x64 .f32) (Wl : FVec F S64x64 .f32) (b2 : FVec F S1x64 .f32) (xd : FVec F S100000x64 .f32)
    (Wr : FVec F S64x64 .f32) : FVec F S100000x64 .f32 :=
  addf (addf (Host.dotGeneral dot_S100000x64_S64x64_S100000x64_1_0_0_1_n_n none mean Wl)
    (broadcastInDim S100000x64 ![0, 1] bcast_S1x64_S100000x64_0_1 b2))
    (Host.dotGeneral dot_S100000x64_S64x64_S100000x64_1_0_0_1_n_n none xd Wr)

/-- Clamp below at zero, users' shape. -/
def reluU (y : FVec F S50000x64 .f32) : FVec F S50000x64 .f32 :=
  maximumf y (broadcastInDim S50000x64 ![] bcast_S_S50000x64 (constant S_ .f32 0x00000000#32))

/-- Clamp below at zero, recipes' shape. -/
def reluR (y : FVec F S100000x64 .f32) : FVec F S100000x64 .f32 :=
  maximumf y (broadcastInDim S100000x64 ![] bcast_S_S100000x64 (constant S_ .f32 0x00000000#32))

/-! ## The arguments and the six staged values -/

/-- The twenty-four argument arrays, in the order of the entry point's parameters. -/
@[ext] structure Args (F : FTy → Type) [FloatOps F] where
  a0 : FVec F S50000x58 .f32
  a1 : FVec F S100000x768 .f32
  a2 : IVec S50000 32
  a3 : IVec S100000 32
  a4 : IVec S1000000 32
  a5 : IVec S1000000 32
  a6 : FVec F S58x64 .f32
  a7 : FVec F S64 .f32
  a8 : FVec F S768x64 .f32
  a9 : FVec F S64 .f32
  a10 : FVec F S50000x64 .f32
  a11 : FVec F S100000x64 .f32
  a12 : FVec F S64x64 .f32
  a13 : FVec F S64 .f32
  a14 : FVec F S64x64 .f32
  a15 : FVec F S64x64 .f32
  a16 : FVec F S64 .f32
  a17 : FVec F S64x64 .f32
  a18 : FVec F S64x64 .f32
  a19 : FVec F S64 .f32
  a20 : FVec F S64x64 .f32
  a21 : FVec F S64x64 .f32
  a22 : FVec F S64 .f32
  a23 : FVec F S64x64 .f32

/-- Users after the input stage. -/
def hu (a : Args F) : FVec F S50000x64 .f32 := linU a.a0 a.a6 (row a.a7) (rowsU a.a10 a.a2)
/-- Recipes after the input stage. -/
def hr (a : Args F) : FVec F S100000x64 .f32 := linR a.a1 a.a8 (row a.a9) (rowsR a.a11 a.a3)
/-- Users after the first layer: recipes' rows flow along the edges to the users. -/
def hu1 (a : Args F) : FVec F S50000x64 .f32 :=
  reluU (sageU (meanU (rowsRE (hr a) a.a5) a.a4) a.a15 (row a.a16) (hu a) a.a17)
/-- Recipes after the first layer: users' rows flow along the edges to the recipes. -/
def hr1 (a : Args F) : FVec F S100000x64 .f32 :=
  reluR (sageR (meanR (rowsUE (hu a) a.a4) a.a5) a.a12 (row a.a13) (hr a) a.a14)
/-- Users after the second layer (no clamp). -/
def hu2 (a : Args F) : FVec F S50000x64 .f32 :=
  sageU (meanU (rowsRE (hr1 a) a.a5) a.a4) a.a21 (row a.a22) (hu1 a) a.a23
/-- Recipes after the second layer (no clamp). -/
def hr2 (a : Args F) : FVec F S100000x64 .f32 :=
  sageR (meanR (rowsUE (hu1 a) a.a4) a.a5) a.a18 (row a.a19) (hr1 a) a.a20

end Cert.Bridge

end
-- ==== Proof.ArgsKept.lean ====
/-
  The argument arrays stay as launched at every segment boundary of the idealized kernel's entry point.

  The arguments are the first twenty-four buffers of HBM. Every host operation writes a buffer numbered twenty-four
  or higher, and a launch writes only its output array, which is such a buffer too; its input arrays it leaves as it
  found them. So at every boundary an argument buffer holds the launch memory's contents.
-/
import proofs.«430915_j14465449853445_1_alg».proof.Proof.Gen.KernelIdeal.Frame

set_option maxRecDepth 16384

noncomputable section

namespace Cert.KernelIdeal.Val

open Idealize.ShloMosaic Idealize.ShloMosaic.TcCoe Idealize.ShloMosaic.StableHlo
open Cert.KernelIdeal Cert.KernelIdeal.Gen

variable {F : FTy → Type} [FloatOps F]
variable (m : (ℓ : Loc nD τ sig) → Buf (Elt F) ℓ) (ρ : Dev nD → PrngReg)

/-- An argument buffer: one of the first twenty-four buffers of HBM. -/
def IsArg (b : Ref sig .tc) : Prop := b.space = .hbm ∧ b.idx.val < 24

/-- A buffer that is not in HBM, or is numbered twenty-four or higher there, is no argument buffer. -/
theorem IsArg.ne_of {b r : Ref sig .tc} (hb : IsArg b) (hr : r.space = .hbm → 24 ≤ r.idx.val) : r ≠ b := by
  intro e
  subst e
  exact absurd (hr hb.1) (Nat.not_le.mpr hb.2)

/-- The same, read as device buffers. -/
theorem IsArg.devRef_ne {b r : Ref sig .tc} (hb : IsArg b) (hr : r.space = .hbm → 24 ≤ r.idx.val) :
    ¬ Proc.devRef (τ := τ) .tc b = Proc.devRef .tc r :=
  StableHlo.devRef_ne_of_ne (hb.ne_of hr).symm

/-! ## One step per boundary

  A host stretch: each of its operations writes one buffer, numbered twenty-four or higher, so none writes an
  argument. A launch: the two arguments it reads through input windows it leaves as entered; its other arrays are
  buffers numbered twenty-four or higher, so any other argument is none of its arrays and is left alone. -/

/-- The lookup of the user embedding rows writes no argument. -/
theorem step_W1 (c : Dev nD) (b : Ref sig .tc) (hb : IsArg b) :
    W1 m ρ c (Proc.devRef .tc b) = W0 m ρ c (Proc.devRef .tc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact hb.devRef_ne (by decide)))

/-- The lookup of the recipe embedding rows writes no argument. -/
theorem step_W2 (c : Dev nD) (b : Ref sig .tc) (hb : IsArg b) :
    W2 m ρ c (Proc.devRef .tc b) = W1 m ρ c (Proc.devRef .tc b) :=
  StableHlo.after_of_forall_not_mem (b := Proc.devRef .tc b) _ _ (List.forall_iff_forall_mem.mp (by
    simp only [hostOps0_1, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact hb.devRef_ne (by decide)))

/-- Reshaping the user bias row writes a fresh buffer, not argument 7 itself. -/
theorem step_W3 (c : Dev nD) (b : Ref sig .tc) (hb : IsArg b) :
    W3 m ρ c (Proc.devRef .tc b) = W2 m ρ c (Proc.devRef .tc b) :=
  StableHlo.after_of_forall_not_mem (b := Proc.devRef .tc b) _ _ (List.forall_iff_forall_mem.mp (by
    simp only [hostOps0_2, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact hb.devRef_ne (by decide)))

/-- The user input stage reads arguments 0 and 6 through its first two windows. -/
theorem step_W4 (c : Dev nD) (b : Ref sig .tc) (hb : IsArg b) :
    W4 m ρ c (Proc.devRef .tc b) = W3 m ρ c (Proc.devRef .tc b) := by
  by_cases h0 : b = main_arg0
  · subst h0
    exact (W4_arr m ρ c 0).trans (((dat0 (V3 m ρ) c).arrAt_in 0 rfl _).trans (A_eq0 (V3 m ρ) c 0))
  by_cases h1 : b = main_arg6
  · subst h1
    exact (W4_arr m ρ c 1).trans (((dat0 (V3 m ρ) c).arrAt_in 1 rfl _).trans (A_eq0 (V3 m ρ) c 1))
  · refine W4_of_ne m ρ c b fun w => ?_
    match w with
    | 0 => exact fun e => h0 e.symm
    | 1 => exact fun e => h1 e.symm
    | 2 => exact hb.ne_of (by decide)
    | 3 => exact hb.ne_of (by decide)
    | 4 => exact hb.ne_of (by decide)

/-- Reshaping the recipe bias row writes a fresh buffer. -/
theorem step_W5 (c : Dev nD) (b : Ref sig .tc) (hb : IsArg b) :
    W5 m ρ c (Proc.devRef .tc b) = W4 m ρ c (Proc.devRef .tc b) :=
  StableHlo.after_of_forall_not_mem (b := Proc.devRef .tc b) _ _ (List.forall_iff_forall_mem.mp (by
    simp only [hostOps1, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact hb.devRef_ne (by decide)))

/-- The recipe input stage reads arguments 1 and 8 through its first two windows. -/
theorem step_W6 (c : Dev nD) (b : Ref sig .tc) (hb : IsArg b) :
    W6 m ρ c (Proc.devRef .tc b) = W5 m ρ c (Proc.devRef .tc b) := by
  by_cases h0 : b = main_arg1
  · subst h0
    exact (W6_arr m ρ c 0).trans (((dat1 (V5 m ρ) c).arrAt_in 0 rfl _).trans (A_eq1 (V5 m ρ) c 0))
  by_cases h1 : b = main_arg8
  · subst h1
    exact (W6_arr m ρ c 1).trans (((dat1 (V5 m ρ) c).arrAt_in 1 rfl _).trans (A_eq1 (V5 m ρ) c 1))
  · refine W6_of_ne m ρ c b fun w => ?_
    match w with
    | 0 => exact fun e => h0 e.symm
    | 1 => exact fun e => h1 e.symm
    | 2 => exact hb.ne_of (by decide)
    | 3 => exact hb.ne_of (by decide)
    | 4 => exact hb.ne_of (by decide)

/-- Gathering recipe rows along the edges for the first layer's user side writes no argument. -/
theorem step_W7 (c : Dev nD) (b : Ref sig .tc) (hb : IsArg b) :
    W7 m ρ c (Proc.devRef .tc b) = W6 m ρ c (Proc.devRef .tc b) :=
  StableHlo.after_of_forall_not_mem (b := Proc.devRef .tc b) _ _ (List.forall_iff_forall_mem.mp (by
    simp only [hostOps2, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact hb.devRef_ne (by decide)))

/-- Summing, counting and dividing per user row, and reshaping the bias row, write no argument. -/
theorem step_W8 (c : Dev nD) (b : Ref sig .tc) (hb : IsArg b) :
    W8 m ρ c (Proc.devRef .tc b) = W7 m ρ c (Proc.devRef .tc b) :=
  StableHlo.after_of_forall_not_mem (b := Proc.devRef .tc b) _ _ (List.forall_iff_forall_mem.mp (by
    simp only [hostOps2_1, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact hb.devRef_ne (by decide)))

/-- The first layer's user combination reads arguments 15 and 17 through its second and fifth windows. -/
theorem step_W9 (c : Dev nD) (b : Ref sig .tc) (hb : IsArg b) :
    W9 m ρ c (Proc.devRef .tc b) = W8 m ρ c (Proc.devRef .tc b) := by
  by_cases h0 : b = main_arg15
  · subst h0
    exact (W9_arr m ρ c 1).trans (((dat2 (V8 m ρ) c).arrAt_in 1 rfl _).trans (A_eq2 (V8 m ρ) c 1))
  by_cases h1 : b = main_arg17
  · subst h1
    exact (W9_arr m ρ c 4).trans (((dat2 (V8 m ρ) c).arrAt_in 4 rfl _).trans (A_eq2 (V8 m ρ) c 4))
  · refine W9_of_ne m ρ c b fun w => ?_
    match w with
    | 0 => exact hb.ne_of (by decide)
    | 1 => exact fun e => h0 e.symm
    | 2 => exact hb.ne_of (by decide)
    | 3 => exact hb.ne_of (by decide)
    | 4 => exact fun e => h1 e.symm
    | 5 => exact hb.ne_of (by decide)

/-- Gathering user rows along the edges for the first layer's recipe side writes no argument. -/
theorem step_W10 (c : Dev nD) (b : Ref sig .tc) (hb : IsArg b) :
    W10 m ρ c (Proc.devRef .tc b) = W9 m ρ c (Proc.devRef .tc b) :=
  StableHlo.after_of_forall_not_mem (b := Proc.devRef .tc b) _ _ (List.forall_iff_forall_mem.mp (by
    simp only [hostOps3, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact hb.devRef_ne (by decide)))

/-- Summing, counting and dividing per recipe row, and reshaping the bias row, write no argument. -/
theorem step_W11 (c : Dev nD) (b : Ref sig .tc) (hb : IsArg b) :
    W11 m ρ c (Proc.devRef .tc b) = W10 m ρ c (Proc.devRef .tc b) :=
  StableHlo.after_of_forall_not_mem (b := Proc.devRef .tc b) _ _ (List.forall_iff_forall_mem.mp (by
    simp only [hostOps3_1, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact hb.devRef_ne (by decide)))

/-- The first layer's recipe combination reads arguments 12 and 14 through its second and fifth windows. -/
theorem step_W12 (c : Dev nD) (b : Ref sig .tc) (hb : IsArg b) :
    W12 m ρ c (Proc.devRef .tc b) = W11 m ρ c (Proc.devRef .tc b) := by
  by_cases h0 : b = main_arg12
  · subst h0
    exact (W12_arr m ρ c 1).trans (((dat3 (V11 m ρ) c).arrAt_in 1 rfl _).trans (A_eq3 (V11 m ρ) c 1))
  by_cases h1 : b = main_arg14
  · subst h1
    exact (W12_arr m ρ c 4).trans (((dat3 (V11 m ρ) c).arrAt_in 4 rfl _).trans (A_eq3 (V11 m ρ) c 4))
  · refine W12_of_ne m ρ c b fun w => ?_
    match w with
    | 0 => exact hb.ne_of (by decide)
    | 1 => exact fun e => h0 e.symm
    | 2 => exact hb.ne_of (by decide)
    | 3 => exact hb.ne_of (by decide)
    | 4 => exact fun e => h1 e.symm
    | 5 => exact hb.ne_of (by decide)

/-- Gathering recipe rows along the edges for the second layer's user side writes no argument. -/
theorem step_W13 (c : Dev nD) (b : Ref sig .tc) (hb : IsArg b) :
    W13 m ρ c (Proc.devRef .tc b) = W12 m ρ c (Proc.devRef .tc b) :=
  StableHlo.after_of_forall_not_mem (b := Proc.devRef .tc b) _ _ (List.forall_iff_forall_mem.mp (by
    simp only [hostOps4, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact hb.devRef_ne (by decide)))

/-- Summing, counting and dividing per user row, and reshaping the bias row, write no argument. -/
theorem step_W14 (c : Dev nD) (b : Ref sig .tc) (hb : IsArg b) :
    W14 m ρ c (Proc.devRef .tc b) = W13 m ρ c (Proc.devRef .tc b) :=
  StableHlo.after_of_forall_not_mem (b := Proc.devRef .tc b) _ _ (List.forall_iff_forall_mem.mp (by
    simp only [hostOps4_1, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact hb.devRef_ne (by decide)))

/-- The second layer's user combination reads arguments 21 and 23 through its second and fifth windows. -/
theorem step_W15 (c : Dev nD) (b : Ref sig .tc) (hb : IsArg b) :
    W15 m ρ c (Proc.devRef .tc b) = W14 m ρ c (Proc.devRef .tc b) := by
  by_cases h0 : b = main_arg21
  · subst h0
    exact (W15_arr m ρ c 1).trans (((dat4 (V14 m ρ) c).arrAt_in 1 rfl _).trans (A_eq4 (V14 m ρ) c 1))
  by_cases h1 : b = main_arg23
  · subst h1
    exact (W15_arr m ρ c 4).trans (((dat4 (V14 m ρ) c).arrAt_in 4 rfl _).trans (A_eq4 (V14 m ρ) c 4))
  · refine W15_of_ne m ρ c b fun w => ?_
    match w with
    | 0 => exact hb.ne_of (by decide)
    | 1 => exact fun e => h0 e.symm
    | 2 => exact hb.ne_of (by decide)
    | 3 => exact hb.ne_of (by decide)
    | 4 => exact fun e => h1 e.symm
    | 5 => exact hb.ne_of (by decide)

/-- Gathering user rows along the edges for the second layer's recipe side writes no argument. -/
theorem step_W16 (c : Dev nD) (b : Ref sig .tc) (hb : IsArg b) :
    W16 m ρ c (Proc.devRef .tc b) = W15 m ρ c (Proc.devRef .tc b) :=
  StableHlo.after_of_forall_not_mem (b := Proc.devRef .tc b) _ _ (List.forall_iff_forall_mem.mp (by
    simp only [hostOps5, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact hb.devRef_ne (by decide)))

/-- Summing, counting and dividing per recipe row, and reshaping the bias row, write no argument. -/
theorem step_W17 (c : Dev nD) (b : Ref sig .tc) (hb : IsArg b) :
    W17 m ρ c (Proc.devRef .tc b) = W16 m ρ c (Proc.devRef .tc b) :=
  StableHlo.after_of_forall_not_mem (b := Proc.devRef .tc b) _ _ (List.forall_iff_forall_mem.mp (by
    simp only [hostOps5_1, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact hb.devRef_ne (by decide)))

/-! ## The chain back to the launch memory -/

theorem arg_W1 (c : Dev nD) (b : Ref sig .tc) (hb : IsArg b) :
    W1 m ρ c (Proc.devRef .tc b) = m ((c : Thread nD τ).loc b) := by
  exact (step_W1 m ρ c b hb).trans rfl

theorem arg_W2 (c : Dev nD) (b : Ref sig .tc) (hb : IsArg b) :
    W2 m ρ c (Proc.devRef .tc b) = m ((c : Thread nD τ).loc b) := by
  exact (step_W2 m ρ c b hb).trans (arg_W1 m ρ c b hb)

theorem arg_W3 (c : Dev nD) (b : Ref sig .tc) (hb : IsArg b) :
    W3 m ρ c (Proc.devRef .tc b) = m ((c : Thread nD τ).loc b) := by
  exact (step_W3 m ρ c b hb).trans (arg_W2 m ρ c b hb)

theorem arg_W4 (c : Dev nD) (b : Ref sig .tc) (hb : IsArg b) :
    W4 m ρ c (Proc.devRef .tc b) = m ((c : Thread nD τ).loc b) := by
  exact (step_W4 m ρ c b hb).trans (arg_W3 m ρ c b hb)

theorem arg_W5 (c : Dev nD) (b : Ref sig .tc) (hb : IsArg b) :
    W5 m ρ c (Proc.devRef .tc b) = m ((c : Thread nD τ).loc b) := by
  exact (step_W5 m ρ c b hb).trans (arg_W4 m ρ c b hb)

theorem arg_W6 (c : Dev nD) (b : Ref sig .tc) (hb : IsArg b) :
    W6 m ρ c (Proc.devRef .tc b) = m ((c : Thread nD τ).loc b) := by
  exact (step_W6 m ρ c b hb).trans (arg_W5 m ρ c b hb)

theorem arg_W7 (c : Dev nD) (b : Ref sig .tc) (hb : IsArg b) :
    W7 m ρ c (Proc.devRef .tc b) = m ((c : Thread nD τ).loc b) := by
  exact (step_W7 m ρ c b hb).trans (arg_W6 m ρ c b hb)

theorem arg_W8 (c : Dev nD) (b : Ref sig .tc) (hb : IsArg b) :
    W8 m ρ c (Proc.devRef .tc b) = m ((c : Thread nD τ).loc b) := by
  exact (step_W8 m ρ c b hb).trans (arg_W7 m ρ c b hb)

theorem arg_W9 (c : Dev nD) (b : Ref sig .tc) (hb : IsArg b) :
    W9 m ρ c (Proc.devRef .tc b) = m ((c : Thread nD τ).loc b) := by
  exact (step_W9 m ρ c b hb).trans (arg_W8 m ρ c b hb)

theorem arg_W10 (c : Dev nD) (b : Ref sig .tc) (hb : IsArg b) :
    W10 m ρ c (Proc.devRef .tc b) = m ((c : Thread nD τ).loc b) := by
  exact (step_W10 m ρ c b hb).trans (arg_W9 m ρ c b hb)

theorem arg_W11 (c : Dev nD) (b : Ref sig .tc) (hb : IsArg b) :
    W11 m ρ c (Proc.devRef .tc b) = m ((c : Thread nD τ).loc b) := by
  exact (step_W11 m ρ c b hb).trans (arg_W10 m ρ c b hb)

theorem arg_W12 (c : Dev nD) (b : Ref sig .tc) (hb : IsArg b) :
    W12 m ρ c (Proc.devRef .tc b) = m ((c : Thread nD τ).loc b) := by
  exact (step_W12 m ρ c b hb).trans (arg_W11 m ρ c b hb)

theorem arg_W13 (c : Dev nD) (b : Ref sig .tc) (hb : IsArg b) :
    W13 m ρ c (Proc.devRef .tc b) = m ((c : Thread nD τ).loc b) := by
  exact (step_W13 m ρ c b hb).trans (arg_W12 m ρ c b hb)

theorem arg_W14 (c : Dev nD) (b : Ref sig .tc) (hb : IsArg b) :
    W14 m ρ c (Proc.devRef .tc b) = m ((c : Thread nD τ).loc b) := by
  exact (step_W14 m ρ c b hb).trans (arg_W13 m ρ c b hb)

theorem arg_W15 (c : Dev nD) (b : Ref sig .tc) (hb : IsArg b) :
    W15 m ρ c (Proc.devRef .tc b) = m ((c : Thread nD τ).loc b) := by
  exact (step_W15 m ρ c b hb).trans (arg_W14 m ρ c b hb)

theorem arg_W16 (c : Dev nD) (b : Ref sig .tc) (hb : IsArg b) :
    W16 m ρ c (Proc.devRef .tc b) = m ((c : Thread nD τ).loc b) := by
  exact (step_W16 m ρ c b hb).trans (arg_W15 m ρ c b hb)

theorem arg_W17 (c : Dev nD) (b : Ref sig .tc) (hb : IsArg b) :
    W17 m ρ c (Proc.devRef .tc b) = m ((c : Thread nD τ).loc b) := by
  exact (step_W17 m ρ c b hb).trans (arg_W16 m ρ c b hb)

end Cert.KernelIdeal.Val

end
-- ==== Proof.Region0.lean ====
/-
  Users' input stage: what the first launch leaves in its output array is the features times the weights, plus the bias row, plus the embedding rows, of the arrays it finds at entry.
-/
import proofs.«430915_j14465449853445_1_alg».proof.Proof.Gen.KernelIdeal.Frame
import proofs.«430915_j14465449853445_1_alg».proof.Proof.Stages
import Idealize.ShloMosaic.PureOps.Ideal
import Idealize.ShloMosaic.PureOps.Ideal.Laws
import Idealize.ShloMosaic.Lib.ValueIdx
import Idealize.ShloMosaic.Lib.ValueLayout
import Idealize.ShloMosaic.Lib.KernelVsHost
import Idealize.ShloMosaic.Lib.Pipeline.Value

set_option maxRecDepth 16384

noncomputable section

namespace Cert.KernelIdeal.Val

open Idealize.ShloMosaic Idealize.ShloMosaic.TcCoe Idealize.ShloMosaic.StableHlo
open Idealize.ShloMosaic.ValueIdx
open Cert.KernelIdeal Cert.KernelIdeal.Gen

/-! ## The block product, entry by entry -/

theorem kdot0_lhs_0 (i : S5000x64.Idx) (u : dot_S5000x58_S58x64_S5000x64_1_0_0_1_n_n.contr.Idx) :
    (dot_S5000x58_S58x64_S5000x64_1_0_0_1_n_n.lhsIdx i u 0).val = (i 0).val := by
  unfold DotDims.lhsIdx
  rw [dif_neg (show ¬(0 : Fin S5000x58.rank) ∈ dot_S5000x58_S58x64_S5000x64_1_0_0_1_n_n.lhsBatch by decide),
    dif_pos (show (0 : Fin S5000x58.rank) ∈ dot_S5000x58_S58x64_S5000x64_1_0_0_1_n_n.lhsNonContracting by decide)]
  rfl

theorem kdot0_lhs_1 (i : S5000x64.Idx) (u : dot_S5000x58_S58x64_S5000x64_1_0_0_1_n_n.contr.Idx) :
    (dot_S5000x58_S58x64_S5000x64_1_0_0_1_n_n.lhsIdx i u 1).val = (u ⟨0, by decide⟩).val :=
  dot_S5000x58_S58x64_S5000x64_1_0_0_1_n_n.lhsIdx_val_of_single rfl i u

theorem kdot0_rhs_0 (i : S5000x64.Idx) (u : dot_S5000x58_S58x64_S5000x64_1_0_0_1_n_n.contr.Idx) :
    (dot_S5000x58_S58x64_S5000x64_1_0_0_1_n_n.rhsIdx i u 0).val = (u ⟨0, by decide⟩).val :=
  dot_S5000x58_S58x64_S5000x64_1_0_0_1_n_n.rhsIdx_val_of_single rfl i u

theorem kdot0_rhs_1 (i : S5000x64.Idx) (u : dot_S5000x58_S58x64_S5000x64_1_0_0_1_n_n.contr.Idx) :
    (dot_S5000x58_S58x64_S5000x64_1_0_0_1_n_n.rhsIdx i u 1).val = (i 1).val := by
  unfold DotDims.rhsIdx
  rw [dif_neg (show ¬(1 : Fin S58x64.rank) ∈ dot_S5000x58_S58x64_S5000x64_1_0_0_1_n_n.rhsBatch by decide),
    dif_pos (show (1 : Fin S58x64.rank) ∈ dot_S5000x58_S58x64_S5000x64_1_0_0_1_n_n.rhsNonContracting by decide)]
  rfl

set_option maxHeartbeats 400000 in
/-- A block of rows times the weights, accumulated from zero: entry (p, q) is the sum over the 58 features. -/
theorem kmatmul0_apply (a : FVec Ideal S5000x58 .bf16) (b : FVec Ideal S58x64 .bf16) (p : Fin 5000) (q : Fin 64) :
    matmul dot_S5000x58_S58x64_S5000x64_1_0_0_1_n_n none a b (constant (F := Ideal) S5000x64 .f32 0x00000000#32) (ix2 p q)
      = ∑ k : Fin 58, a (ix2 p k) * b (ix2 k q) := by
  simp only [matmul]
  rw [Ideal.matmul_constant_zero_apply,
    ← Equiv.sum_comp (contrEquiv1 dot_S5000x58_S58x64_S5000x64_1_0_0_1_n_n 58 rfl rfl).symm]
  refine Finset.sum_congr rfl fun k _ => ?_
  have hk := contrEquiv1_symm_val dot_S5000x58_S58x64_S5000x64_1_0_0_1_n_n 58 rfl rfl k
  have el : dot_S5000x58_S58x64_S5000x64_1_0_0_1_n_n.lhsIdx (ix2 p q)
      ((contrEquiv1 dot_S5000x58_S58x64_S5000x64_1_0_0_1_n_n 58 rfl rfl).symm k) = ix2 p k :=
    funext fun ax => Fin.ext (by
      match ax with
      | ⟨0, _⟩ => exact kdot0_lhs_0 _ _
      | ⟨1, _⟩ => exact (kdot0_lhs_1 _ _).trans hk)
  have er : dot_S5000x58_S58x64_S5000x64_1_0_0_1_n_n.rhsIdx (ix2 p q)
      ((contrEquiv1 dot_S5000x58_S58x64_S5000x64_1_0_0_1_n_n 58 rfl rfl).symm k) = ix2 k q :=
    funext fun ax => Fin.ext (by
      match ax with
      | ⟨0, _⟩ => exact (kdot0_rhs_0 _ _).trans hk
      | ⟨1, _⟩ => exact kdot0_rhs_1 _ _)
  rw [el, er]

/-! ## The reference's product, entry by entry -/

theorem hdot0_lhs_0 (i : S50000x64.Idx) (u : Cert.ReferenceIdeal.dot_S50000x58_S58x64_S50000x64_1_0_0_1_n_n.contr.Idx) :
    (Cert.ReferenceIdeal.dot_S50000x58_S58x64_S50000x64_1_0_0_1_n_n.lhsIdx i u 0).val = (i 0).val := by
  unfold DotDims.lhsIdx
  rw [dif_neg (show ¬(0 : Fin S50000x58.rank) ∈ Cert.ReferenceIdeal.dot_S50000x58_S58x64_S50000x64_1_0_0_1_n_n.lhsBatch by decide),
    dif_pos (show (0 : Fin S50000x58.rank) ∈ Cert.ReferenceIdeal.dot_S50000x58_S58x64_S50000x64_1_0_0_1_n_n.lhsNonContracting by decide)]
  rfl

theorem hdot0_lhs_1 (i : S50000x64.Idx) (u : Cert.ReferenceIdeal.dot_S50000x58_S58x64_S50000x64_1_0_0_1_n_n.contr.Idx) :
    (Cert.ReferenceIdeal.dot_S50000x58_S58x64_S50000x64_1_0_0_1_n_n.lhsIdx i u 1).val = (u ⟨0, by decide⟩).val :=
  Cert.ReferenceIdeal.dot_S50000x58_S58x64_S50000x64_1_0_0_1_n_n.lhsIdx_val_of_single rfl i u

theorem hdot0_rhs_0 (i : S50000x64.Idx) (u : Cert.ReferenceIdeal.dot_S50000x58_S58x64_S50000x64_1_0_0_1_n_n.contr.Idx) :
    (Cert.ReferenceIdeal.dot_S50000x58_S58x64_S50000x64_1_0_0_1_n_n.rhsIdx i u 0).val = (u ⟨0, by decide⟩).val :=
  Cert.ReferenceIdeal.dot_S50000x58_S58x64_S50000x64_1_0_0_1_n_n.rhsIdx_val_of_single rfl i u

theorem hdot0_rhs_1 (i : S50000x64.Idx) (u : Cert.ReferenceIdeal.dot_S50000x58_S58x64_S50000x64_1_0_0_1_n_n.contr.Idx) :
    (Cert.ReferenceIdeal.dot_S50000x58_S58x64_S50000x64_1_0_0_1_n_n.rhsIdx i u 1).val = (i 1).val := by
  unfold DotDims.rhsIdx
  rw [dif_neg (show ¬(1 : Fin S58x64.rank) ∈ Cert.ReferenceIdeal.dot_S50000x58_S58x64_S50000x64_1_0_0_1_n_n.rhsBatch by decide),
    dif_pos (show (1 : Fin S58x64.rank) ∈ Cert.ReferenceIdeal.dot_S50000x58_S58x64_S50000x64_1_0_0_1_n_n.rhsNonContracting by decide)]
  rfl

set_option maxHeartbeats 400000 in
/-- All the rows times the weights: entry (r, q) is the sum over the 58 features. -/
theorem hdot0_apply (x : FVec Ideal S50000x58 .f32) (W : FVec Ideal S58x64 .f32) (r : Fin 50000) (q : Fin 64) :
    Host.dotGeneral (F := Ideal) Cert.ReferenceIdeal.dot_S50000x58_S58x64_S50000x64_1_0_0_1_n_n none x W (ix2 r q)
      = ∑ k : Fin 58, x (ix2 r k) * W (ix2 k q) := by
  simp only [Host.dotGeneral]
  rw [Ideal.dotGeneral_apply,
    ← Equiv.sum_comp (contrEquiv1 Cert.ReferenceIdeal.dot_S50000x58_S58x64_S50000x64_1_0_0_1_n_n 58 rfl rfl).symm]
  refine Finset.sum_congr rfl fun k _ => ?_
  have hk := contrEquiv1_symm_val Cert.ReferenceIdeal.dot_S50000x58_S58x64_S50000x64_1_0_0_1_n_n 58 rfl rfl k
  have el : Cert.ReferenceIdeal.dot_S50000x58_S58x64_S50000x64_1_0_0_1_n_n.lhsIdx (ix2 r q)
      ((contrEquiv1 Cert.ReferenceIdeal.dot_S50000x58_S58x64_S50000x64_1_0_0_1_n_n 58 rfl rfl).symm k) = ix2 r k :=
    funext fun ax => Fin.ext (by
      match ax with
      | ⟨0, _⟩ => exact hdot0_lhs_0 _ _
      | ⟨1, _⟩ => exact (hdot0_lhs_1 _ _).trans hk)
  have er : Cert.ReferenceIdeal.dot_S50000x58_S58x64_S50000x64_1_0_0_1_n_n.rhsIdx (ix2 r q)
      ((contrEquiv1 Cert.ReferenceIdeal.dot_S50000x58_S58x64_S50000x64_1_0_0_1_n_n 58 rfl rfl).symm k) = ix2 k q :=
    funext fun ax => Fin.ext (by
      match ax with
      | ⟨0, _⟩ => exact (hdot0_rhs_0 _ _).trans hk
      | ⟨1, _⟩ => exact hdot0_rhs_1 _ _)
  rw [el, er]

/-! ## The two sides at an entry -/

set_option maxHeartbeats 400000 in
/-- What one grid point stores at (p, q) of its block: the product's entry, plus the bias at column q, plus the
    embedding block's entry. Narrowing to the short float format changes no ideal value. -/
theorem pay0_apply (x0 : FVec Ideal S5000x58 .f32) (x1 : FVec Ideal S58x64 .f32) (x2 : FVec Ideal S1x64 .f32)
    (x3 : FVec Ideal S5000x64 .f32) (p : Fin 5000) (q : Fin 64) :
    k0_pay1 (F := Ideal) x0 x1 x2 x3 (ix2 p q)
      = (∑ k : Fin 58, x0 (ix2 p k) * x1 (ix2 k q)) + x2 (ix2 (0 : Fin 1) q) + x3 (ix2 p q) := by
  unfold k0_pay1
  rw [addf_apply, addf_apply, kmatmul0_apply, shapeCast_self, shapeCast_self, broadcastTo_1b_ab_apply]
  rfl

set_option maxHeartbeats 400000 in
/-- The dense stage at (r, q): the product's entry, plus the bias at column q, plus the embedding row's entry. -/
theorem linU_apply (x : FVec Ideal S50000x58 .f32) (W : FVec Ideal S58x64 .f32) (b2 : FVec Ideal S1x64 .f32)
    (e : FVec Ideal S50000x64 .f32) (r : Fin 50000) (q : Fin 64) :
    Cert.Bridge.linU (F := Ideal) x W b2 e (ix2 r q)
      = (∑ k : Fin 58, x (ix2 r k) * W (ix2 k q)) + b2 (ix2 (0 : Fin 1) q) + e (ix2 r q) := by
  unfold Cert.Bridge.linU
  rw [addf_apply, addf_apply, hdot0_apply, broadcastInDim_oneRow_apply]

/-! ## From the blocks to the array -/

theorem offsets_zero0 : (![0, 0] : Fin 2 → Nat) = fun _ => 0 := funext fun a => by fin_cases a <;> rfl

/-- The index maps over the ten grid points: the feature rows, the embedding rows and the output move with the point
    (block (t, 0)); the weights and the bias row are the one block (0, 0) at every point. -/
theorem blockIdx0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

variable (V : (c : Dev nD) → (b : Ref sig .tc) → Buf (Elt Ideal) ((c : Thread nD τ).loc b))

set_option maxHeartbeats 400000 in
/-- What point t writes back is block t of the dense stage of the entry arrays: row p of the block is row
    5000 t + p of the array, and the contraction runs over the same 58 features on both sides. -/
theorem flushed0_eq (c : Dev nD) (t : Fin cfg0.N) :
    (dat0 (F := Ideal) V c).flushed 4 t = ((cfg0.win 4).blk t).view.read (Elt Ideal)
      (Cert.Bridge.linU (F := Ideal) (V c main_arg0) (V c main_arg6) (V c main_v2) (V c main_v0)) := by
  show (cfg0.win 4).cut (grid0.coords t) ((dat0 V c).after 4 t) = _
  rw [after0_4]
  unfold out0_4
  rw [View.canon_unit_zero offsets_zero0]
  simp only [View.ld_unit_zero (S := S5000x58) offsets_zero0, View.ld_unit_zero (S := S58x64) offsets_zero0,
    View.ld_unit_zero (S := S1x64) offsets_zero0, View.ld_unit_zero (S := S5000x64) offsets_zero0]
  obtain ⟨e00, e01, e10, e11, e20, e21, e30, e31, e40, e41⟩ := blockIdx0 t
  funext j
  obtain ⟨p, q, rfl⟩ : ∃ (p : Fin 5000) (q : Fin 64), j = ix2 p q := ⟨j 0, j 1, eq_ix2 j⟩
  show k0_pay1 (F := Ideal) (iblk0 V c 0 t) (iblk0 V c 1 t) (iblk0 V c 2 t) (iblk0 V c 3 t) (ix2 p q)
    = Cert.Bridge.linU (F := Ideal) (V c main_arg0) (V c main_arg6) (V c main_v2) (V c main_v0)
        (((cfg0.win 4).blk t).view.emb (ix2 p q))
  have ht : t.val < 10 := lt_of_lt_of_eq t.isLt N_0
  have hp : p.val < 5000 := p.isLt
  have hr : t.val * 5000 + p.val < 50000 := by omega
  -- where the output block's entry sits in the array
  have h4 : ((cfg0.win 4).blk t).view.emb (ix2 p q) = ix2 (⟨t.val * 5000 + p.val, hr⟩ : Fin 50000) q := by
    funext a; apply Fin.ext
    match a with
    | ⟨0, _⟩ => show win0_4.index t (0 : Fin 2) * 5000 + 1 * p.val = t.val * 5000 + p.val; omega
    | ⟨1, _⟩ => show win0_4.index t (1 : Fin 2) * 64 + 1 * q.val = q.val; omega
  rw [h4, linU_apply, pay0_apply]
  -- the feature rows' block: the same rows of the array
  have h0 : ∀ k : Fin 58, iblk0 V c 0 t (ix2 p k) = V c main_arg0 (ix2 (⟨t.val * 5000 + p.val, hr⟩ : Fin 50000) k) := by
    intro k
    show V c main_arg0 (((cfg0.win 0).blk t).view.emb (ix2 p k)) = _
    refine congrArg _ (funext fun a => Fin.ext ?_)
    match a with
    | ⟨0, _⟩ => show win0_0.index t (0 : Fin 2) * 5000 + 1 * p.val = t.val * 5000 + p.val; omega
    | ⟨1, _⟩ => show win0_0.index t (1 : Fin 2) * 58 + 1 * k.val = k.val; omega
  -- the weights' block is the whole matrix
  have h1 : ∀ k : Fin 58, iblk0 V c 1 t (ix2 k q) = V c main_arg6 (ix2 k q) := by
    intro k
    show V c main_arg6 (((cfg0.win 1).blk t).view.emb (ix2 k q)) = _
    refine congrArg _ (funext fun a => Fin.ext ?_)
    match a with
    | ⟨0, _⟩ => show win0_1.index t (0 : Fin 2) * 58 + 1 * k.val = k.val; omega
    | ⟨1, _⟩ => show win0_1.index t (1 : Fin 2) * 64 + 1 * q.val = q.val; omega
  -- the bias block is the whole row
  have h2 : iblk0 V c 2 t (ix2 (0 : Fin 1) q) = V c main_v2 (ix2 (0 : Fin 1) q) := by
    show V c main_v2 (((cfg0.win 2).blk t).view.emb (ix2 (0 : Fin 1) q)) = _
    refine congrArg _ (funext fun a => Fin.ext ?_)
    match a with
    | ⟨0, _⟩ => show win0_2.index t (0 : Fin 2) * 1 + 1 * 0 = 0; omega
    | ⟨1, _⟩ => show win0_2.index t (1 : Fin 2) * 64 + 1 * q.val = q.val; omega
  -- the embedding rows' block: the same rows of the array
  have h3 : iblk0 V c 3 t (ix2 p q) = V c main_v0 (ix2 (⟨t.val * 5000 + p.val, hr⟩ : Fin 50000) q) := by
    show V c main_v0 (((cfg0.win 3).blk t).view.emb (ix2 p q)) = _
    refine congrArg _ (funext fun a => Fin.ext ?_)
    match a with
    | ⟨0, _⟩ => show win0_3.index t (0 : Fin 2) * 5000 + 1 * p.val = t.val * 5000 + p.val; omega
    | ⟨1, _⟩ => show win0_3.index t (1 : Fin 2) * 64 + 1 * q.val = q.val; omega
  rw [h2, h3]
  simp only [h0, h1]

/-- An index of the output array lies in point t's block iff each coordinate lies in the block's range on its axis. -/
theorem mem_blk0 (t : Fin cfg0.N) (i : S50000x64.Idx) :
    i ∈ ((cfg0.win 4).blk t).view.set ↔ ∀ a : Fin 2, win0_4.index t a * S5000x64.size a ≤ (i a).val
      ∧ (i a).val < win0_4.index t a * S5000x64.size a + S5000x64.size a := by
  show i ∈ ((View.whole main_v3).slice (win0_4.rect t)).set ↔ _
  rw [View.set_slice_whole, Rect.mem_set_unit]
  exact Iff.rfl

/-- Every row of the output array is written: row r by the point r / 5000. -/
theorem cover0 (i : S50000x64.Idx) :
    ∃ t : Fin cfg0.N, (cfg0.win 4).flush t = true ∧ i ∈ ((cfg0.win 4).blk t).view.set := by
  have hi0 : (i 0).val < 50000 := (i 0).isLt
  have hi1 : (i 1).val < 64 := (i 1).isLt
  have hN : cfg0.N = 10 := N_0
  have hlt : (i 0).val / 5000 < cfg0.N := by rw [hN]; omega
  obtain ⟨-, -, -, -, -, -, -, -, e40, e41⟩ := blockIdx0 ⟨(i 0).val / 5000, hlt⟩
  have e40' : win0_4.index ⟨(i 0).val / 5000, hlt⟩ (0 : Fin 2) = (i 0).val / 5000 := e40
  refine ⟨⟨(i 0).val / 5000, hlt⟩, flush0_4 _, ?_⟩
  rw [mem_blk0]
  intro a
  match a with
  | ⟨0, _⟩ =>
    show win0_4.index ⟨(i 0).val / 5000, hlt⟩ (0 : Fin 2) * 5000 ≤ (i 0).val
      ∧ (i 0).val < win0_4.index ⟨(i 0).val / 5000, hlt⟩ (0 : Fin 2) * 5000 + 5000
    omega
  | ⟨1, _⟩ =>
    show win0_4.index ⟨(i 0).val / 5000, hlt⟩ (1 : Fin 2) * 64 ≤ (i 1).val
      ∧ (i 1).val < win0_4.index ⟨(i 0).val / 5000, hlt⟩ (1 : Fin 2) * 64 + 64
    omega

/-- Users' input stage: what the first launch leaves in its output array is the features times the weights, plus the bias row, plus the embedding rows, of the arrays it finds at entry. -/
theorem region0 (c : Dev nD) :
    (dat0 (F := Ideal) V c).arrAt 4 cfg0.N = Cert.Bridge.linU (F := Ideal) (V c main_arg0) (V c main_arg6) (V c main_v2) (V c main_v0) :=
  (dat0 (F := Ideal) V c).arrAt_eq_of_cover 4
    (Cert.Bridge.linU (F := Ideal) (V c main_arg0) (V c main_arg6) (V c main_v2) (V c main_v0))
    (fun t _ => flushed0_eq V c t) cover0

end Cert.KernelIdeal.Val

end
-- ==== Proof.Region1.lean ====
/-
  Recipes' input stage: what the second launch leaves in its output array is the features times the weights, plus the bias row, plus the embedding rows, of the arrays it finds at entry.
-/
import proofs.«430915_j14465449853445_1_alg».proof.Proof.Gen.KernelIdeal.Frame
import proofs.«430915_j14465449853445_1_alg».proof.Proof.Stages
import Idealize.ShloMosaic.PureOps.Ideal
import Idealize.ShloMosaic.PureOps.Ideal.Laws
import Idealize.ShloMosaic.Lib.ValueIdx
import Idealize.ShloMosaic.Lib.ValueLayout
import Idealize.ShloMosaic.Lib.KernelVsHost
import Idealize.ShloMosaic.Lib.Pipeline.Value

set_option maxRecDepth 16384

noncomputable section

namespace Cert.KernelIdeal.Val

open Idealize.ShloMosaic Idealize.ShloMosaic.TcCoe Idealize.ShloMosaic.StableHlo
open Idealize.ShloMosaic.ValueIdx
open Cert.KernelIdeal Cert.KernelIdeal.Gen

/-! ## The block product, entry by entry -/

theorem kdot1_lhs_0 (i : S5000x64.Idx) (u : dot_S5000x768_S768x64_S5000x64_1_0_0_1_n_n.contr.Idx) :
    (dot_S5000x768_S768x64_S5000x64_1_0_0_1_n_n.lhsIdx i u 0).val = (i 0).val := by
  unfold DotDims.lhsIdx
  rw [dif_neg (show ¬(0 : Fin S5000x768.rank) ∈ dot_S5000x768_S768x64_S5000x64_1_0_0_1_n_n.lhsBatch by decide),
    dif_pos (show (0 : Fin S5000x768.rank) ∈ dot_S5000x768_S768x64_S5000x64_1_0_0_1_n_n.lhsNonContracting by decide)]
  rfl

theorem kdot1_lhs_1 (i : S5000x64.Idx) (u : dot_S5000x768_S768x64_S5000x64_1_0_0_1_n_n.contr.Idx) :
    (dot_S5000x768_S768x64_S5000x64_1_0_0_1_n_n.lhsIdx i u 1).val = (u ⟨0, by decide⟩).val :=
  dot_S5000x768_S768x64_S5000x64_1_0_0_1_n_n.lhsIdx_val_of_single rfl i u

theorem kdot1_rhs_0 (i : S5000x64.Idx) (u : dot_S5000x768_S768x64_S5000x64_1_0_0_1_n_n.contr.Idx) :
    (dot_S5000x768_S768x64_S5000x64_1_0_0_1_n_n.rhsIdx i u 0).val = (u ⟨0, by decide⟩).val :=
  dot_S5000x768_S768x64_S5000x64_1_0_0_1_n_n.rhsIdx_val_of_single rfl i u

theorem kdot1_rhs_1 (i : S5000x64.Idx) (u : dot_S5000x768_S768x64_S5000x64_1_0_0_1_n_n.contr.Idx) :
    (dot_S5000x768_S768x64_S5000x64_1_0_0_1_n_n.rhsIdx i u 1).val = (i 1).val := by
  unfold DotDims.rhsIdx
  rw [dif_neg (show ¬(1 : Fin S768x64.rank) ∈ dot_S5000x768_S768x64_S5000x64_1_0_0_1_n_n.rhsBatch by decide),
    dif_pos (show (1 : Fin S768x64.rank) ∈ dot_S5000x768_S768x64_S5000x64_1_0_0_1_n_n.rhsNonContracting by decide)]
  rfl

set_option maxHeartbeats 400000 in
/-- A block of rows times the weights, accumulated from zero: entry (p, q) is the sum over the 768 features. -/
theorem kmatmul1_apply (a : FVec Ideal S5000x768 .bf16) (b : FVec Ideal S768x64 .bf16) (p : Fin 5000) (q : Fin 64) :
    matmul dot_S5000x768_S768x64_S5000x64_1_0_0_1_n_n none a b (constant (F := Ideal) S5000x64 .f32 0x00000000#32) (ix2 p q)
      = ∑ k : Fin 768, a (ix2 p k) * b (ix2 k q) := by
  simp only [matmul]
  rw [Ideal.matmul_constant_zero_apply,
    ← Equiv.sum_comp (contrEquiv1 dot_S5000x768_S768x64_S5000x64_1_0_0_1_n_n 768 rfl rfl).symm]
  refine Finset.sum_congr rfl fun k _ => ?_
  have hk := contrEquiv1_symm_val dot_S5000x768_S768x64_S5000x64_1_0_0_1_n_n 768 rfl rfl k
  have el : dot_S5000x768_S768x64_S5000x64_1_0_0_1_n_n.lhsIdx (ix2 p q)
      ((contrEquiv1 dot_S5000x768_S768x64_S5000x64_1_0_0_1_n_n 768 rfl rfl).symm k) = ix2 p k :=
    funext fun ax => Fin.ext (by
      match ax with
      | ⟨0, _⟩ => exact kdot1_lhs_0 _ _
      | ⟨1, _⟩ => exact (kdot1_lhs_1 _ _).trans hk)
  have er : dot_S5000x768_S768x64_S5000x64_1_0_0_1_n_n.rhsIdx (ix2 p q)
      ((contrEquiv1 dot_S5000x768_S768x64_S5000x64_1_0_0_1_n_n 768 rfl rfl).symm k) = ix2 k q :=
    funext fun ax => Fin.ext (by
      match ax with
      | ⟨0, _⟩ => exact (kdot1_rhs_0 _ _).trans hk
      | ⟨1, _⟩ => exact kdot1_rhs_1 _ _)
  rw [el, er]

/-! ## The reference's product, entry by entry -/

theorem hdot1_lhs_0 (i : S100000x64.Idx) (u : Cert.ReferenceIdeal.dot_S100000x768_S768x64_S100000x64_1_0_0_1_n_n.contr.Idx) :
    (Cert.ReferenceIdeal.dot_S100000x768_S768x64_S100000x64_1_0_0_1_n_n.lhsIdx i u 0).val = (i 0).val := by
  unfold DotDims.lhsIdx
  rw [dif_neg (show ¬(0 : Fin S100000x768.rank) ∈ Cert.ReferenceIdeal.dot_S100000x768_S768x64_S100000x64_1_0_0_1_n_n.lhsBatch by decide),
    dif_pos (show (0 : Fin S100000x768.rank) ∈ Cert.ReferenceIdeal.dot_S100000x768_S768x64_S100000x64_1_0_0_1_n_n.lhsNonContracting by decide)]
  rfl

theorem hdot1_lhs_1 (i : S100000x64.Idx) (u : Cert.ReferenceIdeal.dot_S100000x768_S768x64_S100000x64_1_0_0_1_n_n.contr.Idx) :
    (Cert.ReferenceIdeal.dot_S100000x768_S768x64_S100000x64_1_0_0_1_n_n.lhsIdx i u 1).val = (u ⟨0, by decide⟩).val :=
  Cert.ReferenceIdeal.dot_S100000x768_S768x64_S100000x64_1_0_0_1_n_n.lhsIdx_val_of_single rfl i u

theorem hdot1_rhs_0 (i : S100000x64.Idx) (u : Cert.ReferenceIdeal.dot_S100000x768_S768x64_S100000x64_1_0_0_1_n_n.contr.Idx) :
    (Cert.ReferenceIdeal.dot_S100000x768_S768x64_S100000x64_1_0_0_1_n_n.rhsIdx i u 0).val = (u ⟨0, by decide⟩).val :=
  Cert.ReferenceIdeal.dot_S100000x768_S768x64_S100000x64_1_0_0_1_n_n.rhsIdx_val_of_single rfl i u

theorem hdot1_rhs_1 (i : S100000x64.Idx) (u : Cert.ReferenceIdeal.dot_S100000x768_S768x64_S100000x64_1_0_0_1_n_n.contr.Idx) :
    (Cert.ReferenceIdeal.dot_S100000x768_S768x64_S100000x64_1_0_0_1_n_n.rhsIdx i u 1).val = (i 1).val := by
  unfold DotDims.rhsIdx
  rw [dif_neg (show ¬(1 : Fin S768x64.rank) ∈ Cert.ReferenceIdeal.dot_S100000x768_S768x64_S100000x64_1_0_0_1_n_n.rhsBatch by decide),
    dif_pos (show (1 : Fin S768x64.rank) ∈ Cert.ReferenceIdeal.dot_S100000x768_S768x64_S100000x64_1_0_0_1_n_n.rhsNonContracting by decide)]
  rfl

set_option maxHeartbeats 400000 in
/-- All the rows times the weights: entry (r, q) is the sum over the 768 features. -/
theorem hdot1_apply (x : FVec Ideal S100000x768 .f32) (W : FVec Ideal S768x64 .f32) (r : Fin 100000) (q : Fin 64) :
    Host.dotGeneral (F := Ideal) Cert.ReferenceIdeal.dot_S100000x768_S768x64_S100000x64_1_0_0_1_n_n none x W (ix2 r q)
      = ∑ k : Fin 768, x (ix2 r k) * W (ix2 k q) := by
  simp only [Host.dotGeneral]
  rw [Ideal.dotGeneral_apply,
    ← Equiv.sum_comp (contrEquiv1 Cert.ReferenceIdeal.dot_S100000x768_S768x64_S100000x64_1_0_0_1_n_n 768 rfl rfl).symm]
  refine Finset.sum_congr rfl fun k _ => ?_
  have hk := contrEquiv1_symm_val Cert.ReferenceIdeal.dot_S100000x768_S768x64_S100000x64_1_0_0_1_n_n 768 rfl rfl k
  have el : Cert.ReferenceIdeal.dot_S100000x768_S768x64_S100000x64_1_0_0_1_n_n.lhsIdx (ix2 r q)
      ((contrEquiv1 Cert.ReferenceIdeal.dot_S100000x768_S768x64_S100000x64_1_0_0_1_n_n 768 rfl rfl).symm k) = ix2 r k :=
    funext fun ax => Fin.ext (by
      match ax with
      | ⟨0, _⟩ => exact hdot1_lhs_0 _ _
      | ⟨1, _⟩ => exact (hdot1_lhs_1 _ _).trans hk)
  have er : Cert.ReferenceIdeal.dot_S100000x768_S768x64_S100000x64_1_0_0_1_n_n.rhsIdx (ix2 r q)
      ((contrEquiv1 Cert.ReferenceIdeal.dot_S100000x768_S768x64_S100000x64_1_0_0_1_n_n 768 rfl rfl).symm k) = ix2 k q :=
    funext fun ax => Fin.ext (by
      match ax with
      | ⟨0, _⟩ => exact (hdot1_rhs_0 _ _).trans hk
      | ⟨1, _⟩ => exact hdot1_rhs_1 _ _)
  rw [el, er]

/-! ## The two sides at an entry -/

set_option maxHeartbeats 400000 in
/-- What one grid point stores at (p, q) of its block: the product's entry, plus the bias at column q, plus the
    embedding block's entry. Narrowing to the short float format changes no ideal value. -/
theorem pay1_apply (x0 : FVec Ideal S5000x768 .f32) (x1 : FVec Ideal S768x64 .f32) (x2 : FVec Ideal S1x64 .f32)
    (x3 : FVec Ideal S5000x64 .f32) (p : Fin 5000) (q : Fin 64) :
    k1_pay1 (F := Ideal) x0 x1 x2 x3 (ix2 p q)
      = (∑ k : Fin 768, x0 (ix2 p k) * x1 (ix2 k q)) + x2 (ix2 (0 : Fin 1) q) + x3 (ix2 p q) := by
  unfold k1_pay1
  rw [addf_apply, addf_apply, kmatmul1_apply, shapeCast_self, shapeCast_self, broadcastTo_1b_ab_apply]
  rfl

set_option maxHeartbeats 400000 in
/-- The dense stage at (r, q): the product's entry, plus the bias at column q, plus the embedding row's entry. -/
theorem linR_apply (x : FVec Ideal S100000x768 .f32) (W : FVec Ideal S768x64 .f32) (b2 : FVec Ideal S1x64 .f32)
    (e : FVec Ideal S100000x64 .f32) (r : Fin 100000) (q : Fin 64) :
    Cert.Bridge.linR (F := Ideal) x W b2 e (ix2 r q)
      = (∑ k : Fin 768, x (ix2 r k) * W (ix2 k q)) + b2 (ix2 (0 : Fin 1) q) + e (ix2 r q) := by
  unfold Cert.Bridge.linR
  rw [addf_apply, addf_apply, hdot1_apply, broadcastInDim_oneRow_apply]

/-! ## From the blocks to the array -/

theorem offsets_zero1 : (![0, 0] : Fin 2 → Nat) = fun _ => 0 := funext fun a => by fin_cases a <;> rfl

/-- The index maps over the twenty grid points: the feature rows, the embedding rows and the output move with the point
    (block (t, 0)); the weights and the bias row are the one block (0, 0) at every point. -/
theorem blockIdx1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

variable (V : (c : Dev nD) → (b : Ref sig .tc) → Buf (Elt Ideal) ((c : Thread nD τ).loc b))

set_option maxHeartbeats 400000 in
/-- What point t writes back is block t of the dense stage of the entry arrays: row p of the block is row
    5000 t + p of the array, and the contraction runs over the same 768 features on both sides. -/
theorem flushed1_eq (c : Dev nD) (t : Fin cfg1.N) :
    (dat1 (F := Ideal) V c).flushed 4 t = ((cfg1.win 4).blk t).view.read (Elt Ideal)
      (Cert.Bridge.linR (F := Ideal) (V c main_arg1) (V c main_arg8) (V c main_v4) (V c main_v1)) := by
  show (cfg1.win 4).cut (grid1.coords t) ((dat1 V c).after 4 t) = _
  rw [after1_4]
  unfold out1_4
  rw [View.canon_unit_zero offsets_zero1]
  simp only [View.ld_unit_zero (S := S5000x768) offsets_zero1, View.ld_unit_zero (S := S768x64) offsets_zero1,
    View.ld_unit_zero (S := S1x64) offsets_zero1, View.ld_unit_zero (S := S5000x64) offsets_zero1]
  obtain ⟨e00, e01, e10, e11, e20, e21, e30, e31, e40, e41⟩ := blockIdx1 t
  funext j
  obtain ⟨p, q, rfl⟩ : ∃ (p : Fin 5000) (q : Fin 64), j = ix2 p q := ⟨j 0, j 1, eq_ix2 j⟩
  show k1_pay1 (F := Ideal) (iblk1 V c 0 t) (iblk1 V c 1 t) (iblk1 V c 2 t) (iblk1 V c 3 t) (ix2 p q)
    = Cert.Bridge.linR (F := Ideal) (V c main_arg1) (V c main_arg8) (V c main_v4) (V c main_v1)
        (((cfg1.win 4).blk t).view.emb (ix2 p q))
  have ht : t.val < 20 := lt_of_lt_of_eq t.isLt N_1
  have hp : p.val < 5000 := p.isLt
  have hr : t.val * 5000 + p.val < 100000 := by omega
  -- where the output block's entry sits in the array
  have h4 : ((cfg1.win 4).blk t).view.emb (ix2 p q) = ix2 (⟨t.val * 5000 + p.val, hr⟩ : Fin 100000) q := by
    funext a; apply Fin.ext
    match a with
    | ⟨0, _⟩ => show win1_4.index t (0 : Fin 2) * 5000 + 1 * p.val = t.val * 5000 + p.val; omega
    | ⟨1, _⟩ => show win1_4.index t (1 : Fin 2) * 64 + 1 * q.val = q.val; omega
  rw [h4, linR_apply, pay1_apply]
  -- the feature rows' block: the same rows of the array
  have h0 : ∀ k : Fin 768, iblk1 V c 0 t (ix2 p k) = V c main_arg1 (ix2 (⟨t.val * 5000 + p.val, hr⟩ : Fin 100000) k) := by
    intro k
    show V c main_arg1 (((cfg1.win 0).blk t).view.emb (ix2 p k)) = _
    refine congrArg _ (funext fun a => Fin.ext ?_)
    match a with
    | ⟨0, _⟩ => show win1_0.index t (0 : Fin 2) * 5000 + 1 * p.val = t.val * 5000 + p.val; omega
    | ⟨1, _⟩ => show win1_0.index t (1 : Fin 2) * 768 + 1 * k.val = k.val; omega
  -- the weights' block is the whole matrix
  have h1 : ∀ k : Fin 768, iblk1 V c 1 t (ix2 k q) = V c main_arg8 (ix2 k q) := by
    intro k
    show V c main_arg8 (((cfg1.win 1).blk t).view.emb (ix2 k q)) = _
    refine congrArg _ (funext fun a => Fin.ext ?_)
    match a with
    | ⟨0, _⟩ => show win1_1.index t (0 : Fin 2) * 768 + 1 * k.val = k.val; omega
    | ⟨1, _⟩ => show win1_1.index t (1 : Fin 2) * 64 + 1 * q.val = q.val; omega
  -- the bias block is the whole row
  have h2 : iblk1 V c 2 t (ix2 (0 : Fin 1) q) = V c main_v4 (ix2 (0 : Fin 1) q) := by
    show V c main_v4 (((cfg1.win 2).blk t).view.emb (ix2 (0 : Fin 1) q)) = _
    refine congrArg _ (funext fun a => Fin.ext ?_)
    match a with
    | ⟨0, _⟩ => show win1_2.index t (0 : Fin 2) * 1 + 1 * 0 = 0; omega
    | ⟨1, _⟩ => show win1_2.index t (1 : Fin 2) * 64 + 1 * q.val = q.val; omega
  -- the embedding rows' block: the same rows of the array
  have h3 : iblk1 V c 3 t (ix2 p q) = V c main_v1 (ix2 (⟨t.val * 5000 + p.val, hr⟩ : Fin 100000) q) := by
    show V c main_v1 (((cfg1.win 3).blk t).view.emb (ix2 p q)) = _
    refine congrArg _ (funext fun a => Fin.ext ?_)
    match a with
    | ⟨0, _⟩ => show win1_3.index t (0 : Fin 2) * 5000 + 1 * p.val = t.val * 5000 + p.val; omega
    | ⟨1, _⟩ => show win1_3.index t (1 : Fin 2) * 64 + 1 * q.val = q.val; omega
  rw [h2, h3]
  simp only [h0, h1]

/-- An index of the output array lies in point t's block iff each coordinate lies in the block's range on its axis. -/
theorem mem_blk1 (t : Fin cfg1.N) (i : S100000x64.Idx) :
    i ∈ ((cfg1.win 4).blk t).view.set ↔ ∀ a : Fin 2, win1_4.index t a * S5000x64.size a ≤ (i a).val
      ∧ (i a).val < win1_4.index t a * S5000x64.size a + S5000x64.size a := by
  show i ∈ ((View.whole main_v5).slice (win1_4.rect t)).set ↔ _
  rw [View.set_slice_whole, Rect.mem_set_unit]
  exact Iff.rfl

/-- Every row of the output array is written: row r by the point r / 5000. -/
theorem cover1 (i : S100000x64.Idx) :
    ∃ t : Fin cfg1.N, (cfg1.win 4).flush t = true ∧ i ∈ ((cfg1.win 4).blk t).view.set := by
  have hi0 : (i 0).val < 100000 := (i 0).isLt
  have hi1 : (i 1).val < 64 := (i 1).isLt
  have hN : cfg1.N = 20 := N_1
  have hlt : (i 0).val / 5000 < cfg1.N := by rw [hN]; omega
  obtain ⟨-, -, -, -, -, -, -, -, e40, e41⟩ := blockIdx1 ⟨(i 0).val / 5000, hlt⟩
  have e40' : win1_4.index ⟨(i 0).val / 5000, hlt⟩ (0 : Fin 2) = (i 0).val / 5000 := e40
  refine ⟨⟨(i 0).val / 5000, hlt⟩, flush1_4 _, ?_⟩
  rw [mem_blk1]
  intro a
  match a with
  | ⟨0, _⟩ =>
    show win1_4.index ⟨(i 0).val / 5000, hlt⟩ (0 : Fin 2) * 5000 ≤ (i 0).val
      ∧ (i 0).val < win1_4.index ⟨(i 0).val / 5000, hlt⟩ (0 : Fin 2) * 5000 + 5000
    omega
  | ⟨1, _⟩ =>
    show win1_4.index ⟨(i 0).val / 5000, hlt⟩ (1 : Fin 2) * 64 ≤ (i 1).val
      ∧ (i 1).val < win1_4.index ⟨(i 0).val / 5000, hlt⟩ (1 : Fin 2) * 64 + 64
    omega

/-- Recipes' input stage: what the second launch leaves in its output array is the features times the weights, plus the bias row, plus the embedding rows, of the arrays it finds at entry. -/
theorem region1 (c : Dev nD) :
    (dat1 (F := Ideal) V c).arrAt 4 cfg1.N = Cert.Bridge.linR (F := Ideal) (V c main_arg1) (V c main_arg8) (V c main_v4) (V c main_v1) :=
  (dat1 (F := Ideal) V c).arrAt_eq_of_cover 4
    (Cert.Bridge.linR (F := Ideal) (V c main_arg1) (V c main_arg8) (V c main_v4) (V c main_v1))
    (fun t _ => flushed1_eq V c t) cover1

end Cert.KernelIdeal.Val

end
-- ==== Proof.Region2.lean ====
/-
  Users' first-layer combine with the clamp at zero: what the third launch leaves in its output array.
-/
import proofs.«430915_j14465449853445_1_alg».proof.Proof.Gen.KernelIdeal.Frame
import proofs.«430915_j14465449853445_1_alg».proof.Proof.Stages
import Idealize.ShloMosaic.PureOps.Ideal
import Idealize.ShloMosaic.PureOps.Ideal.Laws
import Idealize.ShloMosaic.Lib.ValueIdx
import Idealize.ShloMosaic.Lib.Pipeline.Value

set_option maxRecDepth 16384

noncomputable section

namespace Cert.KernelIdeal.Val

open Idealize.ShloMosaic Idealize.ShloMosaic.TcCoe Idealize.ShloMosaic.StableHlo
open Cert.KernelIdeal Cert.KernelIdeal.Gen
open Idealize.ShloMosaic.ValueIdx

variable (V : (c : Dev nD) → (b : Ref sig .tc) → Buf (Elt Ideal) ((c : Thread nD τ).loc b))

namespace UsersFirstLayer

/-! ## The two matrix products, read entry by entry

A block of 5000 rows times a 64 by 64 map, and the whole table of 50000 rows times the same map: in both, entry
(row, column) is the sum over the 64 contracted positions of the row's entries times the map's column. -/

/-- Left operand of the block product, row axis: the result's row. -/
theorem blockLhs_0 (i : S5000x64.Idx) (u : dot_S5000x64_S64x64_S5000x64_1_0_0_1_n_n.contr.Idx) :
    (dot_S5000x64_S64x64_S5000x64_1_0_0_1_n_n.lhsIdx i u 0).val = (i 0).val := by
  unfold DotDims.lhsIdx
  rw [dif_neg (show ¬(0 : Fin S5000x64.rank) ∈ dot_S5000x64_S64x64_S5000x64_1_0_0_1_n_n.lhsBatch by decide),
    dif_pos (show (0 : Fin S5000x64.rank) ∈ dot_S5000x64_S64x64_S5000x64_1_0_0_1_n_n.lhsNonContracting by decide)]
  rfl

/-- Left operand of the block product, column axis: the contracted position. -/
theorem blockLhs_1 (i : S5000x64.Idx) (u : dot_S5000x64_S64x64_S5000x64_1_0_0_1_n_n.contr.Idx) :
    (dot_S5000x64_S64x64_S5000x64_1_0_0_1_n_n.lhsIdx i u 1).val = (u ⟨0, by decide⟩).val :=
  dot_S5000x64_S64x64_S5000x64_1_0_0_1_n_n.lhsIdx_val_of_single rfl i u

/-- Right operand of the block product, row axis: the contracted position. -/
theorem blockRhs_0 (i : S5000x64.Idx) (u : dot_S5000x64_S64x64_S5000x64_1_0_0_1_n_n.contr.Idx) :
    (dot_S5000x64_S64x64_S5000x64_1_0_0_1_n_n.rhsIdx i u 0).val = (u ⟨0, by decide⟩).val :=
  dot_S5000x64_S64x64_S5000x64_1_0_0_1_n_n.rhsIdx_val_of_single rfl i u

/-- Right operand of the block product, column axis: the result's column. -/
theorem blockRhs_1 (i : S5000x64.Idx) (u : dot_S5000x64_S64x64_S5000x64_1_0_0_1_n_n.contr.Idx) :
    (dot_S5000x64_S64x64_S5000x64_1_0_0_1_n_n.rhsIdx i u 1).val = (i 1).val := by
  unfold DotDims.rhsIdx
  rw [dif_neg (show ¬(1 : Fin S64x64.rank) ∈ dot_S5000x64_S64x64_S5000x64_1_0_0_1_n_n.rhsBatch by decide),
    dif_pos (show (1 : Fin S64x64.rank) ∈ dot_S5000x64_S64x64_S5000x64_1_0_0_1_n_n.rhsNonContracting by decide)]
  rfl

/-- The block product into the zero matrix, at entry (p, q): row p of the block against column q of the map. -/
theorem blockProduct_apply {φ₁ φ₂ : FTy} (A : FVec Ideal S5000x64 φ₁) (B : FVec Ideal S64x64 φ₂) (p : Fin 5000) (q : Fin 64) :
    matmul dot_S5000x64_S64x64_S5000x64_1_0_0_1_n_n none A B (constant (F := Ideal) S5000x64 .f32 0x00000000#32) (ix2 p q)
      = ∑ k : Fin 64, A (ix2 p k) * B (ix2 k q) := by
  simp only [matmul]
  rw [Ideal.matmul_constant_zero_apply,
    ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q)
      ((contrEquiv1 dot_S5000x64_S64x64_S5000x64_1_0_0_1_n_n 64 rfl rfl).symm k) = ix2 p k := funext fun a => Fin.ext (by
    match a with
    | ⟨0, _⟩ => exact blockLhs_0 _ _
    | ⟨1, _⟩ => exact (blockLhs_1 _ _).trans hk)
  have er : dot_S5000x64_S64x64_S5000x64_1_0_0_1_n_n.rhsIdx (ix2 p q)
      ((contrEquiv1 dot_S5000x64_S64x64_S5000x64_1_0_0_1_n_n 64 rfl rfl).symm k) = ix2 k q := funext fun a => Fin.ext (by
    match a with
    | ⟨0, _⟩ => exact (blockRhs_0 _ _).trans hk
    | ⟨1, _⟩ => exact blockRhs_1 _ _)
  rw [el, er]

/-- Left operand of the whole-table product, row axis: the result's row. -/
theorem tableLhs_0 (i : Cert.ReferenceIdeal.S50000x64.Idx)
    (u : Cert.ReferenceIdeal.dot_S50000x64_S64x64_S50000x64_1_0_0_1_n_n.contr.Idx) :
    (Cert.ReferenceIdeal.dot_S50000x64_S64x64_S50000x64_1_0_0_1_n_n.lhsIdx i u 0).val = (i 0).val := by
  unfold DotDims.lhsIdx
  rw [dif_neg (show ¬(0 : Fin Cert.ReferenceIdeal.S50000x64.rank) ∈ Cert.ReferenceIdeal.dot_S50000x64_S64x64_S50000x64_1_0_0_1_n_n.lhsBatch by decide),
    dif_pos (show (0 : Fin Cert.ReferenceIdeal.S50000x64.rank) ∈ Cert.ReferenceIdeal.dot_S50000x64_S64x64_S50000x64_1_0_0_1_n_n.lhsNonContracting by decide)]
  rfl

/-- Left operand of the whole-table product, column axis: the contracted position. -/
theorem tableLhs_1 (i : Cert.ReferenceIdeal.S50000x64.Idx)
    (u : Cert.ReferenceIdeal.dot_S50000x64_S64x64_S50000x64_1_0_0_1_n_n.contr.Idx) :
    (Cert.ReferenceIdeal.dot_S50000x64_S64x64_S50000x64_1_0_0_1_n_n.lhsIdx i u 1).val = (u ⟨0, by decide⟩).val :=
  Cert.ReferenceIdeal.dot_S50000x64_S64x64_S50000x64_1_0_0_1_n_n.lhsIdx_val_of_single rfl i u

/-- Right operand of the whole-table product, row axis: the contracted position. -/
theorem tableRhs_0 (i : Cert.ReferenceIdeal.S50000x64.Idx)
    (u : Cert.ReferenceIdeal.dot_S50000x64_S64x64_S50000x64_1_0_0_1_n_n.contr.Idx) :
    (Cert.ReferenceIdeal.dot_S50000x64_S64x64_S50000x64_1_0_0_1_n_n.rhsIdx i u 0).val = (u ⟨0, by decide⟩).val :=
  Cert.ReferenceIdeal.dot_S50000x64_S64x64_S50000x64_1_0_0_1_n_n.rhsIdx_val_of_single rfl i u

/-- Right operand of the whole-table product, column axis: the result's column. -/
theorem tableRhs_1 (i : Cert.ReferenceIdeal.S50000x64.Idx)
    (u : Cert.ReferenceIdeal.dot_S50000x64_S64x64_S50000x64_1_0_0_1_n_n.contr.Idx) :
    (Cert.ReferenceIdeal.dot_S50000x64_S64x64_S50000x64_1_0_0_1_n_n.rhsIdx i u 1).val = (i 1).val := by
  unfold DotDims.rhsIdx
  rw [dif_neg (show ¬(1 : Fin Cert.ReferenceIdeal.S64x64.rank) ∈ Cert.ReferenceIdeal.dot_S50000x64_S64x64_S50000x64_1_0_0_1_n_n.rhsBatch by decide),
    dif_pos (show (1 : Fin Cert.ReferenceIdeal.S64x64.rank) ∈ Cert.ReferenceIdeal.dot_S50000x64_S64x64_S50000x64_1_0_0_1_n_n.rhsNonContracting by decide)]
  rfl

/-- The whole-table product at entry (r, q): row r of the table against column q of the map. -/
theorem tableProduct_apply {φ₁ φ₂ : FTy} (A : FVec Ideal Cert.ReferenceIdeal.S50000x64 φ₁) (B : FVec Ideal Cert.ReferenceIdeal.S64x64 φ₂)
    (r : Fin 50000) (q : Fin 64) :
    Host.dotGeneral (F := Ideal) Cert.ReferenceIdeal.dot_S50000x64_S64x64_S50000x64_1_0_0_1_n_n none A B (ix2 r q)
      = ∑ k : Fin 64, A (ix2 r k) * B (ix2 k q) := by
  simp only [Host.dotGeneral]
  rw [Ideal.dotGeneral_apply,
    ← Equiv.sum_comp (contrEquiv1 Cert.ReferenceIdeal.dot_S50000x64_S64x64_S50000x64_1_0_0_1_n_n 64 rfl rfl).symm]
  refine Finset.sum_congr rfl fun k _ => ?_
  have hk := contrEquiv1_symm_val Cert.ReferenceIdeal.dot_S50000x64_S64x64_S50000x64_1_0_0_1_n_n 64 rfl rfl k
  have el : Cert.ReferenceIdeal.dot_S50000x64_S64x64_S50000x64_1_0_0_1_n_n.lhsIdx (ix2 r q)
      ((contrEquiv1 Cert.ReferenceIdeal.dot_S50000x64_S64x64_S50000x64_1_0_0_1_n_n 64 rfl rfl).symm k) = ix2 r k :=
    funext fun a => Fin.ext (by
      match a with
      | ⟨0, _⟩ => exact tableLhs_0 _ _
      | ⟨1, _⟩ => exact (tableLhs_1 _ _).trans hk)
  have er : Cert.ReferenceIdeal.dot_S50000x64_S64x64_S50000x64_1_0_0_1_n_n.rhsIdx (ix2 r q)
      ((contrEquiv1 Cert.ReferenceIdeal.dot_S50000x64_S64x64_S50000x64_1_0_0_1_n_n 64 rfl rfl).symm k) = ix2 k q :=
    funext fun a => Fin.ext (by
      match a with
      | ⟨0, _⟩ => exact (tableRhs_0 _ _).trans hk
      | ⟨1, _⟩ => exact tableRhs_1 _ _)
  rw [el, er]

/-! ## The bias row, laid along every row -/

/-- In the block: the one-row matrix repeated down the 5000 rows reads, at (p, q), the row's entry q. -/
theorem blockBias_apply (b : FVec Ideal S1x64 .f32) (p : Fin 5000) (q : Fin 64) :
    broadcastTo S5000x64 (shapeCast S1x64 b shapeCasts_S1x64_S1x64) broadcasts_S1x64_S5000x64 (ix2 p q) = b (ix2 0 q) := by
  rw [shapeCast_self]
  exact broadcastTo_apply b broadcasts_S1x64_S5000x64 (ix2 p q) (ix2 0 q) (fun a => by
    match a with
    | ⟨0, _⟩ => rfl
    | ⟨1, _⟩ => rfl)

/-- In the whole table: the one-row matrix repeated down the 50000 rows reads, at (r, q), the row's entry q. -/
theorem tableBias_apply (b : FVec Ideal Cert.ReferenceIdeal.S1x64 .f32) (r : Fin 50000) (q : Fin 64) :
    broadcastInDim Cert.ReferenceIdeal.S50000x64 ![0, 1] Cert.ReferenceIdeal.Facts₀.bcast_S1x64_S50000x64_0_1 b (ix2 r q) = b (ix2 0 q) :=
  broadcastInDim_apply ![0, 1] Cert.ReferenceIdeal.Facts₀.bcast_S1x64_S50000x64_0_1 b (ix2 r q) (ix2 0 q) (fun a => by
    match a with
    | ⟨0, _⟩ => rfl
    | ⟨1, _⟩ => rfl)

/-! ## The launch's payload and the stage, entry by entry -/

/-- What one grid point computes from its five blocks, at entry (p, q) of its block of rows: row p of the
    neighbours' means through the first map, plus the bias entry q, plus row p of the own rows through the second
    map, clamped below at zero. Narrowing to the shorter float format changes nothing at the ideal values. -/
theorem payload_apply (x0 : FVec Ideal S5000x64 .f32) (x1 : FVec Ideal S64x64 .f32) (x3 : FVec Ideal S5000x64 .f32)
    (x4 : FVec Ideal S64x64 .f32) (x2 : FVec Ideal S1x64 .f32) (p : Fin 5000) (q : Fin 64) :
    k2_pay1 (F := Ideal) x0 x1 x3 x4 x2 (ix2 p q)
      = max (((∑ k : Fin 64, x0 (ix2 p k) * x1 (ix2 k q)) + x2 (ix2 0 q)) + ∑ k : Fin 64, x3 (ix2 p k) * x4 (ix2 k q))
          (Ideal.ofBits .f32 0x00000000#32) := by
  unfold k2_pay1
  rw [maximumf_apply, addf_apply, addf_apply, blockProduct_apply, blockProduct_apply, blockBias_apply]
  simp only [truncf_apply, shapeCast_self]
  rfl

/-- The stage over the whole table, at entry (r, q): the same expression of row r of the two tables. -/
theorem stage_apply (mean : FVec Ideal Cert.ReferenceIdeal.S50000x64 .f32) (Wl : FVec Ideal Cert.ReferenceIdeal.S64x64 .f32)
    (b2 : FVec Ideal Cert.ReferenceIdeal.S1x64 .f32) (xd : FVec Ideal Cert.ReferenceIdeal.S50000x64 .f32)
    (Wr : FVec Ideal Cert.ReferenceIdeal.S64x64 .f32) (r : Fin 50000) (q : Fin 64) :
    Cert.Bridge.reluU (F := Ideal) (Cert.Bridge.sageU (F := Ideal) mean Wl b2 xd Wr) (ix2 r q)
      = max (((∑ k : Fin 64, mean (ix2 r k) * Wl (ix2 k q)) + b2 (ix2 0 q)) + ∑ k : Fin 64, xd (ix2 r k) * Wr (ix2 k q))
          (Ideal.ofBits .f32 0x00000000#32) := by
  unfold Cert.Bridge.reluU Cert.Bridge.sageU
  rw [maximumf_apply, addf_apply, addf_apply, tableProduct_apply, tableProduct_apply, tableBias_apply]
  rfl

/-! ## From the blocks to the array

The grid has ten points; point t handles rows 5000 t to 5000 t + 4999 of the two tables and of the output, and sees
both 64 by 64 maps and the bias row whole. -/

/-- The zero offsets of a whole-block access. -/
theorem zeroOffsets : (![0, 0] : Fin 2 → Nat) = fun _ => 0 := funext fun a => by fin_cases a <;> rfl

/-- The block indices over the ten points: the two tables' windows and the output's move with the point along
    the rows; the maps' and the bias row's windows stay at the origin. -/
theorem blockIndex_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Row p of point t's block is row 5000 t + p of the table. -/
def tableRow (t : Fin cfg2.N) (p : Fin 5000) : Fin 50000 :=
  ⟨t.val * 5000 + p.val, by have h : t.val < grid2.N := t.isLt; rw [N_2] at h; have := p.isLt; omega⟩

theorem tableRow_val (t : Fin cfg2.N) (p : Fin 5000) : (tableRow t p).val = t.val * 5000 + p.val := rfl

/-- The neighbours' means at point t: entry (p, k) of the block is entry (5000 t + p, k) of the table. -/
theorem meanBlock_apply (c : Dev nD) (t : Fin cfg2.N) (p : Fin 5000) (k : Fin 64) :
    iblk2 V c 0 t (ix2 p k) = V c main_v18 (ix2 (tableRow t p) k) := by
  obtain ⟨e0, e1, -⟩ := blockIndex_facts t
  show V c main_v18 (((cfg2.win 0).blk t).view.emb (ix2 p k)) = _
  refine congrArg _ (funext fun a => Fin.ext ?_)
  match a with
  | ⟨0, _⟩ => show win2_0.index t (0 : Fin 2) * 5000 + 1 * p.val = t.val * 5000 + p.val; omega
  | ⟨1, _⟩ => show win2_0.index t (1 : Fin 2) * 64 + 1 * k.val = k.val; omega

/-- The first map at every point is the whole map. -/
theorem leftMapBlock_apply (c : Dev nD) (t : Fin cfg2.N) (k : Fin 64) (q : Fin 64) :
    iblk2 V c 1 t (ix2 k q) = V c main_arg15 (ix2 k q) := by
  obtain ⟨-, -, e0, e1, -⟩ := blockIndex_facts t
  show V c main_arg15 (((cfg2.win 1).blk t).view.emb (ix2 k q)) = _
  refine congrArg _ (funext fun a => Fin.ext ?_)
  match a with
  | ⟨0, _⟩ => show win2_1.index t (0 : Fin 2) * 64 + 1 * k.val = k.val; omega
  | ⟨1, _⟩ => show win2_1.index t (1 : Fin 2) * 64 + 1 * q.val = q.val; omega

/-- The bias row at every point is the whole row. -/
theorem biasBlock_apply (c : Dev nD) (t : Fin cfg2.N) (q : Fin 64) :
    iblk2 V c 2 t (ix2 0 q) = V c main_v19 (ix2 0 q) := by
  obtain ⟨-, -, -, -, e0, e1, -⟩ := blockIndex_facts t
  show V c main_v19 (((cfg2.win 2).blk t).view.emb (ix2 0 q)) = _
  refine congrArg _ (funext fun a => Fin.ext ?_)
  match a with
  | ⟨0, _⟩ => show win2_2.index t (0 : Fin 2) * 1 + 1 * 0 = 0; omega
  | ⟨1, _⟩ => show win2_2.index t (1 : Fin 2) * 64 + 1 * q.val = q.val; omega

/-- The own rows at point t: entry (p, k) of the block is entry (5000 t + p, k) of the table. -/
theorem ownBlock_apply (c : Dev nD) (t : Fin cfg2.N) (p : Fin 5000) (k : Fin 64) :
    iblk2 V c 3 t (ix2 p k) = V c main_v3 (ix2 (tableRow t p) k) := by
  obtain ⟨-, -, -, -, -, -, e0, e1, -⟩ := blockIndex_facts t
  show V c main_v3 (((cfg2.win 3).blk t).view.emb (ix2 p k)) = _
  refine congrArg _ (funext fun a => Fin.ext ?_)
  match a with
  | ⟨0, _⟩ => show win2_3.index t (0 : Fin 2) * 5000 + 1 * p.val = t.val * 5000 + p.val; omega
  | ⟨1, _⟩ => show win2_3.index t (1 : Fin 2) * 64 + 1 * k.val = k.val; omega

/-- The second map at every point is the whole map. -/
theorem rightMapBlock_apply (c : Dev nD) (t : Fin cfg2.N) (k : Fin 64) (q : Fin 64) :
    iblk2 V c 4 t (ix2 k q) = V c main_arg17 (ix2 k q) := by
  obtain ⟨-, -, -, -, -, -, -, -, e0, e1, -⟩ := blockIndex_facts t
  show V c main_arg17 (((cfg2.win 4).blk t).view.emb (ix2 k q)) = _
  refine congrArg _ (funext fun a => Fin.ext ?_)
  match a with
  | ⟨0, _⟩ => show win2_4.index t (0 : Fin 2) * 64 + 1 * k.val = k.val; omega
  | ⟨1, _⟩ => show win2_4.index t (1 : Fin 2) * 64 + 1 * q.val = q.val; omega

/-- Entry (p, q) of the output's block at point t sits at entry (5000 t + p, q) of the output table. -/
theorem outBlock_emb (t : Fin cfg2.N) (p : Fin 5000) (q : Fin 64) :
    ((cfg2.win 5).blk t).view.emb (ix2 p q) = ix2 (tableRow t p) q := by
  obtain ⟨-, -, -, -, -, -, -, -, -, -, e0, e1⟩ := blockIndex_facts t
  refine funext fun a => Fin.ext ?_
  match a with
  | ⟨0, _⟩ => show win2_5.index t (0 : Fin 2) * 5000 + 1 * p.val = t.val * 5000 + p.val; omega
  | ⟨1, _⟩ => show win2_5.index t (1 : Fin 2) * 64 + 1 * q.val = q.val; omega

/-- The stage over the whole tables the launch finds at entry. -/
abbrev stage2 (c : Dev nD) : Cert.ReferenceIdeal.S50000x64.Idx → Ideal .f32 :=
  Cert.Bridge.reluU (F := Ideal) (Cert.Bridge.sageU (F := Ideal) (V c main_v18) (V c main_arg15) (V c main_v19) (V c main_v3) (V c main_arg17))

set_option maxHeartbeats 400000 in
/-- What point t writes back is block t of the stage: the payload of the point's five blocks, entry by entry, is
    the stage's expression at the rows the point handles. -/
theorem flushed_eq (c : Dev nD) (t : Fin cfg2.N) :
    (dat2 (F := Ideal) V c).flushed 5 t = ((cfg2.win 5).blk t).view.read (Elt Ideal) (stage2 V c) := by
  show (cfg2.win 5).cut (grid2.coords t) ((dat2 (F := Ideal) V c).after 5 t) = _
  rw [after2_5]
  unfold out2_5
  rw [View.canon_unit_zero zeroOffsets]
  simp only [View.ld_unit_zero (S := S5000x64) zeroOffsets, View.ld_unit_zero (S := S64x64) zeroOffsets, View.ld_unit_zero (S := S1x64) zeroOffsets]
  funext j
  revert j
  show ∀ j : S5000x64.Idx, _
  intro j
  obtain ⟨p, q, rfl⟩ : ∃ (p : Fin 5000) (q : Fin 64), j = ix2 p q := ⟨j 0, j 1, eq_ix2 j⟩
  show k2_pay1 (F := Ideal) (iblk2 V c 0 t) (iblk2 V c 1 t) (iblk2 V c 3 t) (iblk2 V c 4 t) (iblk2 V c 2 t) (ix2 p q)
    = stage2 V c (((cfg2.win 5).blk t).view.emb (ix2 p q))
  rw [payload_apply, outBlock_emb]
  unfold stage2
  rw [stage_apply]
  simp only [meanBlock_apply, leftMapBlock_apply, biasBlock_apply, ownBlock_apply, rightMapBlock_apply]

/-- An entry of the output table lies in point t's block exactly when each coordinate lies in the block's range. -/
theorem mem_outBlock (t : Fin cfg2.N) (i : S50000x64.Idx) :
    i ∈ ((cfg2.win 5).blk t).view.set ↔ ∀ a : Fin 2, win2_5.index t a * S5000x64.size a ≤ (i a).val ∧ (i a).val < win2_5.index t a * S5000x64.size a + S5000x64.size a := by
  show i ∈ ((View.whole main_v20).slice (win2_5.rect t)).set ↔ _
  rw [View.set_slice_whole, Rect.mem_set_unit]
  exact Iff.rfl

end UsersFirstLayer

/-- Users' first-layer combine with the clamp at zero: what the third launch leaves in its output array. -/
theorem region2 (c : Dev nD) :
    (dat2 (F := Ideal) V c).arrAt 5 cfg2.N = Cert.Bridge.reluU (F := Ideal) (Cert.Bridge.sageU (F := Ideal) (V c main_v18) (V c main_arg15) (V c main_v19) (V c main_v3) (V c main_arg17)) :=
  -- every row r of the output table is covered by the point r / 5000, and every point writes its block back
  (dat2 (F := Ideal) V c).arrAt_eq_of_cover 5 (UsersFirstLayer.stage2 V c) (fun t _ => UsersFirstLayer.flushed_eq V c t) fun i => by
    have hi0 : (i 0).val < 50000 := (i 0).isLt
    have hi1 : (i 1).val < 64 := (i 1).isLt
    have hN : cfg2.N = 10 := N_2
    obtain ⟨t, ht⟩ : ∃ t : Fin cfg2.N, t.val = (i 0).val / 5000 := ⟨⟨(i 0).val / 5000, by rw [hN]; omega⟩, rfl⟩
    obtain ⟨-, -, -, -, -, -, -, -, -, -, e0, e1⟩ := UsersFirstLayer.blockIndex_facts t
    refine ⟨t, flush2_5 t, ?_⟩
    rw [UsersFirstLayer.mem_outBlock]
    intro a
    match a with
    | ⟨0, _⟩ => show win2_5.index t (0 : Fin 2) * 5000 ≤ (i 0).val ∧ (i 0).val < win2_5.index t (0 : Fin 2) * 5000 + 5000; omega
    | ⟨1, _⟩ => show win2_5.index t (1 : Fin 2) * 64 ≤ (i 1).val ∧ (i 1).val < win2_5.index t (1 : Fin 2) * 64 + 64; omega

end Cert.KernelIdeal.Val

end
-- ==== Proof.Region3.lean ====
/-
  Recipes' first-layer combine with the clamp at zero: what the fourth launch leaves in its output array.
-/
import proofs.«430915_j14465449853445_1_alg».proof.Proof.Gen.KernelIdeal.Frame
import proofs.«430915_j14465449853445_1_alg».proof.Proof.Stages
import Idealize.ShloMosaic.PureOps.Ideal
import Idealize.ShloMosaic.PureOps.Ideal.Laws
import Idealize.ShloMosaic.Lib.ValueIdx
import Idealize.ShloMosaic.Lib.Pipeline.Value

set_option maxRecDepth 16384

noncomputable section

namespace Cert.KernelIdeal.Val

open Idealize.ShloMosaic Idealize.ShloMosaic.TcCoe Idealize.ShloMosaic.StableHlo
open Cert.KernelIdeal Cert.KernelIdeal.Gen
open Idealize.ShloMosaic.ValueIdx

variable (V : (c : Dev nD) → (b : Ref sig .tc) → Buf (Elt Ideal) ((c : Thread nD τ).loc b))

namespace RecipesFirstLayer

/-! ## The two matrix products, read entry by entry

A block of 5000 rows times a 64 by 64 map, and the whole table of 100000 rows times the same map: in both, entry
(row, column) is the sum over the 64 contracted positions of the row's entries times the map's column. -/

/-- Left operand of the block product, row axis: the result's row. -/
theorem blockLhs_0 (i : S5000x64.Idx) (u : dot_S5000x64_S64x64_S5000x64_1_0_0_1_n_n.contr.Idx) :
    (dot_S5000x64_S64x64_S5000x64_1_0_0_1_n_n.lhsIdx i u 0).val = (i 0).val := by
  unfold DotDims.lhsIdx
  rw [dif_neg (show ¬(0 : Fin S5000x64.rank) ∈ dot_S5000x64_S64x64_S5000x64_1_0_0_1_n_n.lhsBatch by decide),
    dif_pos (show (0 : Fin S5000x64.rank) ∈ dot_S5000x64_S64x64_S5000x64_1_0_0_1_n_n.lhsNonContracting by decide)]
  rfl

/-- Left operand of the block product, column axis: the contracted position. -/
theorem blockLhs_1 (i : S5000x64.Idx) (u : dot_S5000x64_S64x64_S5000x64_1_0_0_1_n_n.contr.Idx) :
    (dot_S5000x64_S64x64_S5000x64_1_0_0_1_n_n.lhsIdx i u 1).val = (u ⟨0, by decide⟩).val :=
  dot_S5000x64_S64x64_S5000x64_1_0_0_1_n_n.lhsIdx_val_of_single rfl i u

/-- Right operand of the block product, row axis: the contracted position. -/
theorem blockRhs_0 (i : S5000x64.Idx) (u : dot_S5000x64_S64x64_S5000x64_1_0_0_1_n_n.contr.Idx) :
    (dot_S5000x64_S64x64_S5000x64_1_0_0_1_n_n.rhsIdx i u 0).val = (u ⟨0, by decide⟩).val :=
  dot_S5000x64_S64x64_S5000x64_1_0_0_1_n_n.rhsIdx_val_of_single rfl i u

/-- Right operand of the block product, column axis: the result's column. -/
theorem blockRhs_1 (i : S5000x64.Idx) (u : dot_S5000x64_S64x64_S5000x64_1_0_0_1_n_n.contr.Idx) :
    (dot_S5000x64_S64x64_S5000x64_1_0_0_1_n_n.rhsIdx i u 1).val = (i 1).val := by
  unfold DotDims.rhsIdx
  rw [dif_neg (show ¬(1 : Fin S64x64.rank) ∈ dot_S5000x64_S64x64_S5000x64_1_0_0_1_n_n.rhsBatch by decide),
    dif_pos (show (1 : Fin S64x64.rank) ∈ dot_S5000x64_S64x64_S5000x64_1_0_0_1_n_n.rhsNonContracting by decide)]
  rfl

/-- The block product into the zero matrix, at entry (p, q): row p of the block against column q of the map. -/
theorem blockProduct_apply {φ₁ φ₂ : FTy} (A : FVec Ideal S5000x64 φ₁) (B : FVec Ideal S64x64 φ₂) (p : Fin 5000) (q : Fin 64) :
    matmul dot_S5000x64_S64x64_S5000x64_1_0_0_1_n_n none A B (constant (F := Ideal) S5000x64 .f32 0x00000000#32) (ix2 p q)
      = ∑ k : Fin 64, A (ix2 p k) * B (ix2 k q) := by
  simp only [matmul]
  rw [Ideal.matmul_constant_zero_apply,
    ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q)
      ((contrEquiv1 dot_S5000x64_S64x64_S5000x64_1_0_0_1_n_n 64 rfl rfl).symm k) = ix2 p k := funext fun a => Fin.ext (by
    match a with
    | ⟨0, _⟩ => exact blockLhs_0 _ _
    | ⟨1, _⟩ => exact (blockLhs_1 _ _).trans hk)
  have er : dot_S5000x64_S64x64_S5000x64_1_0_0_1_n_n.rhsIdx (ix2 p q)
      ((contrEquiv1 dot_S5000x64_S64x64_S5000x64_1_0_0_1_n_n 64 rfl rfl).symm k) = ix2 k q := funext fun a => Fin.ext (by
    match a with
    | ⟨0, _⟩ => exact (blockRhs_0 _ _).trans hk
    | ⟨1, _⟩ => exact blockRhs_1 _ _)
  rw [el, er]

/-- Left operand of the whole-table product, row axis: the result's row. -/
theorem tableLhs_0 (i : Cert.ReferenceIdeal.S100000x64.Idx)
    (u : Cert.ReferenceIdeal.dot_S100000x64_S64x64_S100000x64_1_0_0_1_n_n.contr.Idx) :
    (Cert.ReferenceIdeal.dot_S100000x64_S64x64_S100000x64_1_0_0_1_n_n.lhsIdx i u 0).val = (i 0).val := by
  unfold DotDims.lhsIdx
  rw [dif_neg (show ¬(0 : Fin Cert.ReferenceIdeal.S100000x64.rank) ∈ Cert.ReferenceIdeal.dot_S100000x64_S64x64_S100000x64_1_0_0_1_n_n.lhsBatch by decide),
    dif_pos (show (0 : Fin Cert.ReferenceIdeal.S100000x64.rank) ∈ Cert.ReferenceIdeal.dot_S100000x64_S64x64_S100000x64_1_0_0_1_n_n.lhsNonContracting by decide)]
  rfl

/-- Left operand of the whole-table product, column axis: the contracted position. -/
theorem tableLhs_1 (i : Cert.ReferenceIdeal.S100000x64.Idx)
    (u : Cert.ReferenceIdeal.dot_S100000x64_S64x64_S100000x64_1_0_0_1_n_n.contr.Idx) :
    (Cert.ReferenceIdeal.dot_S100000x64_S64x64_S100000x64_1_0_0_1_n_n.lhsIdx i u 1).val = (u ⟨0, by decide⟩).val :=
  Cert.ReferenceIdeal.dot_S100000x64_S64x64_S100000x64_1_0_0_1_n_n.lhsIdx_val_of_single rfl i u

/-- Right operand of the whole-table product, row axis: the contracted position. -/
theorem tableRhs_0 (i : Cert.ReferenceIdeal.S100000x64.Idx)
    (u : Cert.ReferenceIdeal.dot_S100000x64_S64x64_S100000x64_1_0_0_1_n_n.contr.Idx) :
    (Cert.ReferenceIdeal.dot_S100000x64_S64x64_S100000x64_1_0_0_1_n_n.rhsIdx i u 0).val = (u ⟨0, by decide⟩).val :=
  Cert.ReferenceIdeal.dot_S100000x64_S64x64_S100000x64_1_0_0_1_n_n.rhsIdx_val_of_single rfl i u

/-- Right operand of the whole-table product, column axis: the result's column. -/
theorem tableRhs_1 (i : Cert.ReferenceIdeal.S100000x64.Idx)
    (u : Cert.ReferenceIdeal.dot_S100000x64_S64x64_S100000x64_1_0_0_1_n_n.contr.Idx) :
    (Cert.ReferenceIdeal.dot_S100000x64_S64x64_S100000x64_1_0_0_1_n_n.rhsIdx i u 1).val = (i 1).val := by
  unfold DotDims.rhsIdx
  rw [dif_neg (show ¬(1 : Fin Cert.ReferenceIdeal.S64x64.rank) ∈ Cert.ReferenceIdeal.dot_S100000x64_S64x64_S100000x64_1_0_0_1_n_n.rhsBatch by decide),
    dif_pos (show (1 : Fin Cert.ReferenceIdeal.S64x64.rank) ∈ Cert.ReferenceIdeal.dot_S100000x64_S64x64_S100000x64_1_0_0_1_n_n.rhsNonContracting by decide)]
  rfl

/-- The whole-table product at entry (r, q): row r of the table against column q of the map. -/
theorem tableProduct_apply {φ₁ φ₂ : FTy} (A : FVec Ideal Cert.ReferenceIdeal.S100000x64 φ₁) (B : FVec Ideal Cert.ReferenceIdeal.S64x64 φ₂)
    (r : Fin 100000) (q : Fin 64) :
    Host.dotGeneral (F := Ideal) Cert.ReferenceIdeal.dot_S100000x64_S64x64_S100000x64_1_0_0_1_n_n none A B (ix2 r q)
      = ∑ k : Fin 64, A (ix2 r k) * B (ix2 k q) := by
  simp only [Host.dotGeneral]
  rw [Ideal.dotGeneral_apply,
    ← Equiv.sum_comp (contrEquiv1 Cert.ReferenceIdeal.dot_S100000x64_S64x64_S100000x64_1_0_0_1_n_n 64 rfl rfl).symm]
  refine Finset.sum_congr rfl fun k _ => ?_
  have hk := contrEquiv1_symm_val Cert.ReferenceIdeal.dot_S100000x64_S64x64_S100000x64_1_0_0_1_n_n 64 rfl rfl k
  have el : Cert.ReferenceIdeal.dot_S100000x64_S64x64_S100000x64_1_0_0_1_n_n.lhsIdx (ix2 r q)
      ((contrEquiv1 Cert.ReferenceIdeal.dot_S100000x64_S64x64_S100000x64_1_0_0_1_n_n 64 rfl rfl).symm k) = ix2 r k :=
    funext fun a => Fin.ext (by
      match a with
      | ⟨0, _⟩ => exact tableLhs_0 _ _
      | ⟨1, _⟩ => exact (tableLhs_1 _ _).trans hk)
  have er : Cert.ReferenceIdeal.dot_S100000x64_S64x64_S100000x64_1_0_0_1_n_n.rhsIdx (ix2 r q)
      ((contrEquiv1 Cert.ReferenceIdeal.dot_S100000x64_S64x64_S100000x64_1_0_0_1_n_n 64 rfl rfl).symm k) = ix2 k q :=
    funext fun a => Fin.ext (by
      match a with
      | ⟨0, _⟩ => exact (tableRhs_0 _ _).trans hk
      | ⟨1, _⟩ => exact tableRhs_1 _ _)
  rw [el, er]

/-! ## The bias row, laid along every row -/

/-- In the block: the one-row matrix repeated down the 5000 rows reads, at (p, q), the row's entry q. -/
theorem blockBias_apply (b : FVec Ideal S1x64 .f32) (p : Fin 5000) (q : Fin 64) :
    broadcastTo S5000x64 (shapeCast S1x64 b shapeCasts_S1x64_S1x64) broadcasts_S1x64_S5000x64 (ix2 p q) = b (ix2 0 q) := by
  rw [shapeCast_self]
  exact broadcastTo_apply b broadcasts_S1x64_S5000x64 (ix2 p q) (ix2 0 q) (fun a => by
    match a with
    | ⟨0, _⟩ => rfl
    | ⟨1, _⟩ => rfl)

/-- In the whole table: the one-row matrix repeated down the 100000 rows reads, at (r, q), the row's entry q. -/
theorem tableBias_apply (b : FVec Ideal Cert.ReferenceIdeal.S1x64 .f32) (r : Fin 100000) (q : Fin 64) :
    broadcastInDim Cert.ReferenceIdeal.S100000x64 ![0, 1] Cert.ReferenceIdeal.Facts₀.bcast_S1x64_S100000x64_0_1 b (ix2 r q) = b (ix2 0 q) :=
  broadcastInDim_apply ![0, 1] Cert.ReferenceIdeal.Facts₀.bcast_S1x64_S100000x64_0_1 b (ix2 r q) (ix2 0 q) (fun a => by
    match a with
    | ⟨0, _⟩ => rfl
    | ⟨1, _⟩ => rfl)

/-! ## The launch's payload and the stage, entry by entry -/

/-- What one grid point computes from its five blocks, at entry (p, q) of its block of rows: row p of the
    neighbours' means through the first map, plus the bias entry q, plus row p of the own rows through the second
    map, clamped below at zero. Narrowing to the shorter float format changes nothing at the ideal values. -/
theorem payload_apply (x0 : FVec Ideal S5000x64 .f32) (x1 : FVec Ideal S64x64 .f32) (x3 : FVec Ideal S5000x64 .f32)
    (x4 : FVec Ideal S64x64 .f32) (x2 : FVec Ideal S1x64 .f32) (p : Fin 5000) (q : Fin 64) :
    k3_pay1 (F := Ideal) x0 x1 x3 x4 x2 (ix2 p q)
      = max (((∑ k : Fin 64, x0 (ix2 p k) * x1 (ix2 k q)) + x2 (ix2 0 q)) + ∑ k : Fin 64, x3 (ix2 p k) * x4 (ix2 k q))
          (Ideal.ofBits .f32 0x00000000#32) := by
  unfold k3_pay1
  rw [maximumf_apply, addf_apply, addf_apply, blockProduct_apply, blockProduct_apply, blockBias_apply]
  simp only [truncf_apply, shapeCast_self]
  rfl

/-- The stage over the whole table, at entry (r, q): the same expression of row r of the two tables. -/
theorem stage_apply (mean : FVec Ideal Cert.ReferenceIdeal.S100000x64 .f32) (Wl : FVec Ideal Cert.ReferenceIdeal.S64x64 .f32)
    (b2 : FVec Ideal Cert.ReferenceIdeal.S1x64 .f32) (xd : FVec Ideal Cert.ReferenceIdeal.S100000x64 .f32)
    (Wr : FVec Ideal Cert.ReferenceIdeal.S64x64 .f32) (r : Fin 100000) (q : Fin 64) :
    Cert.Bridge.reluR (F := Ideal) (Cert.Bridge.sageR (F := Ideal) mean Wl b2 xd Wr) (ix2 r q)
      = max (((∑ k : Fin 64, mean (ix2 r k) * Wl (ix2 k q)) + b2 (ix2 0 q)) + ∑ k : Fin 64, xd (ix2 r k) * Wr (ix2 k q))
          (Ideal.ofBits .f32 0x00000000#32) := by
  unfold Cert.Bridge.reluR Cert.Bridge.sageR
  rw [maximumf_apply, addf_apply, addf_apply, tableProduct_apply, tableProduct_apply, tableBias_apply]
  rfl

/-! ## From the blocks to the array

The grid has twenty points; point t handles rows 5000 t to 5000 t + 4999 of the two tables and of the output, and sees
both 64 by 64 maps and the bias row whole. -/

/-- The zero offsets of a whole-block access. -/
theorem zeroOffsets : (![0, 0] : Fin 2 → Nat) = fun _ => 0 := funext fun a => by fin_cases a <;> rfl

/-- The block indices over the twenty points: the two tables' windows and the output's move with the point along
    the rows; the maps' and the bias row's windows stay at the origin. -/
theorem blockIndex_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- Row p of point t's block is row 5000 t + p of the table. -/
def tableRow (t : Fin cfg3.N) (p : Fin 5000) : Fin 100000 :=
  ⟨t.val * 5000 + p.val, by have h : t.val < grid3.N := t.isLt; rw [N_3] at h; have := p.isLt; omega⟩

theorem tableRow_val (t : Fin cfg3.N) (p : Fin 5000) : (tableRow t p).val = t.val * 5000 + p.val := rfl

/-- The neighbours' means at point t: entry (p, k) of the block is entry (5000 t + p, k) of the table. -/
theorem meanBlock_apply (c : Dev nD) (t : Fin cfg3.N) (p : Fin 5000) (k : Fin 64) :
    iblk3 V c 0 t (ix2 p k) = V c main_v33 (ix2 (tableRow t p) k) := by
  obtain ⟨e0, e1, -⟩ := blockIndex_facts t
  show V c main_v33 (((cfg3.win 0).blk t).view.emb (ix2 p k)) = _
  refine congrArg _ (funext fun a => Fin.ext ?_)
  match a with
  | ⟨0, _⟩ => show win3_0.index t (0 : Fin 2) * 5000 + 1 * p.val = t.val * 5000 + p.val; omega
  | ⟨1, _⟩ => show win3_0.index t (1 : Fin 2) * 64 + 1 * k.val = k.val; omega

/-- The first map at every point is the whole map. -/
theorem leftMapBlock_apply (c : Dev nD) (t : Fin cfg3.N) (k : Fin 64) (q : Fin 64) :
    iblk3 V c 1 t (ix2 k q) = V c main_arg12 (ix2 k q) := by
  obtain ⟨-, -, e0, e1, -⟩ := blockIndex_facts t
  show V c main_arg12 (((cfg3.win 1).blk t).view.emb (ix2 k q)) = _
  refine congrArg _ (funext fun a => Fin.ext ?_)
  match a with
  | ⟨0, _⟩ => show win3_1.index t (0 : Fin 2) * 64 + 1 * k.val = k.val; omega
  | ⟨1, _⟩ => show win3_1.index t (1 : Fin 2) * 64 + 1 * q.val = q.val; omega

/-- The bias row at every point is the whole row. -/
theorem biasBlock_apply (c : Dev nD) (t : Fin cfg3.N) (q : Fin 64) :
    iblk3 V c 2 t (ix2 0 q) = V c main_v34 (ix2 0 q) := by
  obtain ⟨-, -, -, -, e0, e1, -⟩ := blockIndex_facts t
  show V c main_v34 (((cfg3.win 2).blk t).view.emb (ix2 0 q)) = _
  refine congrArg _ (funext fun a => Fin.ext ?_)
  match a with
  | ⟨0, _⟩ => show win3_2.index t (0 : Fin 2) * 1 + 1 * 0 = 0; omega
  | ⟨1, _⟩ => show win3_2.index t (1 : Fin 2) * 64 + 1 * q.val = q.val; omega

/-- The own rows at point t: entry (p, k) of the block is entry (5000 t + p, k) of the table. -/
theorem ownBlock_apply (c : Dev nD) (t : Fin cfg3.N) (p : Fin 5000) (k : Fin 64) :
    iblk3 V c 3 t (ix2 p k) = V c main_v5 (ix2 (tableRow t p) k) := by
  obtain ⟨-, -, -, -, -, -, e0, e1, -⟩ := blockIndex_facts t
  show V c main_v5 (((cfg3.win 3).blk t).view.emb (ix2 p k)) = _
  refine congrArg _ (funext fun a => Fin.ext ?_)
  match a with
  | ⟨0, _⟩ => show win3_3.index t (0 : Fin 2) * 5000 + 1 * p.val = t.val * 5000 + p.val; omega
  | ⟨1, _⟩ => show win3_3.index t (1 : Fin 2) * 64 + 1 * k.val = k.val; omega

/-- The second map at every point is the whole map. -/
theorem rightMapBlock_apply (c : Dev nD) (t : Fin cfg3.N) (k : Fin 64) (q : Fin 64) :
    iblk3 V c 4 t (ix2 k q) = V c main_arg14 (ix2 k q) := by
  obtain ⟨-, -, -, -, -, -, -, -, e0, e1, -⟩ := blockIndex_facts t
  show V c main_arg14 (((cfg3.win 4).blk t).view.emb (ix2 k q)) = _
  refine congrArg _ (funext fun a => Fin.ext ?_)
  match a with
  | ⟨0, _⟩ => show win3_4.index t (0 : Fin 2) * 64 + 1 * k.val = k.val; omega
  | ⟨1, _⟩ => show win3_4.index t (1 : Fin 2) * 64 + 1 * q.val = q.val; omega

/-- Entry (p, q) of the output's block at point t sits at entry (5000 t + p, q) of the output table. -/
theorem outBlock_emb (t : Fin cfg3.N) (p : Fin 5000) (q : Fin 64) :
    ((cfg3.win 5).blk t).view.emb (ix2 p q) = ix2 (tableRow t p) q := by
  obtain ⟨-, -, -, -, -, -, -, -, -, -, e0, e1⟩ := blockIndex_facts t
  refine funext fun a => Fin.ext ?_
  match a with
  | ⟨0, _⟩ => show win3_5.index t (0 : Fin 2) * 5000 + 1 * p.val = t.val * 5000 + p.val; omega
  | ⟨1, _⟩ => show win3_5.index t (1 : Fin 2) * 64 + 1 * q.val = q.val; omega

/-- The stage over the whole tables the launch finds at entry. -/
abbrev stage3 (c : Dev nD) : Cert.ReferenceIdeal.S100000x64.Idx → Ideal .f32 :=
  Cert.Bridge.reluR (F := Ideal) (Cert.Bridge.sageR (F := Ideal) (V c main_v33) (V c main_arg12) (V c main_v34) (V c main_v5) (V c main_arg14))

set_option maxHeartbeats 400000 in
/-- What point t writes back is block t of the stage: the payload of the point's five blocks, entry by entry, is
    the stage's expression at the rows the point handles. -/
theorem flushed_eq (c : Dev nD) (t : Fin cfg3.N) :
    (dat3 (F := Ideal) V c).flushed 5 t = ((cfg3.win 5).blk t).view.read (Elt Ideal) (stage3 V c) := by
  show (cfg3.win 5).cut (grid3.coords t) ((dat3 (F := Ideal) V c).after 5 t) = _
  rw [after3_5]
  unfold out3_5
  rw [View.canon_unit_zero zeroOffsets]
  simp only [View.ld_unit_zero (S := S5000x64) zeroOffsets, View.ld_unit_zero (S := S64x64) zeroOffsets, View.ld_unit_zero (S := S1x64) zeroOffsets]
  funext j
  revert j
  show ∀ j : S5000x64.Idx, _
  intro j
  obtain ⟨p, q, rfl⟩ : ∃ (p : Fin 5000) (q : Fin 64), j = ix2 p q := ⟨j 0, j 1, eq_ix2 j⟩
  show k3_pay1 (F := Ideal) (iblk3 V c 0 t) (iblk3 V c 1 t) (iblk3 V c 3 t) (iblk3 V c 4 t) (iblk3 V c 2 t) (ix2 p q)
    = stage3 V c (((cfg3.win 5).blk t).view.emb (ix2 p q))
  rw [payload_apply, outBlock_emb]
  unfold stage3
  rw [stage_apply]
  simp only [meanBlock_apply, leftMapBlock_apply, biasBlock_apply, ownBlock_apply, rightMapBlock_apply]

/-- An entry of the output table lies in point t's block exactly when each coordinate lies in the block's range. -/
theorem mem_outBlock (t : Fin cfg3.N) (i : S100000x64.Idx) :
    i ∈ ((cfg3.win 5).blk t).view.set ↔ ∀ a : Fin 2, win3_5.index t a * S5000x64.size a ≤ (i a).val ∧ (i a).val < win3_5.index t a * S5000x64.size a + S5000x64.size a := by
  show i ∈ ((View.whole main_v35).slice (win3_5.rect t)).set ↔ _
  rw [View.set_slice_whole, Rect.mem_set_unit]
  exact Iff.rfl

end RecipesFirstLayer

/-- Recipes' first-layer combine with the clamp at zero: what the fourth launch leaves in its output array. -/
theorem region3 (c : Dev nD) :
    (dat3 (F := Ideal) V c).arrAt 5 cfg3.N = Cert.Bridge.reluR (F := Ideal) (Cert.Bridge.sageR (F := Ideal) (V c main_v33) (V c main_arg12) (V c main_v34) (V c main_v5) (V c main_arg14)) :=
  -- every row r of the output table is covered by the point r / 5000, and every point writes its block back
  (dat3 (F := Ideal) V c).arrAt_eq_of_cover 5 (RecipesFirstLayer.stage3 V c) (fun t _ => RecipesFirstLayer.flushed_eq V c t) fun i => by
    have hi0 : (i 0).val < 100000 := (i 0).isLt
    have hi1 : (i 1).val < 64 := (i 1).isLt
    have hN : cfg3.N = 20 := N_3
    obtain ⟨t, ht⟩ : ∃ t : Fin cfg3.N, t.val = (i 0).val / 5000 := ⟨⟨(i 0).val / 5000, by rw [hN]; omega⟩, rfl⟩
    obtain ⟨-, -, -, -, -, -, -, -, -, -, e0, e1⟩ := RecipesFirstLayer.blockIndex_facts t
    refine ⟨t, flush3_5 t, ?_⟩
    rw [RecipesFirstLayer.mem_outBlock]
    intro a
    match a with
    | ⟨0, _⟩ => show win3_5.index t (0 : Fin 2) * 5000 ≤ (i 0).val ∧ (i 0).val < win3_5.index t (0 : Fin 2) * 5000 + 5000; omega
    | ⟨1, _⟩ => show win3_5.index t (1 : Fin 2) * 64 ≤ (i 1).val ∧ (i 1).val < win3_5.index t (1 : Fin 2) * 64 + 64; omega

end Cert.KernelIdeal.Val

end
-- ==== Proof.Region4.lean ====
/-
  Users' second-layer combine: what the fifth launch leaves in its output array.

  Every grid point holds a block of 5000 consecutive rows. On its block the body multiplies the neighbours' mean rows
  by one 64 by 64 matrix, adds the bias row to every row, and adds the block's own rows times a second 64 by 64
  matrix. Read at one element, each product is a sum over the 64 contracted positions, and so is the reference's
  product over all rows; the block of point t starts at row 5000 t, so the blocks of all points together tile the array.
-/
import proofs.«430915_j14465449853445_1_alg».proof.Proof.Gen.KernelIdeal.Frame
import proofs.«430915_j14465449853445_1_alg».proof.Proof.Stages
import Idealize.ShloMosaic.PureOps.Ideal
import Idealize.ShloMosaic.PureOps.Ideal.Laws
import Idealize.ShloMosaic.Lib.ValueIdx
import Idealize.ShloMosaic.Lib.Pipeline.Value

set_option maxRecDepth 16384

noncomputable section

namespace Cert.KernelIdeal.Val

open Idealize.ShloMosaic Idealize.ShloMosaic.TcCoe Idealize.ShloMosaic.StableHlo
open Idealize.ShloMosaic.ValueIdx
open Cert.KernelIdeal Cert.KernelIdeal.Gen
open scoped BigOperators

namespace UsersCombine2

/-! ## The block product at one element -/

/-- Left operand of the block product: the row coordinate is the output's row. -/
theorem blockDot_lhs_0 (i : Cert.KernelIdeal.S5000x64.Idx) (q : Cert.KernelIdeal.dot_S5000x64_S64x64_S5000x64_1_0_0_1_n_n.contr.Idx) :
    (Cert.KernelIdeal.dot_S5000x64_S64x64_S5000x64_1_0_0_1_n_n.lhsIdx i q 0).val = (i 0).val := by
  unfold DotDims.lhsIdx
  rw [dif_neg (show ¬(0 : Fin Cert.KernelIdeal.S5000x64.rank) ∈ Cert.KernelIdeal.dot_S5000x64_S64x64_S5000x64_1_0_0_1_n_n.lhsBatch by decide),
    dif_pos (show (0 : Fin Cert.KernelIdeal.S5000x64.rank) ∈ Cert.KernelIdeal.dot_S5000x64_S64x64_S5000x64_1_0_0_1_n_n.lhsNonContracting by decide)]
  rfl
/-- Left operand: the column coordinate is the contracted position. -/
theorem blockDot_lhs_1 (i : Cert.KernelIdeal.S5000x64.Idx) (q : Cert.KernelIdeal.dot_S5000x64_S64x64_S5000x64_1_0_0_1_n_n.contr.Idx) :
    (Cert.KernelIdeal.dot_S5000x64_S64x64_S5000x64_1_0_0_1_n_n.lhsIdx i q 1).val = (q ⟨0, by decide⟩).val :=
  Cert.KernelIdeal.dot_S5000x64_S64x64_S5000x64_1_0_0_1_n_n.lhsIdx_val_of_single rfl i q
/-- Right operand: the row coordinate is the contracted position. -/
theorem blockDot_rhs_0 (i : Cert.KernelIdeal.S5000x64.Idx) (q : Cert.KernelIdeal.dot_S5000x64_S64x64_S5000x64_1_0_0_1_n_n.contr.Idx) :
    (Cert.KernelIdeal.dot_S5000x64_S64x64_S5000x64_1_0_0_1_n_n.rhsIdx i q 0).val = (q ⟨0, by decide⟩).val :=
  Cert.KernelIdeal.dot_S5000x64_S64x64_S5000x64_1_0_0_1_n_n.rhsIdx_val_of_single rfl i q
/-- Right operand: the column coordinate is the output's column. -/
theorem blockDot_rhs_1 (i : Cert.KernelIdeal.S5000x64.Idx) (q : Cert.KernelIdeal.dot_S5000x64_S64x64_S5000x64_1_0_0_1_n_n.contr.Idx) :
    (Cert.KernelIdeal.dot_S5000x64_S64x64_S5000x64_1_0_0_1_n_n.rhsIdx i q 1).val = (i 1).val := by
  unfold DotDims.rhsIdx
  rw [dif_neg (show ¬(1 : Fin Cert.KernelIdeal.S64x64.rank) ∈ Cert.KernelIdeal.dot_S5000x64_S64x64_S5000x64_1_0_0_1_n_n.rhsBatch by decide),
    dif_pos (show (1 : Fin Cert.KernelIdeal.S64x64.rank) ∈ Cert.KernelIdeal.dot_S5000x64_S64x64_S5000x64_1_0_0_1_n_n.rhsNonContracting by decide)]
  rfl

set_option maxHeartbeats 400000 in
/-- A 5000 by 64 block times a 64 by 64 matrix, accumulated from zero, at row p and column q: the sum over the 64
    contracted positions of the block's row entry times the matrix's column entry. -/
theorem blockDot_apply {φ₁ φ₂ : FTy} (x : FVec Ideal Cert.KernelIdeal.S5000x64 φ₁) (w : FVec Ideal Cert.KernelIdeal.S64x64 φ₂) (p : Fin 5000) (q : Fin 64) :
    matmul (F := Ideal) Cert.KernelIdeal.dot_S5000x64_S64x64_S5000x64_1_0_0_1_n_n none x w (constant (F := Ideal) Cert.KernelIdeal.S5000x64 .f32 0x00000000#32) (ix2 p q)
      = ∑ k : Fin 64, x (ix2 p k) * w (ix2 k q) := by
  simp only [matmul]
  rw [Ideal.matmul_constant_zero_apply, ← Equiv.sum_comp (contrEquiv1 Cert.KernelIdeal.dot_S5000x64_S64x64_S5000x64_1_0_0_1_n_n 64 rfl rfl).symm]
  refine Finset.sum_congr rfl fun k _ => ?_
  have hk := contrEquiv1_symm_val Cert.KernelIdeal.dot_S5000x64_S64x64_S5000x64_1_0_0_1_n_n 64 rfl rfl k
  have el : Cert.KernelIdeal.dot_S5000x64_S64x64_S5000x64_1_0_0_1_n_n.lhsIdx (ix2 p q) ((contrEquiv1 Cert.KernelIdeal.dot_S5000x64_S64x64_S5000x64_1_0_0_1_n_n 64 rfl rfl).symm k) = ix2 p k := funext fun a => Fin.ext (by
    match a with
    | ⟨0, _⟩ => exact blockDot_lhs_0 _ _
    | ⟨1, _⟩ => exact (blockDot_lhs_1 _ _).trans hk)
  have er : Cert.KernelIdeal.dot_S5000x64_S64x64_S5000x64_1_0_0_1_n_n.rhsIdx (ix2 p q) ((contrEquiv1 Cert.KernelIdeal.dot_S5000x64_S64x64_S5000x64_1_0_0_1_n_n 64 rfl rfl).symm k) = ix2 k q := funext fun a => Fin.ext (by
    match a with
    | ⟨0, _⟩ => exact (blockDot_rhs_0 _ _).trans hk
    | ⟨1, _⟩ => exact blockDot_rhs_1 _ _)
  rw [el, er]

/-! ## The reference's product over all rows at one element -/

/-- Left operand of the whole product: the row coordinate is the output's row. -/
theorem rowsDot_lhs_0 (i : Cert.ReferenceIdeal.S50000x64.Idx) (q : Cert.ReferenceIdeal.dot_S50000x64_S64x64_S50000x64_1_0_0_1_n_n.contr.Idx) :
    (Cert.ReferenceIdeal.dot_S50000x64_S64x64_S50000x64_1_0_0_1_n_n.lhsIdx i q 0).val = (i 0).val := by
  unfold DotDims.lhsIdx
  rw [dif_neg (show ¬(0 : Fin Cert.ReferenceIdeal.S50000x64.rank) ∈ Cert.ReferenceIdeal.dot_S50000x64_S64x64_S50000x64_1_0_0_1_n_n.lhsBatch by decide),
    dif_pos (show (0 : Fin Cert.ReferenceIdeal.S50000x64.rank) ∈ Cert.ReferenceIdeal.dot_S50000x64_S64x64_S50000x64_1_0_0_1_n_n.lhsNonContracting by decide)]
  rfl
/-- Left operand: the column coordinate is the contracted position. -/
theorem rowsDot_lhs_1 (i : Cert.ReferenceIdeal.S50000x64.Idx) (q : Cert.ReferenceIdeal.dot_S50000x64_S64x64_S50000x64_1_0_0_1_n_n.contr.Idx) :
    (Cert.ReferenceIdeal.dot_S50000x64_S64x64_S50000x64_1_0_0_1_n_n.lhsIdx i q 1).val = (q ⟨0, by decide⟩).val :=
  Cert.ReferenceIdeal.dot_S50000x64_S64x64_S50000x64_1_0_0_1_n_n.lhsIdx_val_of_single rfl i q
/-- Right operand: the row coordinate is the contracted position. -/
theorem rowsDot_rhs_0 (i : Cert.ReferenceIdeal.S50000x64.Idx) (q : Cert.ReferenceIdeal.dot_S50000x64_S64x64_S50000x64_1_0_0_1_n_n.contr.Idx) :
    (Cert.ReferenceIdeal.dot_S50000x64_S64x64_S50000x64_1_0_0_1_n_n.rhsIdx i q 0).val = (q ⟨0, by decide⟩).val :=
  Cert.ReferenceIdeal.dot_S50000x64_S64x64_S50000x64_1_0_0_1_n_n.rhsIdx_val_of_single rfl i q
/-- Right operand: the column coordinate is the output's column. -/
theorem rowsDot_rhs_1 (i : Cert.ReferenceIdeal.S50000x64.Idx) (q : Cert.ReferenceIdeal.dot_S50000x64_S64x64_S50000x64_1_0_0_1_n_n.contr.Idx) :
    (Cert.ReferenceIdeal.dot_S50000x64_S64x64_S50000x64_1_0_0_1_n_n.rhsIdx i q 1).val = (i 1).val := by
  unfold DotDims.rhsIdx
  rw [dif_neg (show ¬(1 : Fin Cert.ReferenceIdeal.S64x64.rank) ∈ Cert.ReferenceIdeal.dot_S50000x64_S64x64_S50000x64_1_0_0_1_n_n.rhsBatch by decide),
    dif_pos (show (1 : Fin Cert.ReferenceIdeal.S64x64.rank) ∈ Cert.ReferenceIdeal.dot_S50000x64_S64x64_S50000x64_1_0_0_1_n_n.rhsNonContracting by decide)]
  rfl

set_option maxHeartbeats 400000 in
/-- All 50000 rows times a 64 by 64 matrix at row r and column q: the sum over the 64 contracted positions. -/
theorem rowsDot_apply (X : FVec Ideal Cert.ReferenceIdeal.S50000x64 .f32) (W : FVec Ideal Cert.ReferenceIdeal.S64x64 .f32) (r : Fin 50000) (q : Fin 64) :
    Host.dotGeneral (F := Ideal) Cert.ReferenceIdeal.dot_S50000x64_S64x64_S50000x64_1_0_0_1_n_n none X W (ix2 r q) = ∑ k : Fin 64, X (ix2 r k) * W (ix2 k q) := by
  simp only [Host.dotGeneral]
  rw [Ideal.dotGeneral_apply, ← Equiv.sum_comp (contrEquiv1 Cert.ReferenceIdeal.dot_S50000x64_S64x64_S50000x64_1_0_0_1_n_n 64 rfl rfl).symm]
  refine Finset.sum_congr rfl fun k _ => ?_
  have hk := contrEquiv1_symm_val Cert.ReferenceIdeal.dot_S50000x64_S64x64_S50000x64_1_0_0_1_n_n 64 rfl rfl k
  have el : Cert.ReferenceIdeal.dot_S50000x64_S64x64_S50000x64_1_0_0_1_n_n.lhsIdx (ix2 r q) ((contrEquiv1 Cert.ReferenceIdeal.dot_S50000x64_S64x64_S50000x64_1_0_0_1_n_n 64 rfl rfl).symm k) = ix2 r k := funext fun a => Fin.ext (by
    match a with
    | ⟨0, _⟩ => exact rowsDot_lhs_0 _ _
    | ⟨1, _⟩ => exact (rowsDot_lhs_1 _ _).trans hk)
  have er : Cert.ReferenceIdeal.dot_S50000x64_S64x64_S50000x64_1_0_0_1_n_n.rhsIdx (ix2 r q) ((contrEquiv1 Cert.ReferenceIdeal.dot_S50000x64_S64x64_S50000x64_1_0_0_1_n_n 64 rfl rfl).symm k) = ix2 k q := funext fun a => Fin.ext (by
    match a with
    | ⟨0, _⟩ => exact (rowsDot_rhs_0 _ _).trans hk
    | ⟨1, _⟩ => exact rowsDot_rhs_1 _ _)
  rw [el, er]

/-! ## The bias row under every row -/

/-- The body's copy of the one-row bias down its 5000 rows reads the bias at the column. -/
theorem biasBlock_apply (b : Vec Ideal Cert.KernelIdeal.S1x64 .f32) (p : Fin 5000) (q : Fin 64) :
    broadcastTo Cert.KernelIdeal.S5000x64 b Cert.KernelIdeal.Facts₀.broadcasts_S1x64_S5000x64 (ix2 p q)
      = b (ix2 (0 : Fin 1) q) := by
  refine broadcastTo_apply _ _ _ _ fun a => ?_
  match a with
  | ⟨0, _⟩ => rfl
  | ⟨1, _⟩ => rfl

/-- The reference's copy of the one-row bias down all 50000 rows reads the bias at the column. -/
theorem biasRows_apply (b : FVec Ideal Cert.ReferenceIdeal.S1x64 .f32) (r : Fin 50000) (q : Fin 64) :
    broadcastInDim Cert.ReferenceIdeal.S50000x64 ![0, 1] Cert.ReferenceIdeal.Facts₀.bcast_S1x64_S50000x64_0_1 b (ix2 r q)
      = b (ix2 (0 : Fin 1) q) := by
  refine broadcastInDim_apply _ _ _ _ _ fun a => ?_
  match a with
  | ⟨0, _⟩ => rfl
  | ⟨1, _⟩ => rfl

/-! ## The body's result and the reference's stage at one element -/

set_option maxHeartbeats 400000 in
/-- The body's result at row p and column q of its block: mean row times the first matrix, plus the bias at the
    column, plus own row times the second matrix (rounding to the narrower format is the identity on ideal values). -/
theorem combineBlock_apply (mean : Vec Ideal Cert.KernelIdeal.S5000x64 .f32) (Wl : Vec Ideal Cert.KernelIdeal.S64x64 .f32)
    (own : Vec Ideal Cert.KernelIdeal.S5000x64 .f32) (Wr : Vec Ideal Cert.KernelIdeal.S64x64 .f32) (b : Vec Ideal Cert.KernelIdeal.S1x64 .f32)
    (p : Fin 5000) (q : Fin 64) :
    k4_pay1 (F := Ideal) mean Wl own Wr b (ix2 p q)
      = (∑ k : Fin 64, mean (ix2 p k) * Wl (ix2 k q)) + b (ix2 (0 : Fin 1) q) + ∑ k : Fin 64, own (ix2 p k) * Wr (ix2 k q) := by
  unfold k4_pay1
  simp only [shapeCast_self]
  rw [addf_apply, addf_apply, blockDot_apply, blockDot_apply, biasBlock_apply]
  simp only [truncf_apply]

/-- The reference's combine at row r and column q: the same three terms over all rows. -/
theorem sageU_apply (mean : FVec Ideal Cert.ReferenceIdeal.S50000x64 .f32) (Wl : FVec Ideal Cert.ReferenceIdeal.S64x64 .f32)
    (b : FVec Ideal Cert.ReferenceIdeal.S1x64 .f32) (own : FVec Ideal Cert.ReferenceIdeal.S50000x64 .f32) (Wr : FVec Ideal Cert.ReferenceIdeal.S64x64 .f32)
    (r : Fin 50000) (q : Fin 64) :
    Cert.Bridge.sageU (F := Ideal) mean Wl b own Wr (ix2 r q)
      = (∑ k : Fin 64, mean (ix2 r k) * Wl (ix2 k q)) + b (ix2 (0 : Fin 1) q) + ∑ k : Fin 64, own (ix2 r k) * Wr (ix2 k q) := by
  unfold Cert.Bridge.sageU
  rw [addf_apply, addf_apply, rowsDot_apply, rowsDot_apply, biasRows_apply]

/-! ## From the blocks to the array -/

variable (V : (c : Dev nD) → (b : Ref sig .tc) → Buf (Elt Ideal) ((c : Thread nD τ).loc b))

/-- The whole-block rectangle starts at the origin. -/
theorem origin2 : (![0, 0] : Fin 2 → Nat) = fun _ => 0 := funext fun a => by fin_cases a <;> rfl

/-- The block indices, decided over the ten points: the mean rows, the own rows and the output are at block (t, 0);
    both matrices and the bias row are the one block (0, 0) at every point. -/
theorem blockIndex : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

/-- There are ten points. -/
theorem point_lt (t : Fin cfg4.N) : t.val < 10 := Nat.lt_of_lt_of_eq t.isLt N_4

/-- Row p of point t's block is row 5000 t + p of the array. -/
def blockRow (t : Fin cfg4.N) (p : Fin 5000) : Fin 50000 :=
  ⟨t.val * 5000 + p.val, by have := point_lt t; have := p.isLt; omega⟩

/-- The mean rows' block at point t, read at (p, k). -/
theorem meanBlock_apply (c : Dev nD) (t : Fin cfg4.N) (p : Fin 5000) (k : Fin 64) :
    (iblk4 V c 0 t : Vec Ideal S5000x64 .f32) (ix2 p k) = (V c main_v48 : Vec Ideal S50000x64 .f32) (ix2 (blockRow t p) k) := by
  obtain ⟨e00, e01, e10, e11, e20, e21, e30, e31, e40, e41, e50, e51⟩ := blockIndex t
  unfold iblk4
  rw [View.read_apply]
  show V c main_v48 (((cfg4.win 0).blk t).view.emb (ix2 p k)) = V c main_v48 (ix2 (blockRow t p) k)
  refine congrArg _ (funext fun a => Fin.ext ?_)
  match a with
  | ⟨0, _⟩ => show win4_0.index t (0 : Fin 2) * 5000 + 1 * p.val = t.val * 5000 + p.val; omega
  | ⟨1, _⟩ => show win4_0.index t (1 : Fin 2) * 64 + 1 * k.val = k.val; omega

/-- The own rows' block at point t, read at (p, k). -/
theorem ownBlock_apply (c : Dev nD) (t : Fin cfg4.N) (p : Fin 5000) (k : Fin 64) :
    (iblk4 V c 3 t : Vec Ideal S5000x64 .f32) (ix2 p k) = (V c main_v20 : Vec Ideal S50000x64 .f32) (ix2 (blockRow t p) k) := by
  obtain ⟨e00, e01, e10, e11, e20, e21, e30, e31, e40, e41, e50, e51⟩ := blockIndex t
  unfold iblk4
  rw [View.read_apply]
  show V c main_v20 (((cfg4.win 3).blk t).view.emb (ix2 p k)) = V c main_v20 (ix2 (blockRow t p) k)
  refine congrArg _ (funext fun a => Fin.ext ?_)
  match a with
  | ⟨0, _⟩ => show win4_3.index t (0 : Fin 2) * 5000 + 1 * p.val = t.val * 5000 + p.val; omega
  | ⟨1, _⟩ => show win4_3.index t (1 : Fin 2) * 64 + 1 * k.val = k.val; omega

/-- The first matrix's block is the whole matrix at every point. -/
theorem leftMatrix_apply (c : Dev nD) (t : Fin cfg4.N) (k : Fin 64) (q : Fin 64) :
    (iblk4 V c 1 t : Vec Ideal S64x64 .f32) (ix2 k q) = (V c main_arg21 : Vec Ideal S64x64 .f32) (ix2 k q) := by
  obtain ⟨e00, e01, e10, e11, e20, e21, e30, e31, e40, e41, e50, e51⟩ := blockIndex t
  unfold iblk4
  rw [View.read_apply]
  show V c main_arg21 (((cfg4.win 1).blk t).view.emb (ix2 k q)) = V c main_arg21 (ix2 k q)
  refine congrArg _ (funext fun a => Fin.ext ?_)
  match a with
  | ⟨0, _⟩ => show win4_1.index t (0 : Fin 2) * 64 + 1 * k.val = k.val; omega
  | ⟨1, _⟩ => show win4_1.index t (1 : Fin 2) * 64 + 1 * q.val = q.val; omega

/-- The second matrix's block is the whole matrix at every point. -/
theorem rightMatrix_apply (c : Dev nD) (t : Fin cfg4.N) (k : Fin 64) (q : Fin 64) :
    (iblk4 V c 4 t : Vec Ideal S64x64 .f32) (ix2 k q) = (V c main_arg23 : Vec Ideal S64x64 .f32) (ix2 k q) := by
  obtain ⟨e00, e01, e10, e11, e20, e21, e30, e31, e40, e41, e50, e51⟩ := blockIndex t
  unfold iblk4
  rw [View.read_apply]
  show V c main_arg23 (((cfg4.win 4).blk t).view.emb (ix2 k q)) = V c main_arg23 (ix2 k q)
  refine congrArg _ (funext fun a => Fin.ext ?_)
  match a with
  | ⟨0, _⟩ => show win4_4.index t (0 : Fin 2) * 64 + 1 * k.val = k.val; omega
  | ⟨1, _⟩ => show win4_4.index t (1 : Fin 2) * 64 + 1 * q.val = q.val; omega

/-- The bias row's block is the whole row at every point. -/
theorem biasRow_apply (c : Dev nD) (t : Fin cfg4.N) (z : Fin 1) (q : Fin 64) :
    (iblk4 V c 2 t : Vec Ideal S1x64 .f32) (ix2 z q) = (V c main_v49 : Vec Ideal S1x64 .f32) (ix2 z q) := by
  obtain ⟨e00, e01, e10, e11, e20, e21, e30, e31, e40, e41, e50, e51⟩ := blockIndex t
  unfold iblk4
  rw [View.read_apply]
  show V c main_v49 (((cfg4.win 2).blk t).view.emb (ix2 z q)) = V c main_v49 (ix2 z q)
  refine congrArg _ (funext fun a => Fin.ext ?_)
  match a with
  | ⟨0, _⟩ => show win4_2.index t (0 : Fin 2) * 1 + 1 * z.val = z.val; omega
  | ⟨1, _⟩ => show win4_2.index t (1 : Fin 2) * 64 + 1 * q.val = q.val; omega

/-- Element (p, q) of the output's block at point t sits at row 5000 t + p, column q of the output array. -/
theorem outBlock_emb (t : Fin cfg4.N) (p : Fin 5000) (q : Fin 64) :
    (((cfg4.win 5).blk t).view.emb (ix2 p q) : S50000x64.Idx) = ix2 (blockRow t p) q := by
  obtain ⟨e00, e01, e10, e11, e20, e21, e30, e31, e40, e41, e50, e51⟩ := blockIndex t
  refine funext fun a => Fin.ext ?_
  match a with
  | ⟨0, _⟩ => show win4_5.index t (0 : Fin 2) * 5000 + 1 * p.val = t.val * 5000 + p.val; omega
  | ⟨1, _⟩ => show win4_5.index t (1 : Fin 2) * 64 + 1 * q.val = q.val; omega

set_option maxHeartbeats 400000 in
/-- What point t writes back is block t of the reference's combine of the arrays as the launch finds them. -/
theorem writeBack_eq (c : Dev nD) (t : Fin cfg4.N) :
    (dat4 (F := Ideal) V c).flushed 5 t = ((cfg4.win 5).blk t).view.read (Elt Ideal)
      (Cert.Bridge.sageU (F := Ideal) (V c main_v48) (V c main_arg21) (V c main_v49) (V c main_v20) (V c main_arg23)) := by
  show (cfg4.win 5).cut (grid4.coords t) ((dat4 (F := Ideal) V c).after 5 t) = _
  rw [after4_5]
  unfold out4_5
  rw [View.canon_unit_zero origin2]
  simp only [View.ld_unit_zero (S := S5000x64) origin2, View.ld_unit_zero (S := S64x64) origin2, View.ld_unit_zero (S := S1x64) origin2]
  funext j
  obtain ⟨p, q, rfl⟩ : ∃ (p : Fin 5000) (q : Fin 64), j = ix2 p q := ⟨j 0, j 1, eq_ix2 j⟩
  show k4_pay1 (F := Ideal) (iblk4 V c 0 t) (iblk4 V c 1 t) (iblk4 V c 3 t) (iblk4 V c 4 t) (iblk4 V c 2 t) (ix2 p q)
    = Cert.Bridge.sageU (F := Ideal) (V c main_v48) (V c main_arg21) (V c main_v49) (V c main_v20) (V c main_arg23) (((cfg4.win 5).blk t).view.emb (ix2 p q))
  rw [outBlock_emb, combineBlock_apply, sageU_apply]
  simp only [meanBlock_apply, ownBlock_apply, leftMatrix_apply, rightMatrix_apply, biasRow_apply]

/-- An index of the output array is in point t's block iff each coordinate is in the block's range on its axis. -/
theorem mem_outBlock (t : Fin cfg4.N) (i : S50000x64.Idx) :
    i ∈ ((cfg4.win 5).blk t).view.set ↔ ∀ a : Fin 2, win4_5.index t a * S5000x64.size a ≤ (i a).val ∧ (i a).val < win4_5.index t a * S5000x64.size a + S5000x64.size a := by
  show i ∈ ((View.whole main_v50).slice (win4_5.rect t)).set ↔ _
  rw [View.set_slice_whole, Rect.mem_set_unit]
  exact Iff.rfl

/-- Row r of the array lies in the block of point r / 5000: the ten blocks tile the 50000 rows. -/
theorem rows_covered (i : S50000x64.Idx) :
    ∃ t : Fin cfg4.N, (cfg4.win 5).flush t = true ∧ i ∈ ((cfg4.win 5).blk t).view.set := by
  have hi0 : (i 0).val < 50000 := (i 0).isLt
  have hi1 : (i 1).val < 64 := (i 1).isLt
  let t : Fin cfg4.N := ⟨(i 0).val / 5000, Nat.lt_of_lt_of_eq (show (i 0).val / 5000 < 10 by omega) N_4.symm⟩
  obtain ⟨e00, e01, e10, e11, e20, e21, e30, e31, e40, e41, e50, e51⟩ := blockIndex t
  have ht : t.val = (i 0).val / 5000 := rfl
  refine ⟨t, flush4_5 t, ?_⟩
  rw [mem_outBlock]
  intro a
  match a with
  | ⟨0, _⟩ => show win4_5.index t (0 : Fin 2) * 5000 ≤ (i 0).val ∧ (i 0).val < win4_5.index t (0 : Fin 2) * 5000 + 5000; omega
  | ⟨1, _⟩ => show win4_5.index t (1 : Fin 2) * 64 ≤ (i 1).val ∧ (i 1).val < win4_5.index t (1 : Fin 2) * 64 + 64; omega

end UsersCombine2

variable (V : (c : Dev nD) → (b : Ref sig .tc) → Buf (Elt Ideal) ((c : Thread nD τ).loc b))

/-- Users' second-layer combine: what the fifth launch leaves in its output array. -/
theorem region4 (c : Dev nD) :
    (dat4 (F := Ideal) V c).arrAt 5 cfg4.N = Cert.Bridge.sageU (F := Ideal) (V c main_v48) (V c main_arg21) (V c main_v49) (V c main_v20) (V c main_arg23) :=
  (dat4 (F := Ideal) V c).arrAt_eq_of_cover 5
    (Cert.Bridge.sageU (F := Ideal) (V c main_v48) (V c main_arg21) (V c main_v49) (V c main_v20) (V c main_arg23))
    (fun t _ => UsersCombine2.writeBack_eq V c t) UsersCombine2.rows_covered

end Cert.KernelIdeal.Val

end
-- ==== Proof.Region5.lean ====
/- Recipes' second-layer combine: what the sixth launch leaves in its output array.

  Every grid point holds a block of 5000 consecutive rows. On its block the body multiplies the neighbours' mean rows
  by one 64 by 64 matrix, adds the bias row to every row, and adds the block's own rows times a second 64 by 64
  matrix. Read at one element, each product is a sum over the 64 contracted positions, and so is the reference's
  product over all rows; the block of point t starts at row 5000 t, so the blocks of all points together tile the array.
-/
import proofs.«430915_j14465449853445_1_alg».proof.Proof.Gen.KernelIdeal.Frame
import proofs.«430915_j14465449853445_1_alg».proof.Proof.Stages
import Idealize.ShloMosaic.PureOps.Ideal
import Idealize.ShloMosaic.PureOps.Ideal.Laws
import Idealize.ShloMosaic.Lib.ValueIdx
import Idealize.ShloMosaic.Lib.Pipeline.Value

set_option maxRecDepth 16384

noncomputable section

namespace Cert.KernelIdeal.Val

open Idealize.ShloMosaic Idealize.ShloMosaic.TcCoe Idealize.ShloMosaic.StableHlo
open Idealize.ShloMosaic.ValueIdx
open Cert.KernelIdeal Cert.KernelIdeal.Gen
open scoped BigOperators

namespace RecipesCombine2

/-! ## The block product at one element -/

/-- Left operand of the block product: the row coordinate is the output's row. -/
theorem blockDot_lhs_0 (i : Cert.KernelIdeal.S5000x64.Idx) (q : Cert.KernelIdeal.dot_S5000x64_S64x64_S5000x64_1_0_0_1_n_n.contr.Idx) :
    (Cert.KernelIdeal.dot_S5000x64_S64x64_S5000x64_1_0_0_1_n_n.lhsIdx i q 0).val = (i 0).val := by
  unfold DotDims.lhsIdx
  rw [dif_neg (show ¬(0 : Fin Cert.KernelIdeal.S5000x64.rank) ∈ Cert.KernelIdeal.dot_S5000x64_S64x64_S5000x64_1_0_0_1_n_n.lhsBatch by decide),
    dif_pos (show (0 : Fin Cert.KernelIdeal.S5000x64.rank) ∈ Cert.KernelIdeal.dot_S5000x64_S64x64_S5000x64_1_0_0_1_n_n.lhsNonContracting by decide)]
  rfl
/-- Left operand: the column coordinate is the contracted position. -/
theorem blockDot_lhs_1 (i : Cert.KernelIdeal.S5000x64.Idx) (q : Cert.KernelIdeal.dot_S5000x64_S64x64_S5000x64_1_0_0_1_n_n.contr.Idx) :
    (Cert.KernelIdeal.dot_S5000x64_S64x64_S5000x64_1_0_0_1_n_n.lhsIdx i q 1).val = (q ⟨0, by decide⟩).val :=
  Cert.KernelIdeal.dot_S5000x64_S64x64_S5000x64_1_0_0_1_n_n.lhsIdx_val_of_single rfl i q
/-- Right operand: the row coordinate is the contracted position. -/
theorem blockDot_rhs_0 (i : Cert.KernelIdeal.S5000x64.Idx) (q : Cert.KernelIdeal.dot_S5000x64_S64x64_S5000x64_1_0_0_1_n_n.contr.Idx) :
    (Cert.KernelIdeal.dot_S5000x64_S64x64_S5000x64_1_0_0_1_n_n.rhsIdx i q 0).val = (q ⟨0, by decide⟩).val :=
  Cert.KernelIdeal.dot_S5000x64_S64x64_S5000x64_1_0_0_1_n_n.rhsIdx_val_of_single rfl i q
/-- Right operand: the column coordinate is the output's column. -/
theorem blockDot_rhs_1 (i : Cert.KernelIdeal.S5000x64.Idx) (q : Cert.KernelIdeal.dot_S5000x64_S64x64_S5000x64_1_0_0_1_n_n.contr.Idx) :
    (Cert.KernelIdeal.dot_S5000x64_S64x64_S5000x64_1_0_0_1_n_n.rhsIdx i q 1).val = (i 1).val := by
  unfold DotDims.rhsIdx
  rw [dif_neg (show ¬(1 : Fin Cert.KernelIdeal.S64x64.rank) ∈ Cert.KernelIdeal.dot_S5000x64_S64x64_S5000x64_1_0_0_1_n_n.rhsBatch by decide),
    dif_pos (show (1 : Fin Cert.KernelIdeal.S64x64.rank) ∈ Cert.KernelIdeal.dot_S5000x64_S64x64_S5000x64_1_0_0_1_n_n.rhsNonContracting by decide)]
  rfl

set_option maxHeartbeats 400000 in
/-- A 5000 by 64 block times a 64 by 64 matrix, accumulated from zero, at row p and column q: the sum over the 64
    contracted positions of the block's row entry times the matrix's column entry. -/
theorem blockDot_apply {φ₁ φ₂ : FTy} (x : FVec Ideal Cert.KernelIdeal.S5000x64 φ₁) (w : FVec Ideal Cert.KernelIdeal.S64x64 φ₂) (p : Fin 5000) (q : Fin 64) :
    matmul (F := Ideal) Cert.KernelIdeal.dot_S5000x64_S64x64_S5000x64_1_0_0_1_n_n none x w (constant (F := Ideal) Cert.KernelIdeal.S5000x64 .f32 0x00000000#32) (ix2 p q)
      = ∑ k : Fin 64, x (ix2 p k) * w (ix2 k q) := by
  simp only [matmul]
  rw [Ideal.matmul_constant_zero_apply, ← Equiv.sum_comp (contrEquiv1 Cert.KernelIdeal.dot_S5000x64_S64x64_S5000x64_1_0_0_1_n_n 64 rfl rfl).symm]
  refine Finset.sum_congr rfl fun k _ => ?_
  have hk := contrEquiv1_symm_val Cert.KernelIdeal.dot_S5000x64_S64x64_S5000x64_1_0_0_1_n_n 64 rfl rfl k
  have el : Cert.KernelIdeal.dot_S5000x64_S64x64_S5000x64_1_0_0_1_n_n.lhsIdx (ix2 p q) ((contrEquiv1 Cert.KernelIdeal.dot_S5000x64_S64x64_S5000x64_1_0_0_1_n_n 64 rfl rfl).symm k) = ix2 p k := funext fun a => Fin.ext (by
    match a with
    | ⟨0, _⟩ => exact blockDot_lhs_0 _ _
    | ⟨1, _⟩ => exact (blockDot_lhs_1 _ _).trans hk)
  have er : Cert.KernelIdeal.dot_S5000x64_S64x64_S5000x64_1_0_0_1_n_n.rhsIdx (ix2 p q) ((contrEquiv1 Cert.KernelIdeal.dot_S5000x64_S64x64_S5000x64_1_0_0_1_n_n 64 rfl rfl).symm k) = ix2 k q := funext fun a => Fin.ext (by
    match a with
    | ⟨0, _⟩ => exact (blockDot_rhs_0 _ _).trans hk
    | ⟨1, _⟩ => exact blockDot_rhs_1 _ _)
  rw [el, er]

/-! ## The reference's product over all rows at one element -/

/-- Left operand of the whole product: the row coordinate is the output's row. -/
theorem rowsDot_lhs_0 (i : Cert.ReferenceIdeal.S100000x64.Idx) (q : Cert.ReferenceIdeal.dot_S100000x64_S64x64_S100000x64_1_0_0_1_n_n.contr.Idx) :
    (Cert.ReferenceIdeal.dot_S100000x64_S64x64_S100000x64_1_0_0_1_n_n.lhsIdx i q 0).val = (i 0).val := by
  unfold DotDims.lhsIdx
  rw [dif_neg (show ¬(0 : Fin Cert.ReferenceIdeal.S100000x64.rank) ∈ Cert.ReferenceIdeal.dot_S100000x64_S64x64_S100000x64_1_0_0_1_n_n.lhsBatch by decide),
    dif_pos (show (0 : Fin Cert.ReferenceIdeal.S100000x64.rank) ∈ Cert.ReferenceIdeal.dot_S100000x64_S64x64_S100000x64_1_0_0_1_n_n.lhsNonContracting by decide)]
  rfl
/-- Left operand: the column coordinate is the contracted position. -/
theorem rowsDot_lhs_1 (i : Cert.ReferenceIdeal.S100000x64.Idx) (q : Cert.ReferenceIdeal.dot_S100000x64_S64x64_S100000x64_1_0_0_1_n_n.contr.Idx) :
    (Cert.ReferenceIdeal.dot_S100000x64_S64x64_S100000x64_1_0_0_1_n_n.lhsIdx i q 1).val = (q ⟨0, by decide⟩).val :=
  Cert.ReferenceIdeal.dot_S100000x64_S64x64_S100000x64_1_0_0_1_n_n.lhsIdx_val_of_single rfl i q
/-- Right operand: the row coordinate is the contracted position. -/
theorem rowsDot_rhs_0 (i : Cert.ReferenceIdeal.S100000x64.Idx) (q : Cert.ReferenceIdeal.dot_S100000x64_S64x64_S100000x64_1_0_0_1_n_n.contr.Idx) :
    (Cert.ReferenceIdeal.dot_S100000x64_S64x64_S100000x64_1_0_0_1_n_n.rhsIdx i q 0).val = (q ⟨0, by decide⟩).val :=
  Cert.ReferenceIdeal.dot_S100000x64_S64x64_S100000x64_1_0_0_1_n_n.rhsIdx_val_of_single rfl i q
/-- Right operand: the column coordinate is the output's column. -/
theorem rowsDot_rhs_1 (i : Cert.ReferenceIdeal.S100000x64.Idx) (q : Cert.ReferenceIdeal.dot_S100000x64_S64x64_S100000x64_1_0_0_1_n_n.contr.Idx) :
    (Cert.ReferenceIdeal.dot_S100000x64_S64x64_S100000x64_1_0_0_1_n_n.rhsIdx i q 1).val = (i 1).val := by
  unfold DotDims.rhsIdx
  rw [dif_neg (show ¬(1 : Fin Cert.ReferenceIdeal.S64x64.rank) ∈ Cert.ReferenceIdeal.dot_S100000x64_S64x64_S100000x64_1_0_0_1_n_n.rhsBatch by decide),
    dif_pos (show (1 : Fin Cert.ReferenceIdeal.S64x64.rank) ∈ Cert.ReferenceIdeal.dot_S100000x64_S64x64_S100000x64_1_0_0_1_n_n.rhsNonContracting by decide)]
  rfl

set_option maxHeartbeats 400000 in
/-- All 100000 rows times a 64 by 64 matrix at row r and column q: the sum over the 64 contracted positions. -/
theorem rowsDot_apply (X : FVec Ideal Cert.ReferenceIdeal.S100000x64 .f32) (W : FVec Ideal Cert.ReferenceIdeal.S64x64 .f32) (r : Fin 100000) (q : Fin 64) :
    Host.dotGeneral (F := Ideal) Cert.ReferenceIdeal.dot_S100000x64_S64x64_S100000x64_1_0_0_1_n_n none X W (ix2 r q) = ∑ k : Fin 64, X (ix2 r k) * W (ix2 k q) := by
  simp only [Host.dotGeneral]
  rw [Ideal.dotGeneral_apply, ← Equiv.sum_comp (contrEquiv1 Cert.ReferenceIdeal.dot_S100000x64_S64x64_S100000x64_1_0_0_1_n_n 64 rfl rfl).symm]
  refine Finset.sum_congr rfl fun k _ => ?_
  have hk := contrEquiv1_symm_val Cert.ReferenceIdeal.dot_S100000x64_S64x64_S100000x64_1_0_0_1_n_n 64 rfl rfl k
  have el : Cert.ReferenceIdeal.dot_S100000x64_S64x64_S100000x64_1_0_0_1_n_n.lhsIdx (ix2 r q) ((contrEquiv1 Cert.ReferenceIdeal.dot_S100000x64_S64x64_S100000x64_1_0_0_1_n_n 64 rfl rfl).symm k) = ix2 r k := funext fun a => Fin.ext (by
    match a with
    | ⟨0, _⟩ => exact rowsDot_lhs_0 _ _
    | ⟨1, _⟩ => exact (rowsDot_lhs_1 _ _).trans hk)
  have er : Cert.ReferenceIdeal.dot_S100000x64_S64x64_S100000x64_1_0_0_1_n_n.rhsIdx (ix2 r q) ((contrEquiv1 Cert.ReferenceIdeal.dot_S100000x64_S64x64_S100000x64_1_0_0_1_n_n 64 rfl rfl).symm k) = ix2 k q := funext fun a => Fin.ext (by
    match a with
    | ⟨0, _⟩ => exact (rowsDot_rhs_0 _ _).trans hk
    | ⟨1, _⟩ => exact rowsDot_rhs_1 _ _)
  rw [el, er]

/-! ## The bias row under every row -/

/-- The body's copy of the one-row bias down its 5000 rows reads the bias at the column. -/
theorem biasBlock_apply (b : Vec Ideal Cert.KernelIdeal.S1x64 .f32) (p : Fin 5000) (q : Fin 64) :
    broadcastTo Cert.KernelIdeal.S5000x64 b Cert.KernelIdeal.Facts₀.broadcasts_S1x64_S5000x64 (ix2 p q)
      = b (ix2 (0 : Fin 1) q) := by
  refine broadcastTo_apply _ _ _ _ fun a => ?_
  match a with
  | ⟨0, _⟩ => rfl
  | ⟨1, _⟩ => rfl

/-- The reference's copy of the one-row bias down all 100000 rows reads the bias at the column. -/
theorem biasRows_apply (b : FVec Ideal Cert.ReferenceIdeal.S1x64 .f32) (r : Fin 100000) (q : Fin 64) :
    broadcastInDim Cert.ReferenceIdeal.S100000x64 ![0, 1] Cert.ReferenceIdeal.Facts₀.bcast_S1x64_S100000x64_0_1 b (ix2 r q)
      = b (ix2 (0 : Fin 1) q) := by
  refine broadcastInDim_apply _ _ _ _ _ fun a => ?_
  match a with
  | ⟨0, _⟩ => rfl
  | ⟨1, _⟩ => rfl

/-! ## The body's result and the reference's stage at one element -/

set_option maxHeartbeats 400000 in
/-- The body's result at row p and column q of its block: mean row times the first matrix, plus the bias at the
    column, plus own row times the second matrix (rounding to the narrower format is the identity on ideal values). -/
theorem combineBlock_apply (mean : Vec Ideal Cert.KernelIdeal.S5000x64 .f32) (Wl : Vec Ideal Cert.KernelIdeal.S64x64 .f32)
    (own : Vec Ideal Cert.KernelIdeal.S5000x64 .f32) (Wr : Vec Ideal Cert.KernelIdeal.S64x64 .f32) (b : Vec Ideal Cert.KernelIdeal.S1x64 .f32)
    (p : Fin 5000) (q : Fin 64) :
    k5_pay1 (F := Ideal) mean Wl own Wr b (ix2 p q)
      = (∑ k : Fin 64, mean (ix2 p k) * Wl (ix2 k q)) + b (ix2 (0 : Fin 1) q) + ∑ k : Fin 64, own (ix2 p k) * Wr (ix2 k q) := by
  unfold k5_pay1
  simp only [shapeCast_self]
  rw [addf_apply, addf_apply, blockDot_apply, blockDot_apply, biasBlock_apply]
  simp only [truncf_apply]

/-- The reference's combine at row r and column q: the same three terms over all rows. -/
theorem sageR_apply (mean : FVec Ideal Cert.ReferenceIdeal.S100000x64 .f32) (Wl : FVec Ideal Cert.ReferenceIdeal.S64x64 .f32)
    (b : FVec Ideal Cert.ReferenceIdeal.S1x64 .f32) (own : FVec Ideal Cert.ReferenceIdeal.S100000x64 .f32) (Wr : FVec Ideal Cert.ReferenceIdeal.S64x64 .f32)
    (r : Fin 100000) (q : Fin 64) :
    Cert.Bridge.sageR (F := Ideal) mean Wl b own Wr (ix2 r q)
      = (∑ k : Fin 64, mean (ix2 r k) * Wl (ix2 k q)) + b (ix2 (0 : Fin 1) q) + ∑ k : Fin 64, own (ix2 r k) * Wr (ix2 k q) := by
  unfold Cert.Bridge.sageR
  rw [addf_apply, addf_apply, rowsDot_apply, rowsDot_apply, biasRows_apply]

/-! ## From the blocks to the array -/

variable (V : (c : Dev nD) → (b : Ref sig .tc) → Buf (Elt Ideal) ((c : Thread nD τ).loc b))

/-- The whole-block rectangle starts at the origin. -/
theorem origin2 : (![0, 0] : Fin 2 → Nat) = fun _ => 0 := funext fun a => by fin_cases a <;> rfl

/-- The block indices, decided over the twenty points: the mean rows, the own rows and the output are at block (t, 0);
    both matrices and the bias row are the one block (0, 0) at every point. -/
theorem blockIndex : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

/-- There are twenty points. -/
theorem point_lt (t : Fin cfg5.N) : t.val < 20 := Nat.lt_of_lt_of_eq t.isLt N_5

/-- Row p of point t's block is row 5000 t + p of the array. -/
def blockRow (t : Fin cfg5.N) (p : Fin 5000) : Fin 100000 :=
  ⟨t.val * 5000 + p.val, by have := point_lt t; have := p.isLt; omega⟩

/-- The mean rows' block at point t, read at (p, k). -/
theorem meanBlock_apply (c : Dev nD) (t : Fin cfg5.N) (p : Fin 5000) (k : Fin 64) :
    (iblk5 V c 0 t : Vec Ideal S5000x64 .f32) (ix2 p k) = (V c main_v63 : Vec Ideal S100000x64 .f32) (ix2 (blockRow t p) k) := by
  obtain ⟨e00, e01, e10, e11, e20, e21, e30, e31, e40, e41, e50, e51⟩ := blockIndex t
  unfold iblk5
  rw [View.read_apply]
  show V c main_v63 (((cfg5.win 0).blk t).view.emb (ix2 p k)) = V c main_v63 (ix2 (blockRow t p) k)
  refine congrArg _ (funext fun a => Fin.ext ?_)
  match a with
  | ⟨0, _⟩ => show win5_0.index t (0 : Fin 2) * 5000 + 1 * p.val = t.val * 5000 + p.val; omega
  | ⟨1, _⟩ => show win5_0.index t (1 : Fin 2) * 64 + 1 * k.val = k.val; omega

/-- The own rows' block at point t, read at (p, k). -/
theorem ownBlock_apply (c : Dev nD) (t : Fin cfg5.N) (p : Fin 5000) (k : Fin 64) :
    (iblk5 V c 3 t : Vec Ideal S5000x64 .f32) (ix2 p k) = (V c main_v35 : Vec Ideal S100000x64 .f32) (ix2 (blockRow t p) k) := by
  obtain ⟨e00, e01, e10, e11, e20, e21, e30, e31, e40, e41, e50, e51⟩ := blockIndex t
  unfold iblk5
  rw [View.read_apply]
  show V c main_v35 (((cfg5.win 3).blk t).view.emb (ix2 p k)) = V c main_v35 (ix2 (blockRow t p) k)
  refine congrArg _ (funext fun a => Fin.ext ?_)
  match a with
  | ⟨0, _⟩ => show win5_3.index t (0 : Fin 2) * 5000 + 1 * p.val = t.val * 5000 + p.val; omega
  | ⟨1, _⟩ => show win5_3.index t (1 : Fin 2) * 64 + 1 * k.val = k.val; omega

/-- The first matrix's block is the whole matrix at every point. -/
theorem leftMatrix_apply (c : Dev nD) (t : Fin cfg5.N) (k : Fin 64) (q : Fin 64) :
    (iblk5 V c 1 t : Vec Ideal S64x64 .f32) (ix2 k q) = (V c main_arg18 : Vec Ideal S64x64 .f32) (ix2 k q) := by
  obtain ⟨e00, e01, e10, e11, e20, e21, e30, e31, e40, e41, e50, e51⟩ := blockIndex t
  unfold iblk5
  rw [View.read_apply]
  show V c main_arg18 (((cfg5.win 1).blk t).view.emb (ix2 k q)) = V c main_arg18 (ix2 k q)
  refine congrArg _ (funext fun a => Fin.ext ?_)
  match a with
  | ⟨0, _⟩ => show win5_1.index t (0 : Fin 2) * 64 + 1 * k.val = k.val; omega
  | ⟨1, _⟩ => show win5_1.index t (1 : Fin 2) * 64 + 1 * q.val = q.val; omega

/-- The second matrix's block is the whole matrix at every point. -/
theorem rightMatrix_apply (c : Dev nD) (t : Fin cfg5.N) (k : Fin 64) (q : Fin 64) :
    (iblk5 V c 4 t : Vec Ideal S64x64 .f32) (ix2 k q) = (V c main_arg20 : Vec Ideal S64x64 .f32) (ix2 k q) := by
  obtain ⟨e00, e01, e10, e11, e20, e21, e30, e31, e40, e41, e50, e51⟩ := blockIndex t
  unfold iblk5
  rw [View.read_apply]
  show V c main_arg20 (((cfg5.win 4).blk t).view.emb (ix2 k q)) = V c main_arg20 (ix2 k q)
  refine congrArg _ (funext fun a => Fin.ext ?_)
  match a with
  | ⟨0, _⟩ => show win5_4.index t (0 : Fin 2) * 64 + 1 * k.val = k.val; omega
  | ⟨1, _⟩ => show win5_4.index t (1 : Fin 2) * 64 + 1 * q.val = q.val; omega

/-- The bias row's block is the whole row at every point. -/
theorem biasRow_apply (c : Dev nD) (t : Fin cfg5.N) (z : Fin 1) (q : Fin 64) :
    (iblk5 V c 2 t : Vec Ideal S1x64 .f32) (ix2 z q) = (V c main_v64 : Vec Ideal S1x64 .f32) (ix2 z q) := by
  obtain ⟨e00, e01, e10, e11, e20, e21, e30, e31, e40, e41, e50, e51⟩ := blockIndex t
  unfold iblk5
  rw [View.read_apply]
  show V c main_v64 (((cfg5.win 2).blk t).view.emb (ix2 z q)) = V c main_v64 (ix2 z q)
  refine congrArg _ (funext fun a => Fin.ext ?_)
  match a with
  | ⟨0, _⟩ => show win5_2.index t (0 : Fin 2) * 1 + 1 * z.val = z.val; omega
  | ⟨1, _⟩ => show win5_2.index t (1 : Fin 2) * 64 + 1 * q.val = q.val; omega

/-- Element (p, q) of the output's block at point t sits at row 5000 t + p, column q of the output array. -/
theorem outBlock_emb (t : Fin cfg5.N) (p : Fin 5000) (q : Fin 64) :
    (((cfg5.win 5).blk t).view.emb (ix2 p q) : S100000x64.Idx) = ix2 (blockRow t p) q := by
  obtain ⟨e00, e01, e10, e11, e20, e21, e30, e31, e40, e41, e50, e51⟩ := blockIndex t
  refine funext fun a => Fin.ext ?_
  match a with
  | ⟨0, _⟩ => show win5_5.index t (0 : Fin 2) * 5000 + 1 * p.val = t.val * 5000 + p.val; omega
  | ⟨1, _⟩ => show win5_5.index t (1 : Fin 2) * 64 + 1 * q.val = q.val; omega

set_option maxHeartbeats 400000 in
/-- What point t writes back is block t of the reference's combine of the arrays as the launch finds them. -/
theorem writeBack_eq (c : Dev nD) (t : Fin cfg5.N) :
    (dat5 (F := Ideal) V c).flushed 5 t = ((cfg5.win 5).blk t).view.read (Elt Ideal)
      (Cert.Bridge.sageR (F := Ideal) (V c main_v63) (V c main_arg18) (V c main_v64) (V c main_v35) (V c main_arg20)) := by
  show (cfg5.win 5).cut (grid5.coords t) ((dat5 (F := Ideal) V c).after 5 t) = _
  rw [after5_5]
  unfold out5_5
  rw [View.canon_unit_zero origin2]
  simp only [View.ld_unit_zero (S := S5000x64) origin2, View.ld_unit_zero (S := S64x64) origin2, View.ld_unit_zero (S := S1x64) origin2]
  funext j
  obtain ⟨p, q, rfl⟩ : ∃ (p : Fin 5000) (q : Fin 64), j = ix2 p q := ⟨j 0, j 1, eq_ix2 j⟩
  show k5_pay1 (F := Ideal) (iblk5 V c 0 t) (iblk5 V c 1 t) (iblk5 V c 3 t) (iblk5 V c 4 t) (iblk5 V c 2 t) (ix2 p q)
    = Cert.Bridge.sageR (F := Ideal) (V c main_v63) (V c main_arg18) (V c main_v64) (V c main_v35) (V c main_arg20) (((cfg5.win 5).blk t).view.emb (ix2 p q))
  rw [outBlock_emb, combineBlock_apply, sageR_apply]
  simp only [meanBlock_apply, ownBlock_apply, leftMatrix_apply, rightMatrix_apply, biasRow_apply]

/-- An index of the output array is in point t's block iff each coordinate is in the block's range on its axis. -/
theorem mem_outBlock (t : Fin cfg5.N) (i : S100000x64.Idx) :
    i ∈ ((cfg5.win 5).blk t).view.set ↔ ∀ a : Fin 2, win5_5.index t a * S5000x64.size a ≤ (i a).val ∧ (i a).val < win5_5.index t a * S5000x64.size a + S5000x64.size a := by
  show i ∈ ((View.whole main_v65).slice (win5_5.rect t)).set ↔ _
  rw [View.set_slice_whole, Rect.mem_set_unit]
  exact Iff.rfl

/-- Row r of the array lies in the block of point r / 5000: the twenty blocks tile the 100000 rows. -/
theorem rows_covered (i : S100000x64.Idx) :
    ∃ t : Fin cfg5.N, (cfg5.win 5).flush t = true ∧ i ∈ ((cfg5.win 5).blk t).view.set := by
  have hi0 : (i 0).val < 100000 := (i 0).isLt
  have hi1 : (i 1).val < 64 := (i 1).isLt
  let t : Fin cfg5.N := ⟨(i 0).val / 5000, Nat.lt_of_lt_of_eq (show (i 0).val / 5000 < 20 by omega) N_5.symm⟩
  obtain ⟨e00, e01, e10, e11, e20, e21, e30, e31, e40, e41, e50, e51⟩ := blockIndex t
  have ht : t.val = (i 0).val / 5000 := rfl
  refine ⟨t, flush5_5 t, ?_⟩
  rw [mem_outBlock]
  intro a
  match a with
  | ⟨0, _⟩ => show win5_5.index t (0 : Fin 2) * 5000 ≤ (i 0).val ∧ (i 0).val < win5_5.index t (0 : Fin 2) * 5000 + 5000; omega
  | ⟨1, _⟩ => show win5_5.index t (1 : Fin 2) * 64 ≤ (i 1).val ∧ (i 1).val < win5_5.index t (1 : Fin 2) * 64 + 64; omega

end RecipesCombine2

variable (V : (c : Dev nD) → (b : Ref sig .tc) → Buf (Elt Ideal) ((c : Thread nD τ).loc b))

/-- Recipes' second-layer combine: what the sixth launch leaves in its output array. -/
theorem region5 (c : Dev nD) :
    (dat5 (F := Ideal) V c).arrAt 5 cfg5.N = Cert.Bridge.sageR (F := Ideal) (V c main_v63) (V c main_arg18) (V c main_v64) (V c main_v35) (V c main_arg20) :=
  (dat5 (F := Ideal) V c).arrAt_eq_of_cover 5
    (Cert.Bridge.sageR (F := Ideal) (V c main_v63) (V c main_arg18) (V c main_v64) (V c main_v35) (V c main_arg20))
    (fun t _ => RecipesCombine2.writeBack_eq V c t) RecipesCombine2.rows_covered

end Cert.KernelIdeal.Val

end
-- ==== Proof.LibTypedRead.lean ====
/-
  Reading the buffer of a typed reference at the value's own type.

  The operations of a module-local function are stated over references that carry the type of the tensor value they
  hold. Each operation's function is given at those carried types and moved to the buffers' own types along the
  references' type equations, once on the way in for every operand and once on the way out for the result. Read back
  at the carried type, the result of an operation is its function of the operands read the same way, and a typed
  reference the operation does not write reads what it read before. The two transports of one reference cancel for
  ANY typed reference, because its carried type may be replaced by the buffer's own type: nothing has to be computed
  from the signature's tables, and no transport is left in what a line of such operations leaves in a buffer.
-/
import Idealize.ShloMosaic.Lib.StableHlo.Run

noncomputable section

namespace Idealize.ShloMosaic.StableHlo.TypedRead

open Idealize.ShloMosaic Idealize.ShloMosaic.StableHlo

variable {τ : Topo} {sig : RefSig} {Val : EltTy → Type} {T Tx Ta Tb Tc Ty : BufTy}

/-- What the buffer of the typed reference `x` holds in the valuation `F`, at the type `x` carries. -/
def rd (F : Valuation τ sig Val) (x : TRef sig T) : T.Contents Val := x.ofBuf (F (Proc.devRef .tc x.ref))

/-- Moving contents to the buffer's type and back is the identity. -/
theorem ofBuf_toBuf (x : TRef sig T) (v : T.Contents Val) : x.ofBuf (Val := Val) (x.toBuf v) = v := by
  obtain ⟨r, rfl, _, _⟩ := x
  rfl

/-- A typed reference whose buffer an operation does not write reads after it what it read before. -/
theorem rd_of_not_mem (op : HloOp τ sig Val) (F : Valuation τ sig Val) (z : TRef sig T)
    (h : Proc.devRef .tc z.ref ∉ op.writes) : rd (op.result F) z = rd F z := by
  unfold rd
  rw [op.result_of_not_mem F h]

/-! ## The result of each operation, read at its own typed reference -/

theorem rd_nullary (y : TRef sig Ty) (v : Ty.Contents Val) (F : Valuation τ sig Val) :
    rd ((TRef.nullary (τ := τ) y v).result F) y = v := by
  unfold rd
  rw [show (TRef.nullary (τ := τ) y v).result F (Proc.devRef .tc y.ref) = y.toBuf v from nullary_result _ _ _ F]
  exact ofBuf_toBuf y v

theorem rd_unary (x : TRef sig Tx) (y : TRef sig Ty) (f : Tx.Contents Val → Ty.Contents Val) (F : Valuation τ sig Val) :
    rd ((TRef.unary (τ := τ) x y f).result F) y = f (rd F x) := by
  unfold rd
  rw [show (TRef.unary (τ := τ) x y f).result F (Proc.devRef .tc y.ref)
      = y.toBuf (f (x.ofBuf (F (Proc.devRef .tc x.ref)))) from unary_result _ _ _ _ _ F]
  exact ofBuf_toBuf y _

theorem rd_binary (a : TRef sig Ta) (b : TRef sig Tb) (y : TRef sig Ty)
    (f : Ta.Contents Val → Tb.Contents Val → Ty.Contents Val) (F : Valuation τ sig Val) :
    rd ((TRef.binary (τ := τ) a b y f).result F) y = f (rd F a) (rd F b) := by
  unfold rd
  rw [show (TRef.binary (τ := τ) a b y f).result F (Proc.devRef .tc y.ref)
      = y.toBuf (f (a.ofBuf (F (Proc.devRef .tc a.ref))) (b.ofBuf (F (Proc.devRef .tc b.ref))))
      from binary_result _ _ _ _ _ _ _ F]
  exact ofBuf_toBuf y _

theorem rd_ternary (c : TRef sig Tc) (a : TRef sig Ta) (b : TRef sig Tb) (y : TRef sig Ty)
    (f : Tc.Contents Val → Ta.Contents Val → Tb.Contents Val → Ty.Contents Val) (F : Valuation τ sig Val) :
    rd ((TRef.ternary (τ := τ) c a b y f).result F) y = f (rd F c) (rd F a) (rd F b) := by
  unfold rd
  rw [show (TRef.ternary (τ := τ) c a b y f).result F (Proc.devRef .tc y.ref)
      = y.toBuf (f (c.ofBuf (F (Proc.devRef .tc c.ref))) (a.ofBuf (F (Proc.devRef .tc a.ref)))
          (b.ofBuf (F (Proc.devRef .tc b.ref))))
      from ternary_result _ _ _ _ _ _ _ _ _ F]
  exact ofBuf_toBuf y _

/-! ## Another typed reference keeps what it read -/

theorem rd_nullary_ne (y : TRef sig Ty) (v : Ty.Contents Val) (F : Valuation τ sig Val) (z : TRef sig T)
    (h : z.ref ≠ y.ref) : rd ((TRef.nullary (τ := τ) y v).result F) z = rd F z :=
  rd_of_not_mem _ F z fun hm => devRef_ne_of_ne h (Finset.mem_singleton.mp hm)

theorem rd_unary_ne (x : TRef sig Tx) (y : TRef sig Ty) (f : Tx.Contents Val → Ty.Contents Val) (F : Valuation τ sig Val)
    (z : TRef sig T) (h : z.ref ≠ y.ref) : rd ((TRef.unary (τ := τ) x y f).result F) z = rd F z :=
  rd_of_not_mem _ F z fun hm => devRef_ne_of_ne h (Finset.mem_singleton.mp hm)

theorem rd_binary_ne (a : TRef sig Ta) (b : TRef sig Tb) (y : TRef sig Ty)
    (f : Ta.Contents Val → Tb.Contents Val → Ty.Contents Val) (F : Valuation τ sig Val)
    (z : TRef sig T) (h : z.ref ≠ y.ref) : rd ((TRef.binary (τ := τ) a b y f).result F) z = rd F z :=
  rd_of_not_mem _ F z fun hm => devRef_ne_of_ne h (Finset.mem_singleton.mp hm)

theorem rd_ternary_ne (c : TRef sig Tc) (a : TRef sig Ta) (b : TRef sig Tb) (y : TRef sig Ty)
    (f : Tc.Contents Val → Ta.Contents Val → Tb.Contents Val → Ty.Contents Val) (F : Valuation τ sig Val)
    (z : TRef sig T) (h : z.ref ≠ y.ref) : rd ((TRef.ternary (τ := τ) c a b y f).result F) z = rd F z :=
  rd_of_not_mem _ F z fun hm => devRef_ne_of_ne h (Finset.mem_singleton.mp hm)

/-! ## The same facts in the form one simplifier pass uses

The operation is left out of the index: the builders over typed references unfold to projections of the references,
which an index built before the references are known would be keyed on. -/

theorem rd_nullary' (y : TRef sig Ty) (v : Ty.Contents Val) (F : Valuation τ sig Val) :
    rd (HloOp.result (no_index (TRef.nullary (τ := τ) y v)) F) y = v := rd_nullary y v F
theorem rd_unary' (x : TRef sig Tx) (y : TRef sig Ty) (f : Tx.Contents Val → Ty.Contents Val) (F : Valuation τ sig Val) :
    rd (HloOp.result (no_index (TRef.unary (τ := τ) x y f)) F) y = f (rd F x) := rd_unary x y f F
theorem rd_binary' (a : TRef sig Ta) (b : TRef sig Tb) (y : TRef sig Ty)
    (f : Ta.Contents Val → Tb.Contents Val → Ty.Contents Val) (F : Valuation τ sig Val) :
    rd (HloOp.result (no_index (TRef.binary (τ := τ) a b y f)) F) y = f (rd F a) (rd F b) := rd_binary a b y f F
theorem rd_ternary' (c : TRef sig Tc) (a : TRef sig Ta) (b : TRef sig Tb) (y : TRef sig Ty)
    (f : Tc.Contents Val → Ta.Contents Val → Tb.Contents Val → Ty.Contents Val) (F : Valuation τ sig Val) :
    rd (HloOp.result (no_index (TRef.ternary (τ := τ) c a b y f)) F) y = f (rd F c) (rd F a) (rd F b) :=
  rd_ternary c a b y f F

theorem rd_nullary_ne' (y : TRef sig Ty) (v : Ty.Contents Val) (F : Valuation τ sig Val) (z : TRef sig T)
    (h : z.ref ≠ y.ref) : rd (HloOp.result (no_index (TRef.nullary (τ := τ) y v)) F) z = rd F z :=
  rd_nullary_ne y v F z h
theorem rd_unary_ne' (x : TRef sig Tx) (y : TRef sig Ty) (f : Tx.Contents Val → Ty.Contents Val) (F : Valuation τ sig Val)
    (z : TRef sig T) (h : z.ref ≠ y.ref) : rd (HloOp.result (no_index (TRef.unary (τ := τ) x y f)) F) z = rd F z :=
  rd_unary_ne x y f F z h
theorem rd_binary_ne' (a : TRef sig Ta) (b : TRef sig Tb) (y : TRef sig Ty)
    (f : Ta.Contents Val → Tb.Contents Val → Ty.Contents Val) (F : Valuation τ sig Val)
    (z : TRef sig T) (h : z.ref ≠ y.ref) : rd (HloOp.result (no_index (TRef.binary (τ := τ) a b y f)) F) z = rd F z :=
  rd_binary_ne a b y f F z h
theorem rd_ternary_ne' (c : TRef sig Tc) (a : TRef sig Ta) (b : TRef sig Tb) (y : TRef sig Ty)
    (f : Tc.Contents Val → Ta.Contents Val → Tb.Contents Val → Ty.Contents Val) (F : Valuation τ sig Val)
    (z : TRef sig T) (h : z.ref ≠ y.ref) : rd (HloOp.result (no_index (TRef.ternary (τ := τ) c a b y f)) F) z = rd F z :=
  rd_ternary_ne c a b y f F z h

/-- What a line of operations over typed references leaves at a typed reference, as the operations' functions of what
    the line found: one simplifier pass, the references told apart by computation. -/
macro "typed_results" : tactic =>
  `(tactic| (simp (disch := decide) only [after_cons, after_nil,
      rd_nullary', rd_unary', rd_binary', rd_ternary',
      rd_nullary_ne', rd_unary_ne', rd_binary_ne', rd_ternary_ne']))

end Idealize.ShloMosaic.StableHlo.TypedRead

end
-- ==== Proof.LibTakeInRange.lean ====
/-
  A row lookup that fills out-of-range rows, at indices that are all in range.

  A lookup with fill first wraps a negative index by the table's height, then tests the wrapped index against the
  table's range, gathers the rows, and finally keeps a gathered row where the test passed and a fill value where
  it failed. When every index already lies in `[0, N)` the wrap is the identity (no index is negative), the test
  passes everywhere (the mask is all ones), and the selection returns the gathered rows: the fill is never read.
-/
import Idealize.ShloMosaic.Lib.Affine
import Idealize.ShloMosaic.PureOps.Reduce
import Idealize.ShloMosaic.Lib.ValueIdx

noncomputable section

namespace Idealize.ShloMosaic.TakeInRange

open Idealize.ShloMosaic

variable {α : Type}

/-- A selection whose mask is one everywhere is its first branch. -/
theorem select_of_forall_one {T : Shape} (mask : IVec T 1) (a b : T.Idx → α) (h : ∀ j, mask j = 1#1) :
    select mask a b = a := by
  funext j
  show Scalar.select (mask j) (a j) (b j) = a j
  unfold Scalar.select
  exact if_pos (h j)

/-- A selection whose mask is one nowhere is its second branch. -/
theorem select_of_forall_ne_one {T : Shape} (mask : IVec T 1) (a b : T.Idx → α) (h : ∀ j, mask j ≠ 1#1) :
    select mask a b = b := by
  funext j
  show Scalar.select (mask j) (a j) (b j) = b j
  unfold Scalar.select
  exact if_neg (h j)

/-- A left fold by `and` from one over words that are all one is one. -/
theorem foldl_andi_one {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a (List.mem_cons_self ..)]
    exact foldl_andi_one f l fun n hn => h n (List.mem_cons_of_mem _ hn)

/-- A reduction by `and` from the constant one over a mask that is one everywhere is one everywhere. -/
theorem reduce_andi_of_forall_one {s t u : Shape} {axes : List (Fin s.rank)} (x : s.Idx → BitVec 1) (h : s.ReducesTo axes t)
    (hu : 0 < u.numel) (hx : ∀ i, x i = 1#1) (j : t.Idx) :
    Host.reduce IntOp.andi x (constantI u 1 1#1) h hu j = 1#1 := by
  rw [Host.reduce_eq_foldl]
  exact foldl_andi_one x _ fun n _ => hx n

/-- The wrap of negative indices leaves a vector of non-negative indices as it is. -/
theorem wrap_of_nonneg {sI : Shape} (idx zero off : IVec sI 32) (hz : ∀ k, zero k = 0#32)
    (h : ∀ k, 0 ≤ (idx k).toInt) :
    select (cmpi .slt idx zero) (addi idx off) idx = idx := by
  refine select_of_forall_ne_one _ _ _ fun k hk => ?_
  have h1 : (idx k).toInt < (zero k).toInt := IntOp.cmpi_slt.1 hk
  rw [hz k] at h1
  have h0 := h k
  simp at h1
  omega

/-- The range test of a lookup with fill, over indices all inside the range, passes everywhere: every index
    is at least the lower bound and at most the upper bound, so each conjunction is one, so is its reduction
    along the unit axis, and so is the broadcast of that reduction along the rows. -/
theorem range_mask_one {sI s2 sR T u : Shape} {axes : List (Fin s2.rank)}
    (dI : Fin sI.rank → Fin s2.rank) (hI : sI.BroadcastsInDim s2 dI)
    (dM : Fin sR.rank → Fin T.rank) (hM : sR.BroadcastsInDim T dM)
    (hred : s2.ReducesTo axes sR) (hu : 0 < u.numel)
    (idx : IVec sI 32) (lo hi : IVec s2 32) (l h : BitVec 32) (hlo : ∀ i, lo i = l) (hhi : ∀ i, hi i = h)
    (hidx : ∀ k, l.toInt ≤ (idx k).toInt ∧ (idx k).toInt ≤ h.toInt) (j : T.Idx) :
    broadcastInDim T dM hM
      (Host.reduce IntOp.andi
        (andi (cmpi .sge (broadcastInDim s2 dI hI idx) lo) (cmpi .sle (broadcastInDim s2 dI hI idx) hi))
        (constantI u 1 1#1) hred hu) j = 1#1 := by
  unfold broadcastInDim
  refine reduce_andi_of_forall_one _ hred hu (fun i => ?_) _
  show IntOp.andi (IntOp.cmpi .sge (idx _) (lo i)) (IntOp.cmpi .sle (idx _) (hi i)) = 1#1
  rw [hlo i, hhi i]
  exact IntOp.andi_eq_one.2 ⟨IntOp.cmpi_sge.2 (hidx _).1, IntOp.cmpi_sle.2 (hidx _).2⟩

end Idealize.ShloMosaic.TakeInRange

end
-- ==== Proof.Take0.lean ====
/-
  A row lookup with fill, at indices in range, is the plain row lookup: the stretch `hostOps0` leaves in `main_v0` the rows of the table it finds in `main_arg10` at the indices in `main_arg2`.
-/
import proofs.«430915_j14465449853445_1_alg».proof.Proof.Gen.KernelIdeal.Frame
import proofs.«430915_j14465449853445_1_alg».proof.Proof.Stages
import Idealize.ShloMosaic.PureOps.Ideal
import proofs.«430915_j14465449853445_1_alg».proof.Proof.LibTypedRead
import proofs.«430915_j14465449853445_1_alg».proof.Proof.LibTakeInRange

set_option maxRecDepth 16384

noncomputable section

namespace Cert.KernelIdeal.Val

open Idealize.ShloMosaic Idealize.ShloMosaic.TcCoe Idealize.ShloMosaic.StableHlo
open Cert.KernelIdeal Cert.KernelIdeal.Gen

/-- No index is negative, so adding the table's height to the negative ones changes nothing. -/
theorem take0_wrap (idx : IVec S50000 32) (hidx : Cert.Bridge.InRange idx 50000) :
    select (cmpi .slt idx (broadcastInDim S50000 ![] bcast_S_S50000 (constantI S_ 32 0#32)))
      (addi idx (broadcastInDim S50000 ![] bcast_S_S50000 (constantI S_ 32 50000#32))) idx = idx :=
  TakeInRange.wrap_of_nonneg idx _ _ (fun _ => rfl) fun k => (hidx k).1

/-- The plain lookup's own wrap is the identity on the same indices. -/
theorem take0_wrap_plain (idx : IVec S50000 32) (hidx : Cert.Bridge.InRange idx 50000) :
    Cert.Bridge.wrapU idx = idx :=
  TakeInRange.wrap_of_nonneg idx _ _ (fun _ => rfl) fun k => (hidx k).1

/-- The lookup with fill over a table `T` at indices `idx` that all lie in `[0, 50000)`. The wrap is the identity;
    the test `0 ≤ · ≤ 49999` then passes at every index, so its reduction along the unit axis, broadcast along the
    rows, is one everywhere and the selection keeps every gathered row; the fill is never read. What is left is the
    gather of `T` at the indices as a one-column matrix, which is the plain lookup with its wrap taken off. -/
theorem take0_value {F : FTy → Type} [FloatOps F] (T : FVec F S50000x64 .f32) (idx : IVec S50000 32)
    (hidx : Cert.Bridge.InRange idx 50000) :
    select
      (broadcastInDim S50000x64 ![0] bcast_S50000_S50000x64_0
        (Host.reduce IntOp.andi
          (andi
            (cmpi .sge
              (broadcastInDim S50000x1 ![0] bcast_S50000_S50000x1_0
                (select (cmpi .slt idx (broadcastInDim S50000 ![] bcast_S_S50000 (constantI S_ 32 0#32)))
                  (addi idx (broadcastInDim S50000 ![] bcast_S_S50000 (constantI S_ 32 50000#32))) idx))
              (broadcastInDim S50000x1 ![] bcast_S_S50000x1 (constantI S_ 32 0#32)))
            (cmpi .sle
              (broadcastInDim S50000x1 ![0] bcast_S50000_S50000x1_0
                (select (cmpi .slt idx (broadcastInDim S50000 ![] bcast_S_S50000 (constantI S_ 32 0#32)))
                  (addi idx (broadcastInDim S50000 ![] bcast_S_S50000 (constantI S_ 32 50000#32))) idx))
              (broadcastInDim S50000x1 ![0, 1] bcast_S1x1_S50000x1_0_1
                (broadcastInDim S1x1 ![1] bcast_S1_S1x1_1 (constantI S1 32 49999#32)))))
          (constantI S_ 1 1#1) reducesTo_S50000x1_S50000_d1 h_S_))
      (Host.gather gather_S50000x64_S50000x1_S50000x64_1_0_n_n_0_1_164 T
        (broadcastInDim S50000x1 ![0] bcast_S50000_S50000x1_0
          (select (cmpi .slt idx (broadcastInDim S50000 ![] bcast_S_S50000 (constantI S_ 32 0#32)))
            (addi idx (broadcastInDim S50000 ![] bcast_S_S50000 (constantI S_ 32 50000#32))) idx)))
      (broadcastInDim S50000x64 ![] bcast_S_S50000x64 (constant S_ .f32 0x7FC00000#32))
    = Cert.Bridge.rowsU T idx := by
  rw [take0_wrap idx hidx]
  have hlo : (0#32 : BitVec 32).toInt = 0 := by decide
  have hhi : (49999#32 : BitVec 32).toInt = 49999 := by decide
  refine (TakeInRange.select_of_forall_one _ _ _ fun j => ?_).trans ?_
  · -- both bounds are constant vectors, and every index lies between them
    exact TakeInRange.range_mask_one _ _ _ _ _ _ idx _ _ 0#32 49999#32 (fun _ => rfl) (fun _ => rfl)
      (fun k => ⟨by rw [hlo]; exact (hidx k).1, by rw [hhi]; have := (hidx k).2; omega⟩) j
  · -- the two gathers have the same dimension numbers, table and indices
    unfold Cert.Bridge.rowsU
    rw [take0_wrap_plain idx hidx]
    rfl

/-- A row lookup with fill, at indices in range, is the plain row lookup: the stretch `hostOps0` leaves in `main_v0` the rows of the table it finds in `main_arg10` at the indices in `main_arg2`. -/
theorem take0 (Wv : Valuation τ sig (Elt Ideal))
    (hidx : Cert.Bridge.InRange (Wv (Proc.devRef .tc main_arg2)) 50000) :
    StableHlo.after (hostOps0 (F := Ideal)) Wv (Proc.devRef .tc main_v0)
      = Cert.Bridge.rowsU (F := Ideal) (Wv (Proc.devRef .tc main_arg10)) (Wv (Proc.devRef .tc main_arg2)) := by
  -- the output buffer read at its own type, as the operations' functions of what the stretch found
  show TypedRead.rd (StableHlo.after hostOps0 Wv) (.of main_v0 : TRef sig ⟨S50000x64, .f32⟩) = _
  typed_results
  -- the two buffers the stretch reads and does not write: the indices and the table
  have hI : TypedRead.rd Wv (.of main_arg2 : TRef sig ⟨S50000, .i32⟩) = Wv (Proc.devRef .tc main_arg2) := rfl
  have hT : TypedRead.rd Wv (.of main_arg10 : TRef sig ⟨S50000x64, .f32⟩) = Wv (Proc.devRef .tc main_arg10) := rfl
  rw [hI, hT]
  exact take0_value (F := Ideal) (Wv (Proc.devRef .tc main_arg10)) (Wv (Proc.devRef .tc main_arg2)) hidx

end Cert.KernelIdeal.Val

end
-- ==== Proof.Take1.lean ====
/- A row lookup with fill, at indices in range, is the plain row lookup: the stretch `hostOps0_1` leaves in `main_v1` the rows of the table it finds in `main_arg11` at the indices in `main_arg3`.
-/
import proofs.«430915_j14465449853445_1_alg».proof.Proof.Gen.KernelIdeal.Frame
import proofs.«430915_j14465449853445_1_alg».proof.Proof.Stages
import Idealize.ShloMosaic.PureOps.Ideal
import proofs.«430915_j14465449853445_1_alg».proof.Proof.LibTypedRead
import proofs.«430915_j14465449853445_1_alg».proof.Proof.LibTakeInRange

set_option maxRecDepth 16384

noncomputable section

namespace Cert.KernelIdeal.Val

open Idealize.ShloMosaic Idealize.ShloMosaic.TcCoe Idealize.ShloMosaic.StableHlo
open Cert.KernelIdeal Cert.KernelIdeal.Gen

/-- No index is negative, so adding the table's height to the negative ones changes nothing. -/
theorem take1_wrap (idx : IVec S100000 32) (hidx : Cert.Bridge.InRange idx 100000) :
    select (cmpi .slt idx (broadcastInDim S100000 ![] bcast_S_S100000 (constantI S_ 32 0#32)))
      (addi idx (broadcastInDim S100000 ![] bcast_S_S100000 (constantI S_ 32 100000#32))) idx = idx :=
  TakeInRange.wrap_of_nonneg idx _ _ (fun _ => rfl) fun k => (hidx k).1

/-- The plain lookup's own wrap is the identity on the same indices. -/
theorem take1_wrap_plain (idx : IVec S100000 32) (hidx : Cert.Bridge.InRange idx 100000) :
    Cert.Bridge.wrapR idx = idx :=
  TakeInRange.wrap_of_nonneg idx _ _ (fun _ => rfl) fun k => (hidx k).1

/-- The lookup with fill over a table `T` at indices `idx` that all lie in `[0, 100000)`. The wrap is the identity;
    the test `0 ≤ · ≤ 99999` then passes at every index, so its reduction along the unit axis, broadcast along the
    rows, is one everywhere and the selection keeps every gathered row; the fill is never read. What is left is the
    gather of `T` at the indices as a one-column matrix, which is the plain lookup with its wrap taken off. -/
theorem take1_value {F : FTy → Type} [FloatOps F] (T : FVec F S100000x64 .f32) (idx : IVec S100000 32)
    (hidx : Cert.Bridge.InRange idx 100000) :
    select
      (broadcastInDim S100000x64 ![0] bcast_S100000_S100000x64_0
        (Host.reduce IntOp.andi
          (andi
            (cmpi .sge
              (broadcastInDim S100000x1 ![0] bcast_S100000_S100000x1_0
                (select (cmpi .slt idx (broadcastInDim S100000 ![] bcast_S_S100000 (constantI S_ 32 0#32)))
                  (addi idx (broadcastInDim S100000 ![] bcast_S_S100000 (constantI S_ 32 100000#32))) idx))
              (broadcastInDim S100000x1 ![] bcast_S_S100000x1 (constantI S_ 32 0#32)))
            (cmpi .sle
              (broadcastInDim S100000x1 ![0] bcast_S100000_S100000x1_0
                (select (cmpi .slt idx (broadcastInDim S100000 ![] bcast_S_S100000 (constantI S_ 32 0#32)))
                  (addi idx (broadcastInDim S100000 ![] bcast_S_S100000 (constantI S_ 32 100000#32))) idx))
              (broadcastInDim S100000x1 ![0, 1] bcast_S1x1_S100000x1_0_1
                (broadcastInDim S1x1 ![1] bcast_S1_S1x1_1 (constantI S1 32 99999#32)))))
          (constantI S_ 1 1#1) reducesTo_S100000x1_S100000_d1 h_S_))
      (Host.gather gather_S100000x64_S100000x1_S100000x64_1_0_n_n_0_1_164 T
        (broadcastInDim S100000x1 ![0] bcast_S100000_S100000x1_0
          (select (cmpi .slt idx (broadcastInDim S100000 ![] bcast_S_S100000 (constantI S_ 32 0#32)))
            (addi idx (broadcastInDim S100000 ![] bcast_S_S100000 (constantI S_ 32 100000#32))) idx)))
      (broadcastInDim S100000x64 ![] bcast_S_S100000x64 (constant S_ .f32 0x7FC00000#32))
    = Cert.Bridge.rowsR T idx := by
  rw [take1_wrap idx hidx]
  have hlo : (0#32 : BitVec 32).toInt = 0 := by decide
  have hhi : (99999#32 : BitVec 32).toInt = 99999 := by decide
  refine (TakeInRange.select_of_forall_one _ _ _ fun j => ?_).trans ?_
  · -- both bounds are constant vectors, and every index lies between them
    exact TakeInRange.range_mask_one _ _ _ _ _ _ idx _ _ 0#32 99999#32 (fun _ => rfl) (fun _ => rfl)
      (fun k => ⟨by rw [hlo]; exact (hidx k).1, by rw [hhi]; have := (hidx k).2; omega⟩) j
  · -- the two gathers have the same dimension numbers, table and indices
    unfold Cert.Bridge.rowsR
    rw [take1_wrap_plain idx hidx]
    rfl

/-- A row lookup with fill, at indices in range, is the plain row lookup: the stretch `hostOps0_1` leaves in `main_v1` the rows of the table it finds in `main_arg11` at the indices in `main_arg3`. -/
theorem take1 (Wv : Valuation τ sig (Elt Ideal))
    (hidx : Cert.Bridge.InRange (Wv (Proc.devRef .tc main_arg3)) 100000) :
    StableHlo.after (hostOps0_1 (F := Ideal)) Wv (Proc.devRef .tc main_v1)
      = Cert.Bridge.rowsR (F := Ideal) (Wv (Proc.devRef .tc main_arg11)) (Wv (Proc.devRef .tc main_arg3)) := by
  -- the output buffer read at its own type, as the operations' functions of what the stretch found
  show TypedRead.rd (StableHlo.after hostOps0_1 Wv) (.of main_v1 : TRef sig ⟨S100000x64, .f32⟩) = _
  typed_results
  -- the two buffers the stretch reads and does not write: the indices and the table
  have hI : TypedRead.rd Wv (.of main_arg3 : TRef sig ⟨S100000, .i32⟩) = Wv (Proc.devRef .tc main_arg3) := rfl
  have hT : TypedRead.rd Wv (.of main_arg11 : TRef sig ⟨S100000x64, .f32⟩) = Wv (Proc.devRef .tc main_arg11) := rfl
  rw [hI, hT]
  exact take1_value (F := Ideal) (Wv (Proc.devRef .tc main_arg11)) (Wv (Proc.devRef .tc main_arg3)) hidx

end Cert.KernelIdeal.Val

end
-- ==== Proof.Take2.lean ====
/- A row lookup with fill, at indices in range, is the plain row lookup: the stretch `hostOps2` leaves in `main_v6` the rows of the table it finds in `main_v5` at the indices in `main_arg5`.
-/
import proofs.«430915_j14465449853445_1_alg».proof.Proof.Gen.KernelIdeal.Frame
import proofs.«430915_j14465449853445_1_alg».proof.Proof.Stages
import Idealize.ShloMosaic.PureOps.Ideal
import proofs.«430915_j14465449853445_1_alg».proof.Proof.LibTypedRead
import proofs.«430915_j14465449853445_1_alg».proof.Proof.LibTakeInRange

set_option maxRecDepth 16384

noncomputable section

namespace Cert.KernelIdeal.Val

open Idealize.ShloMosaic Idealize.ShloMosaic.TcCoe Idealize.ShloMosaic.StableHlo
open Cert.KernelIdeal Cert.KernelIdeal.Gen

/-- No index is negative, so adding the table's height to the negative ones changes nothing. -/
theorem take2_wrap (idx : IVec S1000000 32) (hidx : Cert.Bridge.InRange idx 100000) :
    select (cmpi .slt idx (broadcastInDim S1000000 ![] bcast_S_S1000000 (constantI S_ 32 0#32)))
      (addi idx (broadcastInDim S1000000 ![] bcast_S_S1000000 (constantI S_ 32 100000#32))) idx = idx :=
  TakeInRange.wrap_of_nonneg idx _ _ (fun _ => rfl) fun k => (hidx k).1

/-- The plain lookup's own wrap is the identity on the same indices. -/
theorem take2_wrap_plain (idx : IVec S1000000 32) (hidx : Cert.Bridge.InRange idx 100000) :
    Cert.Bridge.wrapRE idx = idx :=
  TakeInRange.wrap_of_nonneg idx _ _ (fun _ => rfl) fun k => (hidx k).1

/-- The lookup with fill over a table `T` at indices `idx` that all lie in `[0, 100000)`. The wrap is the identity;
    the test `0 ≤ · ≤ 99999` then passes at every index, so its reduction along the unit axis, broadcast along the
    rows, is one everywhere and the selection keeps every gathered row; the fill is never read. What is left is the
    gather of `T` at the indices as a one-column matrix, which is the plain lookup with its wrap taken off. -/
theorem take2_value {F : FTy → Type} [FloatOps F] (T : FVec F S100000x64 .f32) (idx : IVec S1000000 32)
    (hidx : Cert.Bridge.InRange idx 100000) :
    select
      (broadcastInDim S1000000x64 ![0] bcast_S1000000_S1000000x64_0
        (Host.reduce IntOp.andi
          (andi
            (cmpi .sge
              (broadcastInDim S1000000x1 ![0] bcast_S1000000_S1000000x1_0
                (select (cmpi .slt idx (broadcastInDim S1000000 ![] bcast_S_S1000000 (constantI S_ 32 0#32)))
                  (addi idx (broadcastInDim S1000000 ![] bcast_S_S1000000 (constantI S_ 32 100000#32))) idx))
              (broadcastInDim S1000000x1 ![] bcast_S_S1000000x1 (constantI S_ 32 0#32)))
            (cmpi .sle
              (broadcastInDim S1000000x1 ![0] bcast_S1000000_S1000000x1_0
                (select (cmpi .slt idx (broadcastInDim S1000000 ![] bcast_S_S1000000 (constantI S_ 32 0#32)))
                  (addi idx (broadcastInDim S1000000 ![] bcast_S_S1000000 (constantI S_ 32 100000#32))) idx))
              (broadcastInDim S1000000x1 ![0, 1] bcast_S1x1_S1000000x1_0_1
                (broadcastInDim S1x1 ![1] bcast_S1_S1x1_1 (constantI S1 32 99999#32)))))
          (constantI S_ 1 1#1) reducesTo_S1000000x1_S1000000_d1 h_S_))
      (Host.gather gather_S100000x64_S1000000x1_S1000000x64_1_0_n_n_0_1_164 T
        (broadcastInDim S1000000x1 ![0] bcast_S1000000_S1000000x1_0
          (select (cmpi .slt idx (broadcastInDim S1000000 ![] bcast_S_S1000000 (constantI S_ 32 0#32)))
            (addi idx (broadcastInDim S1000000 ![] bcast_S_S1000000 (constantI S_ 32 100000#32))) idx)))
      (broadcastInDim S1000000x64 ![] bcast_S_S1000000x64 (constant S_ .f32 0x7FC00000#32))
    = Cert.Bridge.rowsRE T idx := by
  rw [take2_wrap idx hidx]
  have hlo : (0#32 : BitVec 32).toInt = 0 := by decide
  have hhi : (99999#32 : BitVec 32).toInt = 99999 := by decide
  refine (TakeInRange.select_of_forall_one _ _ _ fun j => ?_).trans ?_
  · -- both bounds are constant vectors, and every index lies between them
    exact TakeInRange.range_mask_one _ _ _ _ _ _ idx _ _ 0#32 99999#32 (fun _ => rfl) (fun _ => rfl)
      (fun k => ⟨by rw [hlo]; exact (hidx k).1, by rw [hhi]; have := (hidx k).2; omega⟩) j
  · -- the two gathers have the same dimension numbers, table and indices
    unfold Cert.Bridge.rowsRE
    rw [take2_wrap_plain idx hidx]
    rfl

/-- A row lookup with fill, at indices in range, is the plain row lookup: the stretch `hostOps2` leaves in `main_v6` the rows of the table it finds in `main_v5` at the indices in `main_arg5`. -/
theorem take2 (Wv : Valuation τ sig (Elt Ideal))
    (hidx : Cert.Bridge.InRange (Wv (Proc.devRef .tc main_arg5)) 100000) :
    StableHlo.after (hostOps2 (F := Ideal)) Wv (Proc.devRef .tc main_v6)
      = Cert.Bridge.rowsRE (F := Ideal) (Wv (Proc.devRef .tc main_v5)) (Wv (Proc.devRef .tc main_arg5)) := by
  -- the output buffer read at its own type, as the operations' functions of what the stretch found
  show TypedRead.rd (StableHlo.after hostOps2 Wv) (.of main_v6 : TRef sig ⟨S1000000x64, .f32⟩) = _
  typed_results
  -- the two buffers the stretch reads and does not write: the indices and the table
  have hI : TypedRead.rd Wv (.of main_arg5 : TRef sig ⟨S1000000, .i32⟩) = Wv (Proc.devRef .tc main_arg5) := rfl
  have hT : TypedRead.rd Wv (.of main_v5 : TRef sig ⟨S100000x64, .f32⟩) = Wv (Proc.devRef .tc main_v5) := rfl
  rw [hI, hT]
  exact take2_value (F := Ideal) (Wv (Proc.devRef .tc main_v5)) (Wv (Proc.devRef .tc main_arg5)) hidx

end Cert.KernelIdeal.Val

end
-- ==== Proof.Take3.lean ====
/- A row lookup with fill, at indices in range, is the plain row lookup: the stretch `hostOps3` leaves in `main_v21` the rows of the table it finds in `main_v3` at the indices in `main_arg4`.
-/
import proofs.«430915_j14465449853445_1_alg».proof.Proof.Gen.KernelIdeal.Frame
import proofs.«430915_j14465449853445_1_alg».proof.Proof.Stages
import Idealize.ShloMosaic.PureOps.Ideal
import proofs.«430915_j14465449853445_1_alg».proof.Proof.LibTypedRead
import proofs.«430915_j14465449853445_1_alg».proof.Proof.LibTakeInRange

set_option maxRecDepth 16384

noncomputable section

namespace Cert.KernelIdeal.Val

open Idealize.ShloMosaic Idealize.ShloMosaic.TcCoe Idealize.ShloMosaic.StableHlo
open Cert.KernelIdeal Cert.KernelIdeal.Gen

/-- No index is negative, so adding the table's height to the negative ones changes nothing. -/
theorem take3_wrap (idx : IVec S1000000 32) (hidx : Cert.Bridge.InRange idx 50000) :
    select (cmpi .slt idx (broadcastInDim S1000000 ![] bcast_S_S1000000 (constantI S_ 32 0#32)))
      (addi idx (broadcastInDim S1000000 ![] bcast_S_S1000000 (constantI S_ 32 50000#32))) idx = idx :=
  TakeInRange.wrap_of_nonneg idx _ _ (fun _ => rfl) fun k => (hidx k).1

/-- The plain lookup's own wrap is the identity on the same indices. -/
theorem take3_wrap_plain (idx : IVec S1000000 32) (hidx : Cert.Bridge.InRange idx 50000) :
    Cert.Bridge.wrapUE idx = idx :=
  TakeInRange.wrap_of_nonneg idx _ _ (fun _ => rfl) fun k => (hidx k).1

/-- The lookup with fill over a table `T` at indices `idx` that all lie in `[0, 50000)`. The wrap is the identity;
    the test `0 ≤ · ≤ 49999` then passes at every index, so its reduction along the unit axis, broadcast along the
    rows, is one everywhere and the selection keeps every gathered row; the fill is never read. What is left is the
    gather of `T` at the indices as a one-column matrix, which is the plain lookup with its wrap taken off. -/
theorem take3_value {F : FTy → Type} [FloatOps F] (T : FVec F S50000x64 .f32) (idx : IVec S1000000 32)
    (hidx : Cert.Bridge.InRange idx 50000) :
    select
      (broadcastInDim S1000000x64 ![0] bcast_S1000000_S1000000x64_0
        (Host.reduce IntOp.andi
          (andi
            (cmpi .sge
              (broadcastInDim S1000000x1 ![0] bcast_S1000000_S1000000x1_0
                (select (cmpi .slt idx (broadcastInDim S1000000 ![] bcast_S_S1000000 (constantI S_ 32 0#32)))
                  (addi idx (broadcastInDim S1000000 ![] bcast_S_S1000000 (constantI S_ 32 50000#32))) idx))
              (broadcastInDim S1000000x1 ![] bcast_S_S1000000x1 (constantI S_ 32 0#32)))
            (cmpi .sle
              (broadcastInDim S1000000x1 ![0] bcast_S1000000_S1000000x1_0
                (select (cmpi .slt idx (broadcastInDim S1000000 ![] bcast_S_S1000000 (constantI S_ 32 0#32)))
                  (addi idx (broadcastInDim S1000000 ![] bcast_S_S1000000 (constantI S_ 32 50000#32))) idx))
              (broadcastInDim S1000000x1 ![0, 1] bcast_S1x1_S1000000x1_0_1
                (broadcastInDim S1x1 ![1] bcast_S1_S1x1_1 (constantI S1 32 49999#32)))))
          (constantI S_ 1 1#1) reducesTo_S1000000x1_S1000000_d1 h_S_))
      (Host.gather gather_S50000x64_S1000000x1_S1000000x64_1_0_n_n_0_1_164 T
        (broadcastInDim S1000000x1 ![0] bcast_S1000000_S1000000x1_0
          (select (cmpi .slt idx (broadcastInDim S1000000 ![] bcast_S_S1000000 (constantI S_ 32 0#32)))
            (addi idx (broadcastInDim S1000000 ![] bcast_S_S1000000 (constantI S_ 32 50000#32))) idx)))
      (broadcastInDim S1000000x64 ![] bcast_S_S1000000x64 (constant S_ .f32 0x7FC00000#32))
    = Cert.Bridge.rowsUE T idx := by
  rw [take3_wrap idx hidx]
  have hlo : (0#32 : BitVec 32).toInt = 0 := by decide
  have hhi : (49999#32 : BitVec 32).toInt = 49999 := by decide
  refine (TakeInRange.select_of_forall_one _ _ _ fun j => ?_).trans ?_
  · -- both bounds are constant vectors, and every index lies between them
    exact TakeInRange.range_mask_one _ _ _ _ _ _ idx _ _ 0#32 49999#32 (fun _ => rfl) (fun _ => rfl)
      (fun k => ⟨by rw [hlo]; exact (hidx k).1, by rw [hhi]; have := (hidx k).2; omega⟩) j
  · -- the two gathers have the same dimension numbers, table and indices
    unfold Cert.Bridge.rowsUE
    rw [take3_wrap_plain idx hidx]
    rfl

/-- A row lookup with fill, at indices in range, is the plain row lookup: the stretch `hostOps3` leaves in `main_v21` the rows of the table it finds in `main_v3` at the indices in `main_arg4`. -/
theorem take3 (Wv : Valuation τ sig (Elt Ideal))
    (hidx : Cert.Bridge.InRange (Wv (Proc.devRef .tc main_arg4)) 50000) :
    StableHlo.after (hostOps3 (F := Ideal)) Wv (Proc.devRef .tc main_v21)
      = Cert.Bridge.rowsUE (F := Ideal) (Wv (Proc.devRef .tc main_v3)) (Wv (Proc.devRef .tc main_arg4)) := by
  -- the output buffer read at its own type, as the operations' functions of what the stretch found
  show TypedRead.rd (StableHlo.after hostOps3 Wv) (.of main_v21 : TRef sig ⟨S1000000x64, .f32⟩) = _
  typed_results
  -- the two buffers the stretch reads and does not write: the indices and the table
  have hI : TypedRead.rd Wv (.of main_arg4 : TRef sig ⟨S1000000, .i32⟩) = Wv (Proc.devRef .tc main_arg4) := rfl
  have hT : TypedRead.rd Wv (.of main_v3 : TRef sig ⟨S50000x64, .f32⟩) = Wv (Proc.devRef .tc main_v3) := rfl
  rw [hI, hT]
  exact take3_value (F := Ideal) (Wv (Proc.devRef .tc main_v3)) (Wv (Proc.devRef .tc main_arg4)) hidx

end Cert.KernelIdeal.Val

end
-- ==== Proof.Take4.lean ====
/- A row lookup with fill, at indices in range, is the plain row lookup: the stretch `hostOps4` leaves in `main_v36` the rows of the table it finds in `main_v35` at the indices in `main_arg5`.
-/
import proofs.«430915_j14465449853445_1_alg».proof.Proof.Gen.KernelIdeal.Frame
import proofs.«430915_j14465449853445_1_alg».proof.Proof.Stages
import Idealize.ShloMosaic.PureOps.Ideal
import proofs.«430915_j14465449853445_1_alg».proof.Proof.LibTypedRead
import proofs.«430915_j14465449853445_1_alg».proof.Proof.LibTakeInRange

set_option maxRecDepth 16384

noncomputable section

namespace Cert.KernelIdeal.Val

open Idealize.ShloMosaic Idealize.ShloMosaic.TcCoe Idealize.ShloMosaic.StableHlo
open Cert.KernelIdeal Cert.KernelIdeal.Gen

/-- No index is negative, so adding the table's height to the negative ones changes nothing. -/
theorem take4_wrap (idx : IVec S1000000 32) (hidx : Cert.Bridge.InRange idx 100000) :
    select (cmpi .slt idx (broadcastInDim S1000000 ![] bcast_S_S1000000 (constantI S_ 32 0#32)))
      (addi idx (broadcastInDim S1000000 ![] bcast_S_S1000000 (constantI S_ 32 100000#32))) idx = idx :=
  TakeInRange.wrap_of_nonneg idx _ _ (fun _ => rfl) fun k => (hidx k).1

/-- The plain lookup's own wrap is the identity on the same indices. -/
theorem take4_wrap_plain (idx : IVec S1000000 32) (hidx : Cert.Bridge.InRange idx 100000) :
    Cert.Bridge.wrapRE idx = idx :=
  TakeInRange.wrap_of_nonneg idx _ _ (fun _ => rfl) fun k => (hidx k).1

/-- The lookup with fill over a table `T` at indices `idx` that all lie in `[0, 100000)`. The wrap is the identity;
    the test `0 ≤ · ≤ 99999` then passes at every index, so its reduction along the unit axis, broadcast along the
    rows, is one everywhere and the selection keeps every gathered row; the fill is never read. What is left is the
    gather of `T` at the indices as a one-column matrix, which is the plain lookup with its wrap taken off. -/
theorem take4_value {F : FTy → Type} [FloatOps F] (T : FVec F S100000x64 .f32) (idx : IVec S1000000 32)
    (hidx : Cert.Bridge.InRange idx 100000) :
    select
      (broadcastInDim S1000000x64 ![0] bcast_S1000000_S1000000x64_0
        (Host.reduce IntOp.andi
          (andi
            (cmpi .sge
              (broadcastInDim S1000000x1 ![0] bcast_S1000000_S1000000x1_0
                (select (cmpi .slt idx (broadcastInDim S1000000 ![] bcast_S_S1000000 (constantI S_ 32 0#32)))
                  (addi idx (broadcastInDim S1000000 ![] bcast_S_S1000000 (constantI S_ 32 100000#32))) idx))
              (broadcastInDim S1000000x1 ![] bcast_S_S1000000x1 (constantI S_ 32 0#32)))
            (cmpi .sle
              (broadcastInDim S1000000x1 ![0] bcast_S1000000_S1000000x1_0
                (select (cmpi .slt idx (broadcastInDim S1000000 ![] bcast_S_S1000000 (constantI S_ 32 0#32)))
                  (addi idx (broadcastInDim S1000000 ![] bcast_S_S1000000 (constantI S_ 32 100000#32))) idx))
              (broadcastInDim S1000000x1 ![0, 1] bcast_S1x1_S1000000x1_0_1
                (broadcastInDim S1x1 ![1] bcast_S1_S1x1_1 (constantI S1 32 99999#32)))))
          (constantI S_ 1 1#1) reducesTo_S1000000x1_S1000000_d1 h_S_))
      (Host.gather gather_S100000x64_S1000000x1_S1000000x64_1_0_n_n_0_1_164 T
        (broadcastInDim S1000000x1 ![0] bcast_S1000000_S1000000x1_0
          (select (cmpi .slt idx (broadcastInDim S1000000 ![] bcast_S_S1000000 (constantI S_ 32 0#32)))
            (addi idx (broadcastInDim S1000000 ![] bcast_S_S1000000 (constantI S_ 32 100000#32))) idx)))
      (broadcastInDim S1000000x64 ![] bcast_S_S1000000x64 (constant S_ .f32 0x7FC00000#32))
    = Cert.Bridge.rowsRE T idx := by
  rw [take4_wrap idx hidx]
  have hlo : (0#32 : BitVec 32).toInt = 0 := by decide
  have hhi : (99999#32 : BitVec 32).toInt = 99999 := by decide
  refine (TakeInRange.select_of_forall_one _ _ _ fun j => ?_).trans ?_
  · -- both bounds are constant vectors, and every index lies between them
    exact TakeInRange.range_mask_one _ _ _ _ _ _ idx _ _ 0#32 99999#32 (fun _ => rfl) (fun _ => rfl)
      (fun k => ⟨by rw [hlo]; exact (hidx k).1, by rw [hhi]; have := (hidx k).2; omega⟩) j
  · -- the two gathers have the same dimension numbers, table and indices
    unfold Cert.Bridge.rowsRE
    rw [take4_wrap_plain idx hidx]
    rfl

/-- A row lookup with fill, at indices in range, is the plain row lookup: the stretch `hostOps4` leaves in `main_v36` the rows of the table it finds in `main_v35` at the indices in `main_arg5`. -/
theorem take4 (Wv : Valuation τ sig (Elt Ideal))
    (hidx : Cert.Bridge.InRange (Wv (Proc.devRef .tc main_arg5)) 100000) :
    StableHlo.after (hostOps4 (F := Ideal)) Wv (Proc.devRef .tc main_v36)
      = Cert.Bridge.rowsRE (F := Ideal) (Wv (Proc.devRef .tc main_v35)) (Wv (Proc.devRef .tc main_arg5)) := by
  -- the output buffer read at its own type, as the operations' functions of what the stretch found
  show TypedRead.rd (StableHlo.after hostOps4 Wv) (.of main_v36 : TRef sig ⟨S1000000x64, .f32⟩) = _
  typed_results
  -- the two buffers the stretch reads and does not write: the indices and the table
  have hI : TypedRead.rd Wv (.of main_arg5 : TRef sig ⟨S1000000, .i32⟩) = Wv (Proc.devRef .tc main_arg5) := rfl
  have hT : TypedRead.rd Wv (.of main_v35 : TRef sig ⟨S100000x64, .f32⟩) = Wv (Proc.devRef .tc main_v35) := rfl
  rw [hI, hT]
  exact take4_value (F := Ideal) (Wv (Proc.devRef .tc main_v35)) (Wv (Proc.devRef .tc main_arg5)) hidx

end Cert.KernelIdeal.Val

end
-- ==== Proof.Take5.lean ====
/- A row lookup with fill, at indices in range, is the plain row lookup: the stretch `hostOps5` leaves in `main_v51` the rows of the table it finds in `main_v20` at the indices in `main_arg4`.
-/
import proofs.«430915_j14465449853445_1_alg».proof.Proof.Gen.KernelIdeal.Frame
import proofs.«430915_j14465449853445_1_alg».proof.Proof.Stages
import Idealize.ShloMosaic.PureOps.Ideal
import proofs.«430915_j14465449853445_1_alg».proof.Proof.LibTypedRead
import proofs.«430915_j14465449853445_1_alg».proof.Proof.LibTakeInRange

set_option maxRecDepth 16384

noncomputable section

namespace Cert.KernelIdeal.Val

open Idealize.ShloMosaic Idealize.ShloMosaic.TcCoe Idealize.ShloMosaic.StableHlo
open Cert.KernelIdeal Cert.KernelIdeal.Gen

/-- No index is negative, so adding the table's height to the negative ones changes nothing. -/
theorem take5_wrap (idx : IVec S1000000 32) (hidx : Cert.Bridge.InRange idx 50000) :
    select (cmpi .slt idx (broadcastInDim S1000000 ![] bcast_S_S1000000 (constantI S_ 32 0#32)))
      (addi idx (broadcastInDim S1000000 ![] bcast_S_S1000000 (constantI S_ 32 50000#32))) idx = idx :=
  TakeInRange.wrap_of_nonneg idx _ _ (fun _ => rfl) fun k => (hidx k).1

/-- The plain lookup's own wrap is the identity on the same indices. -/
theorem take5_wrap_plain (idx : IVec S1000000 32) (hidx : Cert.Bridge.InRange idx 50000) :
    Cert.Bridge.wrapUE idx = idx :=
  TakeInRange.wrap_of_nonneg idx _ _ (fun _ => rfl) fun k => (hidx k).1

/-- The lookup with fill over a table `T` at indices `idx` that all lie in `[0, 50000)`. The wrap is the identity;
    the test `0 ≤ · ≤ 49999` then passes at every index, so its reduction along the unit axis, broadcast along the
    rows, is one everywhere and the selection keeps every gathered row; the fill is never read. What is left is the
    gather of `T` at the indices as a one-column matrix, which is the plain lookup with its wrap taken off. -/
theorem take5_value {F : FTy → Type} [FloatOps F] (T : FVec F S50000x64 .f32) (idx : IVec S1000000 32)
    (hidx : Cert.Bridge.InRange idx 50000) :
    select
      (broadcastInDim S1000000x64 ![0] bcast_S1000000_S1000000x64_0
        (Host.reduce IntOp.andi
          (andi
            (cmpi .sge
              (broadcastInDim S1000000x1 ![0] bcast_S1000000_S1000000x1_0
                (select (cmpi .slt idx (broadcastInDim S1000000 ![] bcast_S_S1000000 (constantI S_ 32 0#32)))
                  (addi idx (broadcastInDim S1000000 ![] bcast_S_S1000000 (constantI S_ 32 50000#32))) idx))
              (broadcastInDim S1000000x1 ![] bcast_S_S1000000x1 (constantI S_ 32 0#32)))
            (cmpi .sle
              (broadcastInDim S1000000x1 ![0] bcast_S1000000_S1000000x1_0
                (select (cmpi .slt idx (broadcastInDim S1000000 ![] bcast_S_S1000000 (constantI S_ 32 0#32)))
                  (addi idx (broadcastInDim S1000000 ![] bcast_S_S1000000 (constantI S_ 32 50000#32))) idx))
              (broadcastInDim S1000000x1 ![0, 1] bcast_S1x1_S1000000x1_0_1
                (broadcastInDim S1x1 ![1] bcast_S1_S1x1_1 (constantI S1 32 49999#32)))))
          (constantI S_ 1 1#1) reducesTo_S1000000x1_S1000000_d1 h_S_))
      (Host.gather gather_S50000x64_S1000000x1_S1000000x64_1_0_n_n_0_1_164 T
        (broadcastInDim S1000000x1 ![0] bcast_S1000000_S1000000x1_0
          (select (cmpi .slt idx (broadcastInDim S1000000 ![] bcast_S_S1000000 (constantI S_ 32 0#32)))
            (addi idx (broadcastInDim S1000000 ![] bcast_S_S1000000 (constantI S_ 32 50000#32))) idx)))
      (broadcastInDim S1000000x64 ![] bcast_S_S1000000x64 (constant S_ .f32 0x7FC00000#32))
    = Cert.Bridge.rowsUE T idx := by
  rw [take5_wrap idx hidx]
  have hlo : (0#32 : BitVec 32).toInt = 0 := by decide
  have hhi : (49999#32 : BitVec 32).toInt = 49999 := by decide
  refine (TakeInRange.select_of_forall_one _ _ _ fun j => ?_).trans ?_
  · -- both bounds are constant vectors, and every index lies between them
    exact TakeInRange.range_mask_one _ _ _ _ _ _ idx _ _ 0#32 49999#32 (fun _ => rfl) (fun _ => rfl)
      (fun k => ⟨by rw [hlo]; exact (hidx k).1, by rw [hhi]; have := (hidx k).2; omega⟩) j
  · -- the two gathers have the same dimension numbers, table and indices
    unfold Cert.Bridge.rowsUE
    rw [take5_wrap_plain idx hidx]
    rfl

/-- A row lookup with fill, at indices in range, is the plain row lookup: the stretch `hostOps5` leaves in `main_v51` the rows of the table it finds in `main_v20` at the indices in `main_arg4`. -/
theorem take5 (Wv : Valuation τ sig (Elt Ideal))
    (hidx : Cert.Bridge.InRange (Wv (Proc.devRef .tc main_arg4)) 50000) :
    StableHlo.after (hostOps5 (F := Ideal)) Wv (Proc.devRef .tc main_v51)
      = Cert.Bridge.rowsUE (F := Ideal) (Wv (Proc.devRef .tc main_v20)) (Wv (Proc.devRef .tc main_arg4)) := by
  -- the output buffer read at its own type, as the operations' functions of what the stretch found
  show TypedRead.rd (StableHlo.after hostOps5 Wv) (.of main_v51 : TRef sig ⟨S1000000x64, .f32⟩) = _
  typed_results
  -- the two buffers the stretch reads and does not write: the indices and the table
  have hI : TypedRead.rd Wv (.of main_arg4 : TRef sig ⟨S1000000, .i32⟩) = Wv (Proc.devRef .tc main_arg4) := rfl
  have hT : TypedRead.rd Wv (.of main_v20 : TRef sig ⟨S50000x64, .f32⟩) = Wv (Proc.devRef .tc main_v20) := rfl
  rw [hI, hT]
  exact take5_value (F := Ideal) (Wv (Proc.devRef .tc main_v20)) (Wv (Proc.devRef .tc main_arg4)) hidx

end Cert.KernelIdeal.Val

end
-- ==== Proof.Rows.lean ====
/-
  The two one-operation stretches before the input-stage launches: each reshapes a bias vector of 64 entries to a one-row matrix, which reads the same entries as the broadcast along a new leading axis.
-/
import proofs.«430915_j14465449853445_1_alg».proof.Proof.Gen.KernelIdeal.Frame
import proofs.«430915_j14465449853445_1_alg».proof.Proof.Stages
import Idealize.ShloMosaic.PureOps.Ideal
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Val

open Idealize.ShloMosaic Idealize.ShloMosaic.TcCoe Idealize.ShloMosaic.StableHlo
open Cert.KernelIdeal Cert.KernelIdeal.Gen
open Idealize.ShloMosaic.ValueIdx

/-- A reshape of 64 entries to 1 by 64 is the broadcast along a new leading axis. -/
theorem reshape_eq_row (b : FVec Ideal S64 .f32) :
    shapeCast S1x64 b shapeCasts_S64_S1x64 = Cert.Bridge.row (F := Ideal) b := by
  funext j
  -- split the index of the one-row matrix into its unit row coordinate and its column
  obtain ⟨u, i, rfl⟩ : ∃ (u : Fin 1) (i : Fin 64), j = ix2 u i := ⟨j 0, j 1, eq_ix2 j⟩
  -- the reshape keeps the row-major position, which is the column
  have hl : shapeCast S1x64 b shapeCasts_S64_S1x64 (ix2 u i) = b (ix1 i) :=
    shapeCast_a_1a_apply b shapeCasts_S64_S1x64 u i
  -- the broadcast along the new leading axis reads the operand at the column as well
  have hr : Cert.Bridge.row (F := Ideal) b (ix2 u i) = b (ix1 i) := by
    unfold Cert.Bridge.row
    refine broadcastInDim_apply _ _ b (ix2 u i) (ix1 i) (fun a => ?_)
    match a with
    | ⟨0, _⟩ => rfl
  rw [hl, hr]

theorem rowA (Wv : Valuation τ sig (Elt Ideal)) :
    StableHlo.after (hostOps0_2 (F := Ideal)) Wv (Proc.devRef .tc main_v2)
      = Cert.Bridge.row (F := Ideal) (Wv (Proc.devRef .tc main_arg7)) := by
  after_results
  -- the one operation leaves the reshaped vector, which is the one-row broadcast
  exact reshape_eq_row (Wv (Proc.devRef .tc main_arg7))

theorem rowB (Wv : Valuation τ sig (Elt Ideal)) :
    StableHlo.after (hostOps1 (F := Ideal)) Wv (Proc.devRef .tc main_v4)
      = Cert.Bridge.row (F := Ideal) (Wv (Proc.devRef .tc main_arg9)) := by
  after_results
  -- the one operation leaves the reshaped vector, which is the one-row broadcast
  exact reshape_eq_row (Wv (Proc.devRef .tc main_arg9))

end Cert.KernelIdeal.Val

end
-- ==== Proof.Mean2.lean ====
/-
  The stretch `hostOps2_1`: the mean of the messages in `main_v6` per destination row (destinations in `main_arg4`) goes to `main_v18`, and the bias vector `main_arg16` as a one-row matrix to `main_v19`.
-/
import proofs.«430915_j14465449853445_1_alg».proof.Proof.Gen.KernelIdeal.Frame
import proofs.«430915_j14465449853445_1_alg».proof.Proof.Stages
import Idealize.ShloMosaic.PureOps.Ideal
import Idealize.ShloMosaic.Lib.StableHlo.Run
import proofs.«430915_j14465449853445_1_alg».proof.Proof.Rows

set_option maxRecDepth 16384

noncomputable section

namespace Cert.KernelIdeal.Val

open Idealize.ShloMosaic Idealize.ShloMosaic.TcCoe Idealize.ShloMosaic.StableHlo
open Cert.KernelIdeal Cert.KernelIdeal.Gen

set_option maxHeartbeats 1600000 in
/-- The per-destination mean of the messages. -/
theorem mean2 (Wv : Valuation τ sig (Elt Ideal)) :
    StableHlo.after (hostOps2_1 (F := Ideal)) Wv (Proc.devRef .tc main_v18)
      = Cert.Bridge.meanU (F := Ideal) (Wv (Proc.devRef .tc main_v6)) (Wv (Proc.devRef .tc main_arg4)) := by
  after_results_simp
  -- both sides are now the same composition of the two scatter-adds, the clamp at one, the two broadcasts and the
  -- division, over the same messages and destinations; the two programs' operation records have equal fields
  generalize Wv (Proc.devRef .tc main_v6) = msg
  generalize Wv (Proc.devRef .tc main_arg4) = seg
  rfl

/-- The bias vector as a one-row matrix: a reshape of 64 entries to 1 by 64 reads the same entries as the broadcast along a new leading axis. -/
theorem row2 (Wv : Valuation τ sig (Elt Ideal)) :
    StableHlo.after (hostOps2_1 (F := Ideal)) Wv (Proc.devRef .tc main_v19)
      = Cert.Bridge.row (F := Ideal) (Wv (Proc.devRef .tc main_arg16)) := by
  after_results
  -- only the last operation writes this buffer: the reshaped vector, which is the one-row broadcast
  exact reshape_eq_row (Wv (Proc.devRef .tc main_arg16))

end Cert.KernelIdeal.Val

end
-- ==== Proof.Mean3.lean ====
/-
  The stretch `hostOps3_1`: the mean of the messages in `main_v21` per destination row (destinations in `main_arg5`) goes to `main_v33`, and the bias vector `main_arg13` as a one-row matrix to `main_v34`.
-/
import proofs.«430915_j14465449853445_1_alg».proof.Proof.Gen.KernelIdeal.Frame
import proofs.«430915_j14465449853445_1_alg».proof.Proof.Stages
import Idealize.ShloMosaic.PureOps.Ideal
import Idealize.ShloMosaic.Lib.StableHlo.Run
import proofs.«430915_j14465449853445_1_alg».proof.Proof.Rows

set_option maxRecDepth 16384

noncomputable section

namespace Cert.KernelIdeal.Val

open Idealize.ShloMosaic Idealize.ShloMosaic.TcCoe Idealize.ShloMosaic.StableHlo
open Cert.KernelIdeal Cert.KernelIdeal.Gen

set_option maxHeartbeats 1600000 in
/-- The per-destination mean of the messages. -/
theorem mean3 (Wv : Valuation τ sig (Elt Ideal)) :
    StableHlo.after (hostOps3_1 (F := Ideal)) Wv (Proc.devRef .tc main_v33)
      = Cert.Bridge.meanR (F := Ideal) (Wv (Proc.devRef .tc main_v21)) (Wv (Proc.devRef .tc main_arg5)) := by
  after_results_simp
  -- both sides are now the same composition of the two scatter-adds, the clamp at one, the two broadcasts and the
  -- division, over the same messages and destinations; the two programs' operation records have equal fields
  generalize Wv (Proc.devRef .tc main_v21) = msg
  generalize Wv (Proc.devRef .tc main_arg5) = seg
  rfl

/-- The bias vector as a one-row matrix: a reshape of 64 entries to 1 by 64 reads the same entries as the broadcast along a new leading axis. -/
theorem row3 (Wv : Valuation τ sig (Elt Ideal)) :
    StableHlo.after (hostOps3_1 (F := Ideal)) Wv (Proc.devRef .tc main_v34)
      = Cert.Bridge.row (F := Ideal) (Wv (Proc.devRef .tc main_arg13)) := by
  after_results
  -- only the last operation writes this buffer: the reshaped vector, which is the one-row broadcast
  exact reshape_eq_row (Wv (Proc.devRef .tc main_arg13))

end Cert.KernelIdeal.Val

end
-- ==== Proof.Mean4.lean ====
/-
  The stretch `hostOps4_1`: the mean of the messages in `main_v36` per destination row (destinations in `main_arg4`) goes to `main_v48`, and the bias vector `main_arg22` as a one-row matrix to `main_v49`.
-/
import proofs.«430915_j14465449853445_1_alg».proof.Proof.Gen.KernelIdeal.Frame
import proofs.«430915_j14465449853445_1_alg».proof.Proof.Stages
import Idealize.ShloMosaic.PureOps.Ideal
import Idealize.ShloMosaic.Lib.StableHlo.Run
import proofs.«430915_j14465449853445_1_alg».proof.Proof.Rows

set_option maxRecDepth 16384

noncomputable section

namespace Cert.KernelIdeal.Val

open Idealize.ShloMosaic Idealize.ShloMosaic.TcCoe Idealize.ShloMosaic.StableHlo
open Cert.KernelIdeal Cert.KernelIdeal.Gen

set_option maxHeartbeats 1600000 in
/-- The per-destination mean of the messages. -/
theorem mean4 (Wv : Valuation τ sig (Elt Ideal)) :
    StableHlo.after (hostOps4_1 (F := Ideal)) Wv (Proc.devRef .tc main_v48)
      = Cert.Bridge.meanU (F := Ideal) (Wv (Proc.devRef .tc main_v36)) (Wv (Proc.devRef .tc main_arg4)) := by
  after_results_simp
  -- both sides are now the same composition of the two scatter-adds, the clamp at one, the two broadcasts and the
  -- division, over the same messages and destinations; the two programs' operation records have equal fields
  generalize Wv (Proc.devRef .tc main_v36) = msg
  generalize Wv (Proc.devRef .tc main_arg4) = seg
  rfl

/-- The bias vector as a one-row matrix: a reshape of 64 entries to 1 by 64 reads the same entries as the broadcast along a new leading axis. -/
theorem row4 (Wv : Valuation τ sig (Elt Ideal)) :
    StableHlo.after (hostOps4_1 (F := Ideal)) Wv (Proc.devRef .tc main_v49)
      = Cert.Bridge.row (F := Ideal) (Wv (Proc.devRef .tc main_arg22)) := by
  after_results
  -- only the last operation writes this buffer: the reshaped vector, which is the one-row broadcast
  exact reshape_eq_row (Wv (Proc.devRef .tc main_arg22))

end Cert.KernelIdeal.Val

end
-- ==== Proof.Mean5.lean ====
/-
  The stretch `hostOps5_1`: the mean of the messages in `main_v51` per destination row (destinations in `main_arg5`) goes to `main_v63`, and the bias vector `main_arg19` as a one-row matrix to `main_v64`.
-/
import proofs.«430915_j14465449853445_1_alg».proof.Proof.Gen.KernelIdeal.Frame
import proofs.«430915_j14465449853445_1_alg».proof.Proof.Stages
import Idealize.ShloMosaic.PureOps.Ideal
import Idealize.ShloMosaic.Lib.StableHlo.Run
import proofs.«430915_j14465449853445_1_alg».proof.Proof.Rows

set_option maxRecDepth 16384

noncomputable section

namespace Cert.KernelIdeal.Val

open Idealize.ShloMosaic Idealize.ShloMosaic.TcCoe Idealize.ShloMosaic.StableHlo
open Cert.KernelIdeal Cert.KernelIdeal.Gen

set_option maxHeartbeats 1600000 in
/-- The per-destination mean of the messages. -/
theorem mean5 (Wv : Valuation τ sig (Elt Ideal)) :
    StableHlo.after (hostOps5_1 (F := Ideal)) Wv (Proc.devRef .tc main_v63)
      = Cert.Bridge.meanR (F := Ideal) (Wv (Proc.devRef .tc main_v51)) (Wv (Proc.devRef .tc main_arg5)) := by
  after_results_simp
  -- both sides are now the same composition of the two scatter-adds, the clamp at one, the two broadcasts and the
  -- division, over the same messages and destinations; the two programs' operation records have equal fields
  generalize Wv (Proc.devRef .tc main_v51) = msg
  generalize Wv (Proc.devRef .tc main_arg5) = seg
  rfl

/-- The bias vector as a one-row matrix: a reshape of 64 entries to 1 by 64 reads the same entries as the broadcast along a new leading axis. -/
theorem row5 (Wv : Valuation τ sig (Elt Ideal)) :
    StableHlo.after (hostOps5_1 (F := Ideal)) Wv (Proc.devRef .tc main_v64)
      = Cert.Bridge.row (F := Ideal) (Wv (Proc.devRef .tc main_arg19)) := by
  after_results
  -- only the last operation writes this buffer: the reshaped vector, which is the one-row broadcast
  exact reshape_eq_row (Wv (Proc.devRef .tc main_arg19))

end Cert.KernelIdeal.Val

end
-- ==== Proof.Chain.lean ====
/- The contents of the idealized kernel's two result buffers at the return, as the staged values of the network.

  The entry point is eighteen segments: stretches of host operations and six launches. Walking the boundaries in
  order, each buffer that a later segment reads is followed from the boundary where it is written to the boundary
  where it is read: a row lookup (with its fill never taken, the indices being in range) is the plain row lookup,
  a stretch of scatter-adds and a division is the per-destination mean, a launch leaves its dense stage in its
  output array, and a segment that does not write a buffer leaves it as it was. The arguments stay as launched
  throughout. At the last boundary the two result buffers hold the users' and the recipes' second-layer values.
-/
import proofs.«430915_j14465449853445_1_alg».proof.Proof.Gen.KernelIdeal.Frame
import proofs.«430915_j14465449853445_1_alg».proof.Proof.Stages
import proofs.«430915_j14465449853445_1_alg».proof.Proof.ArgsKept
import proofs.«430915_j14465449853445_1_alg».proof.Proof.Region0
import proofs.«430915_j14465449853445_1_alg».proof.Proof.Region1
import proofs.«430915_j14465449853445_1_alg».proof.Proof.Region2
import proofs.«430915_j14465449853445_1_alg».proof.Proof.Region3
import proofs.«430915_j14465449853445_1_alg».proof.Proof.Region4
import proofs.«430915_j14465449853445_1_alg».proof.Proof.Region5
import proofs.«430915_j14465449853445_1_alg».proof.Proof.Take0
import proofs.«430915_j14465449853445_1_alg».proof.Proof.Take1
import proofs.«430915_j14465449853445_1_alg».proof.Proof.Take2
import proofs.«430915_j14465449853445_1_alg».proof.Proof.Take3
import proofs.«430915_j14465449853445_1_alg».proof.Proof.Take4
import proofs.«430915_j14465449853445_1_alg».proof.Proof.Take5
import proofs.«430915_j14465449853445_1_alg».proof.Proof.Mean2
import proofs.«430915_j14465449853445_1_alg».proof.Proof.Mean3
import proofs.«430915_j14465449853445_1_alg».proof.Proof.Mean4
import proofs.«430915_j14465449853445_1_alg».proof.Proof.Mean5
import proofs.«430915_j14465449853445_1_alg».proof.Proof.Rows

set_option maxRecDepth 16384

noncomputable section

namespace Cert.KernelIdeal.Val

open Idealize.ShloMosaic Idealize.ShloMosaic.TcCoe Idealize.ShloMosaic.StableHlo
open Cert.KernelIdeal Cert.KernelIdeal.Gen

/-- The argument arrays as the launch memory holds them on core `c`. -/
abbrev kerArgs {F : FTy → Type} [FloatOps F] (m : (ℓ : Loc nD τ sig) → Buf (Elt F) ℓ) (c : Dev nD) : Cert.Bridge.Args F where
    a0 := m ((c : Thread nD τ).loc main_arg0)
    a1 := m ((c : Thread nD τ).loc main_arg1)
    a2 := m ((c : Thread nD τ).loc main_arg2)
    a3 := m ((c : Thread nD τ).loc main_arg3)
    a4 := m ((c : Thread nD τ).loc main_arg4)
    a5 := m ((c : Thread nD τ).loc main_arg5)
    a6 := m ((c : Thread nD τ).loc main_arg6)
    a7 := m ((c : Thread nD τ).loc main_arg7)
    a8 := m ((c : Thread nD τ).loc main_arg8)
    a9 := m ((c : Thread nD τ).loc main_arg9)
    a10 := m ((c : Thread nD τ).loc main_arg10)
    a11 := m ((c : Thread nD τ).loc main_arg11)
    a12 := m ((c : Thread nD τ).loc main_arg12)
    a13 := m ((c : Thread nD τ).loc main_arg13)
    a14 := m ((c : Thread nD τ).loc main_arg14)
    a15 := m ((c : Thread nD τ).loc main_arg15)
    a16 := m ((c : Thread nD τ).loc main_arg16)
    a17 := m ((c : Thread nD τ).loc main_arg17)
    a18 := m ((c : Thread nD τ).loc main_arg18)
    a19 := m ((c : Thread nD τ).loc main_arg19)
    a20 := m ((c : Thread nD τ).loc main_arg20)
    a21 := m ((c : Thread nD τ).loc main_arg21)
    a22 := m ((c : Thread nD τ).loc main_arg22)
    a23 := m ((c : Thread nD τ).loc main_arg23)

/-- A buffer that no operation of a stretch writes keeps its contents across the stretch: each operation writes one
    buffer, and it is another one. -/
macro "keep_host" ops:ident r:ident : tactic =>
  `(tactic| exact StableHlo.after_of_forall_not_mem (b := Proc.devRef .tc $r) _ _ (List.forall_iff_forall_mem.mp (by
      simp only [$ops:ident, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

variable (m : (ℓ : Loc nD τ sig) → Buf (Elt Ideal) ℓ) (ρ : Dev nD → PrngReg) (c : Dev nD)
variable (h2 : Cert.Bridge.InRange (m ((c : Thread nD τ).loc main_arg2)) 50000)
  (h3 : Cert.Bridge.InRange (m ((c : Thread nD τ).loc main_arg3)) 100000)
  (h4 : Cert.Bridge.InRange (m ((c : Thread nD τ).loc main_arg4)) 50000)
  (h5 : Cert.Bridge.InRange (m ((c : Thread nD τ).loc main_arg5)) 100000)
include h2 h3 h4 h5

theorem val_main_v0_W1 : W1 m ρ c (Proc.devRef .tc main_v0) = Cert.Bridge.rowsU (F := Ideal) (kerArgs m c).a10 (kerArgs m c).a2 := by
  have e := take0 (W0 m ρ c) h2
  exact e

theorem val_main_v0_W2 : W2 m ρ c (Proc.devRef .tc main_v0) = Cert.Bridge.rowsU (F := Ideal) (kerArgs m c).a10 (kerArgs m c).a2 :=
  (show W2 m ρ c (Proc.devRef .tc main_v0) = W1 m ρ c (Proc.devRef .tc main_v0) from (by keep_host hostOps0_1 main_v0)).trans (val_main_v0_W1 m ρ c h2 h3 h4 h5)

theorem val_main_v0_W3 : W3 m ρ c (Proc.devRef .tc main_v0) = Cert.Bridge.rowsU (F := Ideal) (kerArgs m c).a10 (kerArgs m c).a2 :=
  (show W3 m ρ c (Proc.devRef .tc main_v0) = W2 m ρ c (Proc.devRef .tc main_v0) from (by keep_host hostOps0_2 main_v0)).trans (val_main_v0_W2 m ρ c h2 h3 h4 h5)

theorem val_main_v1_W2 : W2 m ρ c (Proc.devRef .tc main_v1) = Cert.Bridge.rowsR (F := Ideal) (kerArgs m c).a11 (kerArgs m c).a3 := by
  have e := take1 (W1 m ρ c) (by rw [arg_W1 m ρ c main_arg3 ⟨rfl, by decide⟩]; exact h3)
  rw [arg_W1 m ρ c main_arg11 ⟨rfl, by decide⟩, arg_W1 m ρ c main_arg3 ⟨rfl, by decide⟩] at e
  exact e

theorem val_main_v1_W3 : W3 m ρ c (Proc.devRef .tc main_v1) = Cert.Bridge.rowsR (F := Ideal) (kerArgs m c).a11 (kerArgs m c).a3 :=
  (show W3 m ρ c (Proc.devRef .tc main_v1) = W2 m ρ c (Proc.devRef .tc main_v1) from (by keep_host hostOps0_2 main_v1)).trans (val_main_v1_W2 m ρ c h2 h3 h4 h5)

theorem val_main_v1_W4 : W4 m ρ c (Proc.devRef .tc main_v1) = Cert.Bridge.rowsR (F := Ideal) (kerArgs m c).a11 (kerArgs m c).a3 :=
  (show W4 m ρ c (Proc.devRef .tc main_v1) = W3 m ρ c (Proc.devRef .tc main_v1) from (W4_of_ne m ρ c main_v1 (by decide))).trans (val_main_v1_W3 m ρ c h2 h3 h4 h5)

theorem val_main_v1_W5 : W5 m ρ c (Proc.devRef .tc main_v1) = Cert.Bridge.rowsR (F := Ideal) (kerArgs m c).a11 (kerArgs m c).a3 :=
  (show W5 m ρ c (Proc.devRef .tc main_v1) = W4 m ρ c (Proc.devRef .tc main_v1) from (by keep_host hostOps1 main_v1)).trans (val_main_v1_W4 m ρ c h2 h3 h4 h5)

theorem val_main_v2_W3 : W3 m ρ c (Proc.devRef .tc main_v2) = Cert.Bridge.row (F := Ideal) (kerArgs m c).a7 := by
  have e := rowA (W2 m ρ c)
  rw [arg_W2 m ρ c main_arg7 ⟨rfl, by decide⟩] at e
  exact e

theorem val_main_v3_W4 : W4 m ρ c (Proc.devRef .tc main_v3) = Cert.Bridge.hu (kerArgs m c) := by
  refine (W4_arr m ρ c 4).trans ((region0 (V3 m ρ) c).trans ?_)
  show Cert.Bridge.linU (F := Ideal) (W3 m ρ c (Proc.devRef .tc main_arg0)) (W3 m ρ c (Proc.devRef .tc main_arg6)) (W3 m ρ c (Proc.devRef .tc main_v2)) (W3 m ρ c (Proc.devRef .tc main_v0)) = _
  rw [arg_W3 m ρ c main_arg0 ⟨rfl, by decide⟩, arg_W3 m ρ c main_arg6 ⟨rfl, by decide⟩, val_main_v2_W3 m ρ c h2 h3 h4 h5, val_main_v0_W3 m ρ c h2 h3 h4 h5]
  rfl

theorem val_main_v3_W5 : W5 m ρ c (Proc.devRef .tc main_v3) = Cert.Bridge.hu (kerArgs m c) :=
  (show W5 m ρ c (Proc.devRef .tc main_v3) = W4 m ρ c (Proc.devRef .tc main_v3) from (by keep_host hostOps1 main_v3)).trans (val_main_v3_W4 m ρ c h2 h3 h4 h5)

theorem val_main_v3_W6 : W6 m ρ c (Proc.devRef .tc main_v3) = Cert.Bridge.hu (kerArgs m c) :=
  (show W6 m ρ c (Proc.devRef .tc main_v3) = W5 m ρ c (Proc.devRef .tc main_v3) from (W6_of_ne m ρ c main_v3 (by decide))).trans (val_main_v3_W5 m ρ c h2 h3 h4 h5)

theorem val_main_v3_W7 : W7 m ρ c (Proc.devRef .tc main_v3) = Cert.Bridge.hu (kerArgs m c) :=
  (show W7 m ρ c (Proc.devRef .tc main_v3) = W6 m ρ c (Proc.devRef .tc main_v3) from (by keep_host hostOps2 main_v3)).trans (val_main_v3_W6 m ρ c h2 h3 h4 h5)

theorem val_main_v3_W8 : W8 m ρ c (Proc.devRef .tc main_v3) = Cert.Bridge.hu (kerArgs m c) :=
  (show W8 m ρ c (Proc.devRef .tc main_v3) = W7 m ρ c (Proc.devRef .tc main_v3) from (by keep_host hostOps2_1 main_v3)).trans (val_main_v3_W7 m ρ c h2 h3 h4 h5)

theorem val_main_v3_W9 : W9 m ρ c (Proc.devRef .tc main_v3) = Cert.Bridge.hu (kerArgs m c) :=
  (show W9 m ρ c (Proc.devRef .tc main_v3) = W8 m ρ c (Proc.devRef .tc main_v3) from ((W9_arr m ρ c 3).trans (((dat2 (V8 m ρ) c).arrAt_in 3 rfl _).trans (A_eq2 (V8 m ρ) c 3)))).trans (val_main_v3_W8 m ρ c h2 h3 h4 h5)

theorem val_main_v4_W5 : W5 m ρ c (Proc.devRef .tc main_v4) = Cert.Bridge.row (F := Ideal) (kerArgs m c).a9 := by
  have e := rowB (W4 m ρ c)
  rw [arg_W4 m ρ c main_arg9 ⟨rfl, by decide⟩] at e
  exact e

theorem val_main_v5_W6 : W6 m ρ c (Proc.devRef .tc main_v5) = Cert.Bridge.hr (kerArgs m c) := by
  refine (W6_arr m ρ c 4).trans ((region1 (V5 m ρ) c).trans ?_)
  show Cert.Bridge.linR (F := Ideal) (W5 m ρ c (Proc.devRef .tc main_arg1)) (W5 m ρ c (Proc.devRef .tc main_arg8)) (W5 m ρ c (Proc.devRef .tc main_v4)) (W5 m ρ c (Proc.devRef .tc main_v1)) = _
  rw [arg_W5 m ρ c main_arg1 ⟨rfl, by decide⟩, arg_W5 m ρ c main_arg8 ⟨rfl, by decide⟩, val_main_v4_W5 m ρ c h2 h3 h4 h5, val_main_v1_W5 m ρ c h2 h3 h4 h5]
  rfl

theorem val_main_v5_W7 : W7 m ρ c (Proc.devRef .tc main_v5) = Cert.Bridge.hr (kerArgs m c) :=
  (show W7 m ρ c (Proc.devRef .tc main_v5) = W6 m ρ c (Proc.devRef .tc main_v5) from (by keep_host hostOps2 main_v5)).trans (val_main_v5_W6 m ρ c h2 h3 h4 h5)

theorem val_main_v5_W8 : W8 m ρ c (Proc.devRef .tc main_v5) = Cert.Bridge.hr (kerArgs m c) :=
  (show W8 m ρ c (Proc.devRef .tc main_v5) = W7 m ρ c (Proc.devRef .tc main_v5) from (by keep_host hostOps2_1 main_v5)).trans (val_main_v5_W7 m ρ c h2 h3 h4 h5)

theorem val_main_v5_W9 : W9 m ρ c (Proc.devRef .tc main_v5) = Cert.Bridge.hr (kerArgs m c) :=
  (show W9 m ρ c (Proc.devRef .tc main_v5) = W8 m ρ c (Proc.devRef .tc main_v5) from (W9_of_ne m ρ c main_v5 (by decide))).trans (val_main_v5_W8 m ρ c h2 h3 h4 h5)

theorem val_main_v5_W10 : W10 m ρ c (Proc.devRef .tc main_v5) = Cert.Bridge.hr (kerArgs m c) :=
  (show W10 m ρ c (Proc.devRef .tc main_v5) = W9 m ρ c (Proc.devRef .tc main_v5) from (by keep_host hostOps3 main_v5)).trans (val_main_v5_W9 m ρ c h2 h3 h4 h5)

theorem val_main_v5_W11 : W11 m ρ c (Proc.devRef .tc main_v5) = Cert.Bridge.hr (kerArgs m c) :=
  (show W11 m ρ c (Proc.devRef .tc main_v5) = W10 m ρ c (Proc.devRef .tc main_v5) from (by keep_host hostOps3_1 main_v5)).trans (val_main_v5_W10 m ρ c h2 h3 h4 h5)

theorem val_main_v6_W7 : W7 m ρ c (Proc.devRef .tc main_v6) = Cert.Bridge.rowsRE (F := Ideal) (Cert.Bridge.hr (kerArgs m c)) (kerArgs m c).a5 := by
  have e := take2 (W6 m ρ c) (by rw [arg_W6 m ρ c main_arg5 ⟨rfl, by decide⟩]; exact h5)
  rw [val_main_v5_W6 m ρ c h2 h3 h4 h5, arg_W6 m ρ c main_arg5 ⟨rfl, by decide⟩] at e
  exact e

theorem val_main_v18_W8 : W8 m ρ c (Proc.devRef .tc main_v18) = Cert.Bridge.meanU (F := Ideal) (Cert.Bridge.rowsRE (F := Ideal) (Cert.Bridge.hr (kerArgs m c)) (kerArgs m c).a5) (kerArgs m c).a4 := by
  have e := mean2 (W7 m ρ c)
  rw [val_main_v6_W7 m ρ c h2 h3 h4 h5, arg_W7 m ρ c main_arg4 ⟨rfl, by decide⟩] at e
  exact e

theorem val_main_v19_W8 : W8 m ρ c (Proc.devRef .tc main_v19) = Cert.Bridge.row (F := Ideal) (kerArgs m c).a16 := by
  have e := row2 (W7 m ρ c)
  rw [arg_W7 m ρ c main_arg16 ⟨rfl, by decide⟩] at e
  exact e

theorem val_main_v20_W9 : W9 m ρ c (Proc.devRef .tc main_v20) = Cert.Bridge.hu1 (kerArgs m c) := by
  refine (W9_arr m ρ c 5).trans ((region2 (V8 m ρ) c).trans ?_)
  show Cert.Bridge.reluU (F := Ideal) (Cert.Bridge.sageU (F := Ideal) (W8 m ρ c (Proc.devRef .tc main_v18)) (W8 m ρ c (Proc.devRef .tc main_arg15)) (W8 m ρ c (Proc.devRef .tc main_v19)) (W8 m ρ c (Proc.devRef .tc main_v3)) (W8 m ρ c (Proc.devRef .tc main_arg17))) = _
  rw [val_main_v18_W8 m ρ c h2 h3 h4 h5, arg_W8 m ρ c main_arg15 ⟨rfl, by decide⟩, val_main_v19_W8 m ρ c h2 h3 h4 h5, val_main_v3_W8 m ρ c h2 h3 h4 h5, arg_W8 m ρ c main_arg17 ⟨rfl, by decide⟩]
  rfl

theorem val_main_v20_W10 : W10 m ρ c (Proc.devRef .tc main_v20) = Cert.Bridge.hu1 (kerArgs m c) :=
  (show W10 m ρ c (Proc.devRef .tc main_v20) = W9 m ρ c (Proc.devRef .tc main_v20) from (by keep_host hostOps3 main_v20)).trans (val_main_v20_W9 m ρ c h2 h3 h4 h5)

theorem val_main_v20_W11 : W11 m ρ c (Proc.devRef .tc main_v20) = Cert.Bridge.hu1 (kerArgs m c) :=
  (show W11 m ρ c (Proc.devRef .tc main_v20) = W10 m ρ c (Proc.devRef .tc main_v20) from (by keep_host hostOps3_1 main_v20)).trans (val_main_v20_W10 m ρ c h2 h3 h4 h5)

theorem val_main_v20_W12 : W12 m ρ c (Proc.devRef .tc main_v20) = Cert.Bridge.hu1 (kerArgs m c) :=
  (show W12 m ρ c (Proc.devRef .tc main_v20) = W11 m ρ c (Proc.devRef .tc main_v20) from (W12_of_ne m ρ c main_v20 (by decide))).trans (val_main_v20_W11 m ρ c h2 h3 h4 h5)

theorem val_main_v20_W13 : W13 m ρ c (Proc.devRef .tc main_v20) = Cert.Bridge.hu1 (kerArgs m c) :=
  (show W13 m ρ c (Proc.devRef .tc main_v20) = W12 m ρ c (Proc.devRef .tc main_v20) from (by keep_host hostOps4 main_v20)).trans (val_main_v20_W12 m ρ c h2 h3 h4 h5)

theorem val_main_v20_W14 : W14 m ρ c (Proc.devRef .tc main_v20) = Cert.Bridge.hu1 (kerArgs m c) :=
  (show W14 m ρ c (Proc.devRef .tc main_v20) = W13 m ρ c (Proc.devRef .tc main_v20) from (by keep_host hostOps4_1 main_v20)).trans (val_main_v20_W13 m ρ c h2 h3 h4 h5)

theorem val_main_v20_W15 : W15 m ρ c (Proc.devRef .tc main_v20) = Cert.Bridge.hu1 (kerArgs m c) :=
  (show W15 m ρ c (Proc.devRef .tc main_v20) = W14 m ρ c (Proc.devRef .tc main_v20) from ((W15_arr m ρ c 3).trans (((dat4 (V14 m ρ) c).arrAt_in 3 rfl _).trans (A_eq4 (V14 m ρ) c 3)))).trans (val_main_v20_W14 m ρ c h2 h3 h4 h5)

theorem val_main_v21_W10 : W10 m ρ c (Proc.devRef .tc main_v21) = Cert.Bridge.rowsUE (F := Ideal) (Cert.Bridge.hu (kerArgs m c)) (kerArgs m c).a4 := by
  have e := take3 (W9 m ρ c) (by rw [arg_W9 m ρ c main_arg4 ⟨rfl, by decide⟩]; exact h4)
  rw [val_main_v3_W9 m ρ c h2 h3 h4 h5, arg_W9 m ρ c main_arg4 ⟨rfl, by decide⟩] at e
  exact e

theorem val_main_v33_W11 : W11 m ρ c (Proc.devRef .tc main_v33) = Cert.Bridge.meanR (F := Ideal) (Cert.Bridge.rowsUE (F := Ideal) (Cert.Bridge.hu (kerArgs m c)) (kerArgs m c).a4) (kerArgs m c).a5 := by
  have e := mean3 (W10 m ρ c)
  rw [val_main_v21_W10 m ρ c h2 h3 h4 h5, arg_W10 m ρ c main_arg5 ⟨rfl, by decide⟩] at e
  exact e

theorem val_main_v34_W11 : W11 m ρ c (Proc.devRef .tc main_v34) = Cert.Bridge.row (F := Ideal) (kerArgs m c).a13 := by
  have e := row3 (W10 m ρ c)
  rw [arg_W10 m ρ c main_arg13 ⟨rfl, by decide⟩] at e
  exact e

theorem val_main_v35_W12 : W12 m ρ c (Proc.devRef .tc main_v35) = Cert.Bridge.hr1 (kerArgs m c) := by
  refine (W12_arr m ρ c 5).trans ((region3 (V11 m ρ) c).trans ?_)
  show Cert.Bridge.reluR (F := Ideal) (Cert.Bridge.sageR (F := Ideal) (W11 m ρ c (Proc.devRef .tc main_v33)) (W11 m ρ c (Proc.devRef .tc main_arg12)) (W11 m ρ c (Proc.devRef .tc main_v34)) (W11 m ρ c (Proc.devRef .tc main_v5)) (W11 m ρ c (Proc.devRef .tc main_arg14))) = _
  rw [val_main_v33_W11 m ρ c h2 h3 h4 h5, arg_W11 m ρ c main_arg12 ⟨rfl, by decide⟩, val_main_v34_W11 m ρ c h2 h3 h4 h5, val_main_v5_W11 m ρ c h2 h3 h4 h5, arg_W11 m ρ c main_arg14 ⟨rfl, by decide⟩]
  rfl

theorem val_main_v35_W13 : W13 m ρ c (Proc.devRef .tc main_v35) = Cert.Bridge.hr1 (kerArgs m c) :=
  (show W13 m ρ c (Proc.devRef .tc main_v35) = W12 m ρ c (Proc.devRef .tc main_v35) from (by keep_host hostOps4 main_v35)).trans (val_main_v35_W12 m ρ c h2 h3 h4 h5)

theorem val_main_v35_W14 : W14 m ρ c (Proc.devRef .tc main_v35) = Cert.Bridge.hr1 (kerArgs m c) :=
  (show W14 m ρ c (Proc.devRef .tc main_v35) = W13 m ρ c (Proc.devRef .tc main_v35) from (by keep_host hostOps4_1 main_v35)).trans (val_main_v35_W13 m ρ c h2 h3 h4 h5)

theorem val_main_v35_W15 : W15 m ρ c (Proc.devRef .tc main_v35) = Cert.Bridge.hr1 (kerArgs m c) :=
  (show W15 m ρ c (Proc.devRef .tc main_v35) = W14 m ρ c (Proc.devRef .tc main_v35) from (W15_of_ne m ρ c main_v35 (by decide))).trans (val_main_v35_W14 m ρ c h2 h3 h4 h5)

theorem val_main_v35_W16 : W16 m ρ c (Proc.devRef .tc main_v35) = Cert.Bridge.hr1 (kerArgs m c) :=
  (show W16 m ρ c (Proc.devRef .tc main_v35) = W15 m ρ c (Proc.devRef .tc main_v35) from (by keep_host hostOps5 main_v35)).trans (val_main_v35_W15 m ρ c h2 h3 h4 h5)

theorem val_main_v35_W17 : W17 m ρ c (Proc.devRef .tc main_v35) = Cert.Bridge.hr1 (kerArgs m c) :=
  (show W17 m ρ c (Proc.devRef .tc main_v35) = W16 m ρ c (Proc.devRef .tc main_v35) from (by keep_host hostOps5_1 main_v35)).trans (val_main_v35_W16 m ρ c h2 h3 h4 h5)

theorem val_main_v36_W13 : W13 m ρ c (Proc.devRef .tc main_v36) = Cert.Bridge.rowsRE (F := Ideal) (Cert.Bridge.hr1 (kerArgs m c)) (kerArgs m c).a5 := by
  have e := take4 (W12 m ρ c) (by rw [arg_W12 m ρ c main_arg5 ⟨rfl, by decide⟩]; exact h5)
  rw [val_main_v35_W12 m ρ c h2 h3 h4 h5, arg_W12 m ρ c main_arg5 ⟨rfl, by decide⟩] at e
  exact e

theorem val_main_v48_W14 : W14 m ρ c (Proc.devRef .tc main_v48) = Cert.Bridge.meanU (F := Ideal) (Cert.Bridge.rowsRE (F := Ideal) (Cert.Bridge.hr1 (kerArgs m c)) (kerArgs m c).a5) (kerArgs m c).a4 := by
  have e := mean4 (W13 m ρ c)
  rw [val_main_v36_W13 m ρ c h2 h3 h4 h5, arg_W13 m ρ c main_arg4 ⟨rfl, by decide⟩] at e
  exact e

theorem val_main_v49_W14 : W14 m ρ c (Proc.devRef .tc main_v49) = Cert.Bridge.row (F := Ideal) (kerArgs m c).a22 := by
  have e := row4 (W13 m ρ c)
  rw [arg_W13 m ρ c main_arg22 ⟨rfl, by decide⟩] at e
  exact e

theorem val_main_v50_W15 : W15 m ρ c (Proc.devRef .tc main_v50) = Cert.Bridge.hu2 (kerArgs m c) := by
  refine (W15_arr m ρ c 5).trans ((region4 (V14 m ρ) c).trans ?_)
  show Cert.Bridge.sageU (F := Ideal) (W14 m ρ c (Proc.devRef .tc main_v48)) (W14 m ρ c (Proc.devRef .tc main_arg21)) (W14 m ρ c (Proc.devRef .tc main_v49)) (W14 m ρ c (Proc.devRef .tc main_v20)) (W14 m ρ c (Proc.devRef .tc main_arg23)) = _
  rw [val_main_v48_W14 m ρ c h2 h3 h4 h5, arg_W14 m ρ c main_arg21 ⟨rfl, by decide⟩, val_main_v49_W14 m ρ c h2 h3 h4 h5, val_main_v20_W14 m ρ c h2 h3 h4 h5, arg_W14 m ρ c main_arg23 ⟨rfl, by decide⟩]
  rfl

theorem val_main_v50_W16 : W16 m ρ c (Proc.devRef .tc main_v50) = Cert.Bridge.hu2 (kerArgs m c) :=
  (show W16 m ρ c (Proc.devRef .tc main_v50) = W15 m ρ c (Proc.devRef .tc main_v50) from (by keep_host hostOps5 main_v50)).trans (val_main_v50_W15 m ρ c h2 h3 h4 h5)

theorem val_main_v50_W17 : W17 m ρ c (Proc.devRef .tc main_v50) = Cert.Bridge.hu2 (kerArgs m c) :=
  (show W17 m ρ c (Proc.devRef .tc main_v50) = W16 m ρ c (Proc.devRef .tc main_v50) from (by keep_host hostOps5_1 main_v50)).trans (val_main_v50_W16 m ρ c h2 h3 h4 h5)

theorem val_main_v50_W18 : W18 m ρ c (Proc.devRef .tc main_v50) = Cert.Bridge.hu2 (kerArgs m c) :=
  (show W18 m ρ c (Proc.devRef .tc main_v50) = W17 m ρ c (Proc.devRef .tc main_v50) from (W18_of_ne m ρ c main_v50 (by decide))).trans (val_main_v50_W17 m ρ c h2 h3 h4 h5)

theorem val_main_v51_W16 : W16 m ρ c (Proc.devRef .tc main_v51) = Cert.Bridge.rowsUE (F := Ideal) (Cert.Bridge.hu1 (kerArgs m c)) (kerArgs m c).a4 := by
  have e := take5 (W15 m ρ c) (by rw [arg_W15 m ρ c main_arg4 ⟨rfl, by decide⟩]; exact h4)
  rw [val_main_v20_W15 m ρ c h2 h3 h4 h5, arg_W15 m ρ c main_arg4 ⟨rfl, by decide⟩] at e
  exact e

theorem val_main_v63_W17 : W17 m ρ c (Proc.devRef .tc main_v63) = Cert.Bridge.meanR (F := Ideal) (Cert.Bridge.rowsUE (F := Ideal) (Cert.Bridge.hu1 (kerArgs m c)) (kerArgs m c).a4) (kerArgs m c).a5 := by
  have e := mean5 (W16 m ρ c)
  rw [val_main_v51_W16 m ρ c h2 h3 h4 h5, arg_W16 m ρ c main_arg5 ⟨rfl, by decide⟩] at e
  exact e

theorem val_main_v64_W17 : W17 m ρ c (Proc.devRef .tc main_v64) = Cert.Bridge.row (F := Ideal) (kerArgs m c).a19 := by
  have e := row5 (W16 m ρ c)
  rw [arg_W16 m ρ c main_arg19 ⟨rfl, by decide⟩] at e
  exact e

theorem val_main_v65_W18 : W18 m ρ c (Proc.devRef .tc main_v65) = Cert.Bridge.hr2 (kerArgs m c) := by
  refine (W18_arr m ρ c 5).trans ((region5 (V17 m ρ) c).trans ?_)
  show Cert.Bridge.sageR (F := Ideal) (W17 m ρ c (Proc.devRef .tc main_v63)) (W17 m ρ c (Proc.devRef .tc main_arg18)) (W17 m ρ c (Proc.devRef .tc main_v64)) (W17 m ρ c (Proc.devRef .tc main_v35)) (W17 m ρ c (Proc.devRef .tc main_arg20)) = _
  rw [val_main_v63_W17 m ρ c h2 h3 h4 h5, arg_W17 m ρ c main_arg18 ⟨rfl, by decide⟩, val_main_v64_W17 m ρ c h2 h3 h4 h5, val_main_v35_W17 m ρ c h2 h3 h4 h5, arg_W17 m ρ c main_arg20 ⟨rfl, by decide⟩]
  rfl

end Cert.KernelIdeal.Val

end
-- ==== Proof.RefStages.lean ====
/-
  The reference's two results are the second-layer staged values of its argument arrays.

  The reference program's run states each result as the composed term of its operations applied to the launch
  contents of the arguments. The staged values are defined by the same operations in the same order, so the two
  terms agree once the stages' definitions are unfolded.
-/
import proofs.«430915_j14465449853445_1_alg».proof.Proof.Gen.ReferenceIdeal.Run
import proofs.«430915_j14465449853445_1_alg».proof.Proof.Stages

noncomputable section

namespace Cert.Bridge

open Idealize.ShloMosaic Idealize.ShloMosaic.TcCoe Idealize.SL.Sem Cert.ReferenceIdeal

variable {F : FTy → Type} [FloatOps F]

/-- The argument arrays as the reference's launch memory holds them on core `c`. -/
abbrev refArgs (m : (ℓ : Loc nD τ sig) → Buf (Elt F) ℓ) (c : Dev nD) : Args F where
    a0 := m ((c.tc : Thread nD τ).loc main_arg0)
    a1 := m ((c.tc : Thread nD τ).loc main_arg1)
    a2 := m ((c.tc : Thread nD τ).loc main_arg2)
    a3 := m ((c.tc : Thread nD τ).loc main_arg3)
    a4 := m ((c.tc : Thread nD τ).loc main_arg4)
    a5 := m ((c.tc : Thread nD τ).loc main_arg5)
    a6 := m ((c.tc : Thread nD τ).loc main_arg6)
    a7 := m ((c.tc : Thread nD τ).loc main_arg7)
    a8 := m ((c.tc : Thread nD τ).loc main_arg8)
    a9 := m ((c.tc : Thread nD τ).loc main_arg9)
    a10 := m ((c.tc : Thread nD τ).loc main_arg10)
    a11 := m ((c.tc : Thread nD τ).loc main_arg11)
    a12 := m ((c.tc : Thread nD τ).loc main_arg12)
    a13 := m ((c.tc : Thread nD τ).loc main_arg13)
    a14 := m ((c.tc : Thread nD τ).loc main_arg14)
    a15 := m ((c.tc : Thread nD τ).loc main_arg15)
    a16 := m ((c.tc : Thread nD τ).loc main_arg16)
    a17 := m ((c.tc : Thread nD τ).loc main_arg17)
    a18 := m ((c.tc : Thread nD τ).loc main_arg18)
    a19 := m ((c.tc : Thread nD τ).loc main_arg19)
    a20 := m ((c.tc : Thread nD τ).loc main_arg20)
    a21 := m ((c.tc : Thread nD τ).loc main_arg21)
    a22 := m ((c.tc : Thread nD τ).loc main_arg22)
    a23 := m ((c.tc : Thread nD τ).loc main_arg23)

set_option maxRecDepth 16384 in
/-- The reference's first result: the users after the second layer. -/
theorem ref_users (m : (ℓ : Loc nD τ sig) → Buf (Elt F) ℓ) (c : Dev nD) :
    Cert.ReferenceIdeal.Value.res_main_v100 m c = hu2 (refArgs m c) := by
  unfold Cert.ReferenceIdeal.Value.res_main_v100
  rfl

set_option maxRecDepth 16384 in
/-- The reference's second result: the recipes after the second layer. -/
theorem ref_recipes (m : (ℓ : Loc nD τ sig) → Buf (Elt F) ℓ) (c : Dev nD) :
    Cert.ReferenceIdeal.Value.res_main_v125 m c = hr2 (refArgs m c) := by
  unfold Cert.ReferenceIdeal.Value.res_main_v125
  rfl

end Cert.Bridge

end
-- ==== Proof.PreRange.lean ====
/-
  What the precondition says of the four index arrays.

  The precondition is a conjunction of scalar tests; the last four say, of each index array, that every entry is at
  least zero and below the height of the table it indexes. A conjunction that is one has every conjunct one, an
  all-reduction that is one has every entry one, and a signed comparison that is one is the inequality of the
  words read as integers.
-/
import proofs.«430915_j14465449853445_1_alg».proof.Defs
import proofs.«430915_j14465449853445_1_alg».proof.Proof.Gen.Pre_finite_inputs
import proofs.«430915_j14465449853445_1_alg».proof.Proof.Stages
import Idealize.ShloMosaic.Lib.ReduceAll
import Idealize.ShloMosaic.Lib.Affine
import Idealize.ShloMosaic.Lib.ValueIdx

noncomputable section

namespace Cert.Bridge

open Idealize.ShloMosaic Idealize.ShloMosaic.TcCoe

/-! ## One range test, read back -/

/-- The scalar shape has a single index. -/
theorem subsingleton_scalarIdx : Subsingleton Cert.Pre_finite_inputs.S_.Idx :=
  ⟨fun a b => funext fun d => d.elim0⟩

/-- One entry of the range test: the conjunction of "at least the broadcast zero" and "below the broadcast
    bound" is one exactly when the entry, read signed, lies between zero and the bound. -/
theorem range_of_entry {s : Shape} (hb : Cert.Pre_finite_inputs.S_.BroadcastsInDim s (![] : Fin 0 → Fin s.rank))
    (idx : IVec s 32) (Nw : BitVec 32) (N : Int) (hN : Nw.toInt = N) (k : s.Idx)
    (e : andi (cmpi .sge idx (broadcastInDim s ![] hb (constantI Cert.Pre_finite_inputs.S_ 32 0#32)))
          (cmpi .slt idx (broadcastInDim s ![] hb (constantI Cert.Pre_finite_inputs.S_ 32 Nw))) k = 1#1) :
    0 ≤ (idx k).toInt ∧ (idx k).toInt < N := by
  -- the vector conjunction at an entry is the conjunction of the two entries
  obtain ⟨h1, h2⟩ := IntOp.andi_eq_one.1 e
  -- each comparison at an entry compares the entry with the broadcast constant, which is the constant
  have g1 : (0#32 : BitVec 32).toInt ≤ (idx k).toInt := IntOp.cmpi_sge.1 h1
  have g2 : (idx k).toInt < Nw.toInt := IntOp.cmpi_slt.1 h2
  have z : (0#32 : BitVec 32).toInt = 0 := by decide
  rw [z] at g1
  rw [hN] at g2
  exact ⟨g1, g2⟩

/-- The all-reduction of the range test being one puts every entry of the array in range. -/
theorem inRange_of_all {s : Shape} {axes : List (Fin s.rank)}
    (hr : s.ReducesTo axes Cert.Pre_finite_inputs.S_) (hu : 0 < Cert.Pre_finite_inputs.S_.numel)
    (hb : Cert.Pre_finite_inputs.S_.BroadcastsInDim s (![] : Fin 0 → Fin s.rank))
    (idx : IVec s 32) (Nw : BitVec 32) (N : Int) (hN : Nw.toInt = N) (init : IVec Cert.Pre_finite_inputs.S_ 1)
    (e : Host.reduce IntOp.andi
          (andi (cmpi .sge idx (broadcastInDim s ![] hb (constantI Cert.Pre_finite_inputs.S_ 32 0#32)))
            (cmpi .slt idx (broadcastInDim s ![] hb (constantI Cert.Pre_finite_inputs.S_ 32 Nw))))
          init hr hu ValueIdx.ix0 = 1#1) :
    InRange idx N := by
  intro k
  haveI := subsingleton_scalarIdx
  exact range_of_entry hb idx Nw N hN k (Host.reduce_andi_all _ init hr hu ValueIdx.ix0 e k)

/-! ## The last two pieces of the printed predicate -/

section parts
open Cert.Pre_finite_inputs Cert.Pre_finite_inputs.Facts
variable [Cert.Pre_finite_inputs.Facts] {F : FTy → Type} [FloatOps F]

/-- The last piece is the conjunction of its two scalar inputs and the range test of the fourth index array. -/
theorem part7_one (a5 : IVec S1000000 32) (v112 v118 : IVec S_ 1)
    (e : fn_part7 (F := F) a5 v112 v118 = fun _ => 1#1) :
    v112 ValueIdx.ix0 = 1#1 ∧ v118 ValueIdx.ix0 = 1#1 ∧ InRange a5 100000 := by
  have e0 := congrFun e ValueIdx.ix0
  obtain ⟨h1, h2⟩ := IntOp.andi_eq_one.1 e0
  obtain ⟨h3, h4⟩ := IntOp.andi_eq_one.1 h1
  exact ⟨h3, h4, inRange_of_all _ _ _ a5 100000#32 100000 (by decide) _ h2⟩

/-- The piece before it finishes the first array's test (its lower half and its bound come in as inputs),
    holds the whole tests of the second and third arrays, and hands the rest to the last piece. -/
theorem part6_one (a2 : IVec S50000 32) (a3 : IVec S100000 32) (a4 a5 : IVec S1000000 32)
    (v98 : IVec S_ 1) (v100 : IVec S50000 1) (v101 : IVec S50000 32)
    (e : fn_part6 (F := F) a2 a3 a4 a5 v98 v100 v101 = fun _ => 1#1) :
    (∀ k, andi v100 (cmpi .slt a2 v101) k = 1#1)
      ∧ InRange a3 100000 ∧ InRange a4 50000 ∧ InRange a5 100000 := by
  obtain ⟨h112, h118, r5⟩ := part7_one (F := F) _ _ _ e
  obtain ⟨h105, h111⟩ := IntOp.andi_eq_one.1 h112
  obtain ⟨-, h104⟩ := IntOp.andi_eq_one.1 h105
  haveI := subsingleton_scalarIdx
  exact ⟨fun k => Host.reduce_andi_all _ _ _ _ ValueIdx.ix0 h104 k,
    inRange_of_all _ _ _ a3 100000#32 100000 (by decide) _ h111,
    inRange_of_all _ _ _ a4 50000#32 50000 (by decide) _ h118, r5⟩

end parts

/-- Under the precondition each of the four index arrays lies in the range of the table it indexes. -/
theorem inRange_of_pre [hPre : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    InRange (m ((c.tc : Thread Cert.KernelIdeal.nD Cert.KernelIdeal.τ).loc Cert.KernelIdeal.main_arg2)) 50000
    ∧ InRange (m ((c.tc : Thread Cert.KernelIdeal.nD Cert.KernelIdeal.τ).loc Cert.KernelIdeal.main_arg3)) 100000
    ∧ InRange (m ((c.tc : Thread Cert.KernelIdeal.nD Cert.KernelIdeal.τ).loc Cert.KernelIdeal.main_arg4)) 50000
    ∧ InRange (m ((c.tc : Thread Cert.KernelIdeal.nD Cert.KernelIdeal.τ).loc Cert.KernelIdeal.main_arg5)) 100000 := by
  -- the predicate's value is, by unfolding its pieces in turn, the sixth piece at the first array's half-made test
  obtain ⟨h2, r3, r4, r5⟩ := part6_one (F := Ideal) _ _ _ _ _ _ _ (h c)
  exact ⟨fun k => range_of_entry _ _ 50000#32 50000 (by decide) k (h2 k), r3, r4, r5⟩

end Cert.Bridge

end
-- ==== Proof.lean ====
/-
  The certificate of the two-layer heterogeneous message-passing network: the tiled kernel computes, over the
  extended reals, what the plain reference computes.

  Both programs run, fault-free, and leave their arguments as launched: the kernel's frames are the generated frame
  certificates of its six launches among the host stretches, the reference's is its run read back. The idealization
  rewrote nothing. For the values: the kernel's two result buffers end at the last segment boundary's contents,
  which are the users' and the recipes' second-layer staged values of the argument arrays (the launches' dense
  stages are the reference's matrix products, bias rows and clamps, a product accumulated from zero being the plain
  product over the extended reals; the kernel's row lookups with fill are the reference's plain lookups, because
  the precondition keeps every index inside its table); the reference's results are the same staged values of its
  own arguments by unfolding; and the two argument bundles agree.
-/
import proofs.«430915_j14465449853445_1_alg».proof.Defs
import proofs.«430915_j14465449853445_1_alg».proof.Proof.Gen.Kernel
import proofs.«430915_j14465449853445_1_alg».proof.Proof.Gen.Kernel.Skeleton
import proofs.«430915_j14465449853445_1_alg».proof.Proof.Gen.Kernel.Launch
import proofs.«430915_j14465449853445_1_alg».proof.Proof.Gen.Kernel.Points
import proofs.«430915_j14465449853445_1_alg».proof.Proof.Gen.Kernel.Frame
import proofs.«430915_j14465449853445_1_alg».proof.Proof.Gen.KernelIdeal
import proofs.«430915_j14465449853445_1_alg».proof.Proof.Gen.KernelIdeal.Skeleton
import proofs.«430915_j14465449853445_1_alg».proof.Proof.Gen.KernelIdeal.Launch
import proofs.«430915_j14465449853445_1_alg».proof.Proof.Gen.KernelIdeal.Points
import proofs.«430915_j14465449853445_1_alg».proof.Proof.Gen.KernelIdeal.Frame
import proofs.«430915_j14465449853445_1_alg».proof.Proof.Gen.ReferenceIdeal
import proofs.«430915_j14465449853445_1_alg».proof.Proof.Gen.ReferenceIdeal.Run
import proofs.«430915_j14465449853445_1_alg».proof.Proof.Gen.Pre_finite_inputs
import proofs.«430915_j14465449853445_1_alg».proof.Proof.KernelRun
import proofs.«430915_j14465449853445_1_alg».proof.Proof.Chain
import proofs.«430915_j14465449853445_1_alg».proof.Proof.RefStages
import proofs.«430915_j14465449853445_1_alg».proof.Proof.PreRange
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run with the results dropped. -/
theorem frame_reference : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Both programs end with the users' and the recipes' second-layer values of the kernel's argument arrays. -/
theorem algebraic : Cert.algebraic_KernelIdeal_ReferenceIdeal := by
  intro m ρ m' ρ' hpre hagree
  refine ⟨fun c => Cert.Bridge.hu2 (Cert.KernelIdeal.Val.kerArgs m c), fun c => Cert.Bridge.hr2 (Cert.KernelIdeal.Val.kerArgs m c), ?_, ?_⟩
  · refine (θ_run Cert.KernelIdeal.defs _ _).mono (fun r h c => ?_) (Cert.KernelIdeal.Named.run_named (F := Ideal) m ρ)
    obtain ⟨r2, r3, r4, r5⟩ := Cert.Bridge.inRange_of_pre m hpre c
    exact ⟨(h c).1.trans (Cert.KernelIdeal.Val.val_main_v50_W18 m ρ c r2 r3 r4 r5),
      (h c).2.1.trans (Cert.KernelIdeal.Val.val_main_v65_W18 m ρ c r2 r3 r4 r5), (h c).2.2⟩
  · refine (θ_run Cert.ReferenceIdeal.defs _ _).mono (fun r h c => ?_) (Cert.ReferenceIdeal.Value.run (F := Ideal) m' ρ')
    have ha : Cert.Bridge.refArgs m' c = Cert.KernelIdeal.Val.kerArgs m c := by
      obtain ⟨e0, e1, e2, e3, e4, e5, e6, e7, e8, e9, e10, e11, e12, e13, e14, e15, e16, e17, e18, e19, e20, e21, e22, e23⟩ := hagree c
      exact Cert.Bridge.Args.ext e0 e1 e2 e3 e4 e5 e6 e7 e8 e9 e10 e11 e12 e13 e14 e15 e16 e17 e18 e19 e20 e21 e22 e23
    exact ⟨(h c).1.trans ((Cert.Bridge.ref_users m' c).trans (congrArg Cert.Bridge.hu2 ha)),
      (h c).2.1.trans ((Cert.Bridge.ref_recipes m' c).trans (congrArg Cert.Bridge.hr2 ha)), (h c).2.2⟩

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
